-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x65536x8 : Shape := ⟨3, ![64, 65536, 8]⟩
abbrev S64x30x17x2 : Shape := ⟨4, ![64, 30, 17, 2]⟩
abbrev S_ : Shape := ⟨0, ![]⟩
abbrev S64x30x17x1 : Shape := ⟨4, ![64, 30, 17, 1]⟩
abbrev S64x30x17 : Shape := ⟨3, ![64, 30, 17]⟩

class Facts : Prop where
  bcast_S_S64x65536x8 : S_.BroadcastsInDim S64x65536x8 (![] : Fin 0 → Fin S64x65536x8.rank)
  reducesTo_S64x65536x8_S_d0_1_2 : S64x65536x8.ReducesTo [0, 1, 2] S_
  h_S_ : 0 < S_.numel
  slices_S64x30x17x2_S64x30x17x1_0_0_0_0 : S64x30x17x2.Slices ![0, 0, 0, 0] S64x30x17x1
  shapeCasts_S64x30x17x1_S64x30x17 : S64x30x17x1.ShapeCasts S64x30x17
  bcast_S_S64x30x17 : S_.BroadcastsInDim S64x30x17 (![] : Fin 0 → Fin S64x30x17.rank)
  reducesTo_S64x30x17_S_d0_1_2 : S64x30x17.ReducesTo [0, 1, 2] S_

variable [Facts]

def fn {F : FTy → Type} [FloatOps F] (main_arg0 : FVec F S64x65536x8 .f32) (main_arg1 : IVec S64x30x17x2 32) : IVec S_ 1 :=
  let main_v0 : FVec F S64x65536x8 .f32 := Host.absf main_arg0
  let main_cst : FVec F S_ .f32 := constant S_ .f32 0x7F800000#32
  let main_v1 : FVec F S64x65536x8 .f32 := broadcastInDim S64x65536x8 ![] bcast_S_S64x65536x8 main_cst
  let main_v2 : IVec S64x65536x8 1 := cmpf .olt main_v0 main_v1
  let main_c : IVec S_ 1 := constantI S_ 1 1#1
  let main_v3 : IVec S_ 1 := (fun x v => Host.reduce IntOp.andi x v reducesTo_S64x65536x8_S_d0_1_2 h_S_) main_v2 main_c
  let main_v4 : IVec S64x30x17x1 32 := (extractStridedSlice S64x30x17x1 ![0, 0, 0, 0] · slices_S64x30x17x2_S64x30x17x1_0_0_0_0) main_arg1
  let main_v5 : IVec S64x30x17 32 := shapeCast S64x30x17 main_v4 shapeCasts_S64x30x17x1_S64x30x17
  let main_c_0 : IVec S_ 32 := constantI S_ 32 0#32
  let main_v6 : IVec S64x30x17 32 := broadcastInDim S64x30x17 ![] bcast_S_S64x30x17 main_c_0
  let main_v7 : IVec S64x30x17 1 := cmpi .sge main_v5 main_v6
  let main_c_1 : IVec S_ 1 := constantI S_ 1 1#1
  let main_v8 : IVec S_ 1 := (fun x v => Host.reduce IntOp.andi x v reducesTo_S64x30x17_S_d0_1_2 h_S_) main_v7 main_c_1
  let main_v9 : IVec S_ 1 := andi main_v3 main_v8
  let main_v10 : IVec S64x30x17x1 32 := (extractStridedSlice S64x30x17x1 ![0, 0, 0, 0] · slices_S64x30x17x2_S64x30x17x1_0_0_0_0) main_arg1
  let main_v11 : IVec S64x30x17 32 := shapeCast S64x30x17 main_v10 shapeCasts_S64x30x17x1_S64x30x17
  let main_c_2 : IVec S_ 32 := constantI S_ 32 65536#32
  let main_v12 : IVec S64x30x17 32 := broadcastInDim S64x30x17 ![] bcast_S_S64x30x17 main_c_2
  let main_v13 : IVec S64x30x17 1 := cmpi .slt main_v11 main_v12
  let main_c_3 : IVec S_ 1 := constantI S_ 1 1#1
  let main_v14 : IVec S_ 1 := (fun x v => Host.reduce IntOp.andi x v reducesTo_S64x30x17_S_d0_1_2 h_S_) main_v13 main_c_3
  let main_v15 : IVec S_ 1 := andi main_v9 main_v14
  main_v15
-- ==== Kernel.lean ====
abbrev S64x65536x8 : Shape := ⟨3, ![64, 65536, 8]⟩
abbrev S64x30x17x2 : Shape := ⟨4, ![64, 30, 17, 2]⟩
abbrev S64x30x17x1 : Shape := ⟨4, ![64, 30, 17, 1]⟩
abbrev S64x30x17 : Shape := ⟨3, ![64, 30, 17]⟩
abbrev S_ : Shape := ⟨0, ![]⟩
abbrev S64x32x17 : Shape := ⟨3, ![64, 32, 17]⟩
abbrev S64x1x2 : Shape := ⟨3, ![64, 1, 2]⟩
abbrev S1x8192x8 : Shape := ⟨3, ![1, 8192, 8]⟩
abbrev S1x32x17 : Shape := ⟨3, ![1, 32, 17]⟩
abbrev S1x1x2 : Shape := ⟨3, ![1, 1, 2]⟩
abbrev S32x16 : Shape := ⟨2, ![32, 16]⟩
abbrev S8192x8 : Shape := ⟨2, ![8192, 8]⟩
abbrev S8192x16 : Shape := ⟨2, ![8192, 16]⟩
abbrev S32x17 : Shape := ⟨2, ![32, 17]⟩
abbrev S32x8192 : Shape := ⟨2, ![32, 8192]⟩
abbrev S32x1 : Shape := ⟨2, ![32, 1]⟩
abbrev S32 : Shape := ⟨1, ![32]⟩
abbrev S32x8 : Shape := ⟨2, ![32, 8]⟩
abbrev S1 : Shape := ⟨1, ![1]⟩
abbrev S1x1 : Shape := ⟨2, ![1, 1]⟩
abbrev S32x32 : Shape := ⟨2, ![32, 32]⟩
abbrev S1x32 : Shape := ⟨2, ![1, 32]⟩
abbrev S1x2 : Shape := ⟨2, ![1, 2]⟩
abbrev S64x2 : Shape := ⟨2, ![64, 2]⟩

abbrev nBuf : Space → Nat
  | .hbm => 18
  | .vmem => 9
  | .smem => 0
  | _ => 0

abbrev bufTy : (tb : Table) → Fin (tcTables nBuf tb) → BufTy
  | .hbm, ⟨0, _⟩ => ⟨S64x65536x8, .f32⟩
  | .hbm, ⟨1, _⟩ => ⟨S64x30x17x2, .i32⟩
  | .hbm, ⟨2, _⟩ => ⟨S64x30x17x1, .i32⟩
  | .hbm, ⟨3, _⟩ => ⟨S64x30x17, .i32⟩
  | .hbm, ⟨4, _⟩ => ⟨S64x30x17x1, .i32⟩
  | .hbm, ⟨5, _⟩ => ⟨S64x30x17, .i32⟩
  | .hbm, ⟨6, _⟩ => ⟨S_, .i32⟩
  | .hbm, ⟨7, _⟩ => ⟨S64x30x17, .i32⟩
  | .hbm, ⟨8, _⟩ => ⟨S64x30x17, .i1⟩
  | .hbm, ⟨9, _⟩ => ⟨S64x30x17, .f32⟩
  | .hbm, ⟨10, _⟩ => ⟨S_, .i32⟩
  | .hbm, ⟨11, _⟩ => ⟨S_, .i32⟩
  | .hbm, ⟨12, _⟩ => ⟨S64x32x17, .i32⟩
  | .hbm, ⟨13, _⟩ => ⟨S_, .i32⟩
  | .hbm, ⟨14, _⟩ => ⟨S_, .f32⟩
  | .hbm, ⟨15, _⟩ => ⟨S64x32x17, .f32⟩
  | .hbm, ⟨16, _⟩ => ⟨S64x1x2, .f32⟩
  | .hbm, ⟨17, _⟩ => ⟨S64x2, .f32⟩
  | .local _ .vmem, ⟨0, _⟩ => ⟨S1x8192x8, .f32⟩
  | .local _ .vmem, ⟨1, _⟩ => ⟨S1x8192x8, .f32⟩
  | .local _ .vmem, ⟨2, _⟩ => ⟨S1x32x17, .i32⟩
  | .local _ .vmem, ⟨3, _⟩ => ⟨S1x32x17, .i32⟩
  | .local _ .vmem, ⟨4, _⟩ => ⟨S1x32x17, .f32⟩
  | .local _ .vmem, ⟨5, _⟩ => ⟨S1x32x17, .f32⟩
  | .local _ .vmem, ⟨6, _⟩ => ⟨S1x1x2, .f32⟩
  | .local _ .vmem, ⟨7, _⟩ => ⟨S1x1x2, .f32⟩
  | .local _ .vmem, ⟨8, _⟩ => ⟨S32x16, .f32⟩
  | _, _ => ⟨S64x65536x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_call0_v0 : Ref sig .tc := ⟨.hbm, 11, rfl⟩
abbrev main_v7 : Ref sig .tc := ⟨.hbm, 12, rfl⟩
abbrev main_c_1 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v245 : BitVec 1 := Scalar.cmpi .eq arg1 c7_i32
  let v246 : BitVec 32 := Scalar.extui v245
  let c0_i32_14 : BitVec 32 := 0#32
  let v247 : BitVec 1 := Scalar.cmpi .ne v246 c0_i32_14
  v247

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x17 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x17 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S64x30x17x2_S64x30x17x1_0_0_0_0 : S64x30x17x2.Slices ![0, 0, 0, 0] S64x30x17x1
  shapeCasts_S64x30x17x1_S64x30x17 : S64x30x17x1.ShapeCasts S64x30x17
  slices_S64x30x17x2_S64x30x17x1_0_0_0_1 : S64x30x17x2.Slices ![0, 0, 0, 1] S64x30x17x1
  bcast_S_S64x30x17 : S_.BroadcastsInDim S64x30x17 (![] : Fin 0 → Fin S64x30x17.rank)
  pads_S64x30x17_S64x32x17_000_020_000 : S64x30x17.Pads (![0, 0, 0] : Fin 3 → Nat) ![0, 2, 0] ![0, 0, 0] S64x32x17
  h_S_ : 0 < S_.numel
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x8192x8_S1x8192x8_0_0_0 : ∀ a, (![0, 0, 0] : Fin 3 → Nat) a + S1x8192x8.size a ≤ S1x8192x8.size a
  h_S1x8192x8 : 0 < S1x8192x8.numel
  shapeCasts_S1x8192x8_S8192x8 : S1x8192x8.ShapeCasts S8192x8
  concatenates_S8192x8_S8192x8_S8192x16_d1 : Shape.Concatenates [S8192x8, S8192x8] S8192x16 1
  inb_S1x32x17_S1x32x17_0_0_0 : ∀ a, (![0, 0, 0] : Fin 3 → Nat) a + S1x32x17.size a ≤ S1x32x17.size a
  h_S1x32x17 : 0 < S1x32x17.numel
  shapeCasts_S1x32x17_S32x17 : S1x32x17.ShapeCasts S32x17
  iota_S32x8192_d1_w32 : S32x8192.Iotas .tc 32 [1]
  slices_S32x17_o0_0_S32x1 : S32x17.Slices ![0, 0] S32x1
  shapeCasts_S32x1_S32 : S32x1.ShapeCasts S32
  shapeCasts_S32_S32x1 : S32.ShapeCasts S32x1
  broadcasts_S32x1_S32x8192 : S32x1.Broadcasts S32x8192
  natLt_1_32 : 1 < 32
  slices_S32x17_o0_1_S32x1 : S32x17.Slices ![0, 1] S32x1
  slices_S32x17_o0_2_S32x1 : S32x17.Slices ![0, 2] S32x1
  slices_S32x17_o0_3_S32x1 : S32x17.Slices ![0, 3] S32x1
  slices_S32x17_o0_4_S32x1 : S32x17.Slices ![0, 4] S32x1
  slices_S32x17_o0_5_S32x1 : S32x17.Slices ![0, 5] S32x1
  slices_S32x17_o0_6_S32x1 : S32x17.Slices ![0, 6] S32x1
  slices_S32x17_o0_7_S32x1 : S32x17.Slices ![0, 7] S32x1
  slices_S32x17_o0_8_S32x1 : S32x17.Slices ![0, 8] S32x1
  slices_S32x17_o0_9_S32x1 : S32x17.Slices ![0, 9] S32x1
  slices_S32x17_o0_10_S32x1 : S32x17.Slices ![0, 10] S32x1
  slices_S32x17_o0_11_S32x1 : S32x17.Slices ![0, 11] S32x1
  slices_S32x17_o0_12_S32x1 : S32x17.Slices ![0, 12] S32x1
  slices_S32x17_o0_13_S32x1 : S32x17.Slices ![0, 13] S32x1
  slices_S32x17_o0_14_S32x1 : S32x17.Slices ![0, 14] S32x1
  slices_S32x17_o0_15_S32x1 : S32x17.Slices ![0, 15] S32x1
  slices_S32x17_o0_16_S32x1 : S32x17.Slices ![0, 16] S32x1
  bitsLt_bf16_f32 : FTy.bits .bf16 < FTy.bits .f32
  reduces_S32x17_S32 : S32x17.Reduces [1] S32
  slices_S32x16_o0_0_S32x8 : S32x16.Slices ![0, 0] S32x8
  slices_S32x16_o0_8_S32x8 : S32x16.Slices ![0, 8] S32x8
  broadcasts_S32x1_S32x8 : S32x1.Broadcasts S32x8
  reduces_S32x8_S32 : S32x8.Reduces [1] S32
  reduces_S32x1_S1 : S32x1.Reduces [0] S1
  shapeCasts_S1_S1x1 : S1.ShapeCasts S1x1
  transposes_S32x1_p1_0_S1x32 : S32x1.Transposes [1, 0] S1x32
  broadcasts_S32x1_S32x32 : S32x1.Broadcasts S32x32
  broadcasts_S1x32_S32x32 : S1x32.Broadcasts S32x32
  iota_S32x32_d0_w32 : S32x32.Iotas .tc 32 [0]
  iota_S32x32_d1_w32 : S32x32.Iotas .tc 32 [1]
  reduces_S32x32_S32 : S32x32.Reduces [1] S32
  concatenates_S1x1_S1x1_S1x2_d1 : Shape.Concatenates [S1x1, S1x1] S1x2 1
  shapeCasts_S1x2_S1x1x2 : S1x2.ShapeCasts S1x1x2
  inb_S1x1x2_S1x1x2_0_0_0 : ∀ a, (![0, 0, 0] : Fin 3 → Nat) a + S1x1x2.size a ≤ S1x1x2.size a
  h_S1x1x2 : 0 < S1x1x2.numel
  shapeCasts_S64x1x2_S64x2 : S64x1x2.ShapeCasts S64x2
  dot_S32x8192_S8192x16_S32x16_1_0_0_1_n_n_wf : DotDims.WF S32x8192 S8192x16 S32x16 [1] [0] [0] [1] [] []
  dot_S32x8_S32x8_S32x32_1_1_0_0_n_n_wf : DotDims.WF S32x8 S32x8 S32x32 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x8.size a ≤ S64x65536x8.size a
  hwx0_0 : ∀ i : grid0.Coords, EltTy.bits .f32 = 32 ∨ (Rect.block (s := S64x65536x8) S1x8192x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x17.size a ≤ S64x32x17.size a
  hwx0_1 : ∀ i : grid0.Coords, EltTy.bits .i32 = 32 ∨ (Rect.block (s := S64x32x17) S1x32x17.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x17.size a ≤ S64x32x17.size a
  hwx0_2 : ∀ i : grid0.Coords, EltTy.bits .f32 = 32 ∨ (Rect.block (s := S64x32x17) S1x32x17.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2.size a ≤ S64x1x2.size a
  hwx0_3 : ∀ i : grid0.Coords, EltTy.bits .f32 = 32 ∨ (Rect.block (s := S64x1x2) S1x1x2.size (cc0_transform_3 i) (hinb0_3 i)).WholeWords (EltTy.packing .f32)

variable [Facts₀]

def dot_S32x8192_S8192x16_S32x16_1_0_0_1_n_n : DotDims S32x8192 S8192x16 S32x16 where
  lhsContracting := [1]
  rhsContracting := [0]
  lhsNonContracting := [0]
  rhsNonContracting := [1]
  lhsBatch := []
  rhsBatch := []
  wf := dot_S32x8192_S8192x16_S32x16_1_0_0_1_n_n_wf
def dot_S32x8_S32x8_S32x32_1_1_0_0_n_n : DotDims S32x8 S32x8 S32x32 where
  lhsContracting := [1]
  rhsContracting := [1]
  lhsNonContracting := [0]
  rhsNonContracting := [0]
  lhsBatch := []
  rhsBatch := []
  wf := dot_S32x8_S32x8_S32x32_1_1_0_0_n_n_wf

abbrev win0_0 : Pipeline.Window sig grid0 :=
  Pipeline.Window.ofSpec (Memref.whole main_arg0) S1x8192x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x32x17.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x32x17.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x65536x8 : Shape := ⟨3, ![64, 65536, 8]⟩
abbrev S64x30x17x2 : Shape := ⟨4, ![64, 30, 17, 2]⟩
abbrev S64x30x17x1 : Shape := ⟨4, ![64, 30, 17, 1]⟩
abbrev S64x30x17 : Shape := ⟨3, ![64, 30, 17]⟩
abbrev S_ : Shape := ⟨0, ![]⟩
abbrev S64x510x1 : Shape := ⟨3, ![64, 510, 1]⟩
abbrev S1 : Shape := ⟨1, ![1]⟩
abbrev S1x1x1 : Shape := ⟨3, ![1, 1, 1]⟩
abbrev S64x510 : Shape := ⟨2, ![64, 510]⟩
abbrev S64x510x8 : Shape := ⟨3, ![64, 510, 8]⟩
abbrev S64x30x17x8 : Shape := ⟨4, ![64, 30, 17, 8]⟩
abbrev S64x30 : Shape := ⟨2, ![64, 30]⟩
abbrev S64x30x8 : Shape := ⟨3, ![64, 30, 8]⟩
abbrev S64x30x1 : Shape := ⟨3, ![64, 30, 1]⟩
abbrev S64x30x1x8 : Shape := ⟨4, ![64, 30, 1, 8]⟩
abbrev S64 : Shape := ⟨1, ![64]⟩
abbrev S64x1x30x8 : Shape := ⟨4, ![64, 1, 30, 8]⟩
abbrev S64x30x30x8 : Shape := ⟨4, ![64, 30, 30, 8]⟩
abbrev S64x30x30 : Shape := ⟨3, ![64, 30, 30]⟩
abbrev S64x1x30 : Shape := ⟨3, ![64, 1, 30]⟩
abbrev S30x30 : Shape := ⟨2, ![30, 30]⟩
abbrev S1x30x30 : Shape := ⟨3, ![1, 30, 30]⟩
abbrev S64x1 : Shape := ⟨2, ![64, 1]⟩
abbrev S64x2 : Shape := ⟨2, ![64, 2]⟩

abbrev nBuf : Space → Nat
  | .hbm => 124
  | .vmem => 0
  | .smem => 0
  | _ => 0

abbrev bufTy : (tb : Table) → Fin (tcTables nBuf tb) → BufTy
  | .hbm, ⟨0, _⟩ => ⟨S64x65536x8, .f32⟩
  | .hbm, ⟨1, _⟩ => ⟨S64x30x17x2, .i32⟩
  | .hbm, ⟨2, _⟩ => ⟨S64x30x17x1, .i32⟩
  | .hbm, ⟨3, _⟩ => ⟨S64x30x17, .i32⟩
  | .hbm, ⟨4, _⟩ => ⟨S64x30x17x1, .i32⟩
  | .hbm, ⟨5, _⟩ => ⟨S64x30x17, .i32⟩
  | .hbm, ⟨6, _⟩ => ⟨S_, .i32⟩
  | .hbm, ⟨7, _⟩ => ⟨S64x30x17, .i32⟩
  | .hbm, ⟨8, _⟩ => ⟨S64x30x17, .i1⟩
  | .hbm, ⟨9, _⟩ => ⟨S64x30x17, .f32⟩
  | .hbm, ⟨10, _⟩ => ⟨S64x510x1, .i32⟩
  | .hbm, ⟨11, _⟩ => ⟨S_, .i32⟩
  | .hbm, ⟨12, _⟩ => ⟨S64x510x1, .i32⟩
  | .hbm, ⟨13, _⟩ => ⟨S64x510x1, .i1⟩
  | .hbm, ⟨14, _⟩ => ⟨S_, .i32⟩
  | .hbm, ⟨15, _⟩ => ⟨S64x510x1, .i32⟩
  | .hbm, ⟨16, _⟩ => ⟨S64x510x1, .i32⟩
  | .hbm, ⟨17, _⟩ => ⟨S64x510x1, .i32⟩
  | .hbm, ⟨18, _⟩ => ⟨S1, .i32⟩
  | .hbm, ⟨19, _⟩ => ⟨S_, .i32⟩
  | .hbm, ⟨20, _⟩ => ⟨S64x510x1, .i32⟩
  | .hbm, ⟨21, _⟩ => ⟨S64x510x1, .i1⟩
  | .hbm, ⟨22, _⟩ => ⟨S1x1x1, .i32⟩
  | .hbm, ⟨23, _⟩ => ⟨S64x510x1, .i32⟩
  | .hbm, ⟨24, _⟩ => ⟨S64x510x1, .i1⟩
  | .hbm, ⟨25, _⟩ => ⟨S64x510x1, .i1⟩
  | .hbm, ⟨26, _⟩ => ⟨S_, .i1⟩
  | .hbm, ⟨27, _⟩ => ⟨S64x510, .i1⟩
  | .hbm, ⟨28, _⟩ => ⟨S64x510x8, .f32⟩
  | .hbm, ⟨29, _⟩ => ⟨S64x510x8, .i1⟩
  | .hbm, ⟨30, _⟩ => ⟨S_, .f32⟩
  | .hbm, ⟨31, _⟩ => ⟨S64x510x8, .f32⟩
  | .hbm, ⟨32, _⟩ => ⟨S64x510x8, .f32⟩
  | .hbm, ⟨33, _⟩ => ⟨S64x30x17x8, .f32⟩
  | .hbm, ⟨34, _⟩ => ⟨S_, .f32⟩
  | .hbm, ⟨35, _⟩ => ⟨S64x30, .f32⟩
  | .hbm, ⟨36, _⟩ => ⟨S_, .f32⟩
  | .hbm, ⟨37, _⟩ => ⟨S64x30, .f32⟩
  | .hbm, ⟨38, _⟩ => ⟨S64x30, .i1⟩
  | .hbm, ⟨39, _⟩ => ⟨S_, .f32⟩
  | .hbm, ⟨40, _⟩ => ⟨S64x30, .f32⟩
  | .hbm, ⟨41, _⟩ => ⟨S64x30, .f32⟩
  | .hbm, ⟨42, _⟩ => ⟨S64x30x17x1, .f32⟩
  | .hbm, ⟨43, _⟩ => ⟨S64x30x17x8, .f32⟩
  | .hbm, ⟨44, _⟩ => ⟨S64x30x17x8, .f32⟩
  | .hbm, ⟨45, _⟩ => ⟨S_, .f32⟩
  | .hbm, ⟨46, _⟩ => ⟨S64x30x8, .f32⟩
  | .hbm, ⟨47, _⟩ => ⟨S64x30x1, .f32⟩
  | .hbm, ⟨48, _⟩ => ⟨S64x30x8, .f32⟩
  | .hbm, ⟨49, _⟩ => ⟨S64x30x8, .f32⟩
  | .hbm, ⟨50, _⟩ => ⟨S64x30x1x8, .f32⟩
  | .hbm, ⟨51, _⟩ => ⟨S64x30x17x8, .f32⟩
  | .hbm, ⟨52, _⟩ => ⟨S64x30x17x8, .f32⟩
  | .hbm, ⟨53, _⟩ => ⟨S64x30x17x8, .f32⟩
  | .hbm, ⟨54, _⟩ => ⟨S_, .f32⟩
  | .hbm, ⟨55, _⟩ => ⟨S64x30x17, .f32⟩
  | .hbm, ⟨56, _⟩ => ⟨S_, .f32⟩
  | .hbm, ⟨57, _⟩ => ⟨S64x30x17, .f32⟩
  | .hbm, ⟨58, _⟩ => ⟨S64x30x17, .f32⟩
  | .hbm, ⟨59, _⟩ => ⟨S64x30x17, .f32⟩
  | .hbm, ⟨60, _⟩ => ⟨S_, .f32⟩
  | .hbm, ⟨61, _⟩ => ⟨S64x30, .f32⟩
  | .hbm, ⟨62, _⟩ => ⟨S64x30, .f32⟩
  | .hbm, ⟨63, _⟩ => ⟨S64x30, .f32⟩
  | .hbm, ⟨64, _⟩ => ⟨S_, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S64x30x1x8, .f32⟩
  | .hbm, ⟨73, _⟩ => ⟨S64x1x30x8, .f32⟩
  | .hbm, ⟨74, _⟩ => ⟨S64x30x30x8, .f32⟩
  | .hbm, ⟨75, _⟩ => ⟨S64x30x30x8, .f32⟩
  | .hbm, ⟨76, _⟩ => ⟨S64x30x30x8, .f32⟩
  | .hbm, ⟨77, _⟩ => ⟨S64x30x30x8, .f32⟩
  | .hbm, ⟨78, _⟩ => ⟨S_, .f32⟩
  | .hbm, ⟨79, _⟩ => ⟨S64x30x30, .f32⟩
  | .hbm, ⟨80, _⟩ => ⟨S64x30x1, .i1⟩
  | .hbm, ⟨81, _⟩ => ⟨S64x1x30, .i1⟩
  | .hbm, ⟨82, _⟩ => ⟨S64x30x30, .i1⟩
  | .hbm, ⟨83, _⟩ => ⟨S64x30x30, .i1⟩
  | .hbm, ⟨84, _⟩ => ⟨S64x30x30, .i1⟩
  | .hbm, ⟨85, _⟩ => ⟨S30x30, .i32⟩
  | .hbm, ⟨86, _⟩ => ⟨S30x30, .i32⟩
  | .hbm, ⟨87, _⟩ => ⟨S_, .i32⟩
  | .hbm, ⟨88, _⟩ => ⟨S30x30, .i32⟩
  | .hbm, ⟨89, _⟩ => ⟨S30x30, .i32⟩
  | .hbm, ⟨90, _⟩ => ⟨S30x30, .i1⟩
  | .hbm, ⟨91, _⟩ => ⟨S1x30x30, .i1⟩
  | .hbm, ⟨92, _⟩ => ⟨S1x30x30, .i1⟩
  | .hbm, ⟨93, _⟩ => ⟨S64x30x30, .i1⟩
  | .hbm, ⟨94, _⟩ => ⟨S64x30x30, .i1⟩
  | .hbm, ⟨95, _⟩ => ⟨S64x30x30, .f32⟩
  | .hbm, ⟨96, _⟩ => ⟨S64x30x30, .f32⟩
  | .hbm, ⟨97, _⟩ => ⟨S_, .f32⟩
  | .hbm, ⟨98, _⟩ => ⟨S_, .f32⟩
  | .hbm, ⟨99, _⟩ => ⟨S64x30x30, .f32⟩
  | .hbm, ⟨100, _⟩ => ⟨S64x30x30, .f32⟩
  | .hbm, ⟨101, _⟩ => ⟨S_, .f32⟩
  | .hbm, ⟨102, _⟩ => ⟨S64, .f32⟩
  | .hbm, ⟨103, _⟩ => ⟨S_, .f32⟩
  | .hbm, ⟨104, _⟩ => ⟨S64, .f32⟩
  | .hbm, ⟨105, _⟩ => ⟨S64, .f32⟩
  | .hbm, ⟨106, _⟩ => ⟨S64, .f32⟩
  | .hbm, ⟨107, _⟩ => ⟨S_, .f32⟩
  | .hbm, ⟨108, _⟩ => ⟨S64, .f32⟩
  | .hbm, ⟨109, _⟩ => ⟨S64, .f32⟩
  | .hbm, ⟨110, _⟩ => ⟨S_, .f32⟩
  | .hbm, ⟨111, _⟩ => ⟨S64, .f32⟩
  | .hbm, ⟨112, _⟩ => ⟨S64, .i1⟩
  | .hbm, ⟨113, _⟩ => ⟨S64, .f32⟩
  | .hbm, ⟨114, _⟩ => ⟨S_, .f32⟩
  | .hbm, ⟨115, _⟩ => ⟨S64, .f32⟩
  | .hbm, ⟨116, _⟩ => ⟨S64, .f32⟩
  | .hbm, ⟨117, _⟩ => ⟨S_, .f32⟩
  | .hbm, ⟨118, _⟩ => ⟨S_, .f32⟩
  | .hbm, ⟨119, _⟩ => ⟨S64, .f32⟩
  | .hbm, ⟨120, _⟩ => ⟨S64, .f32⟩
  | .hbm, ⟨121, _⟩ => ⟨S64x1, .f32⟩
  | .hbm, ⟨122, _⟩ => ⟨S64x1, .f32⟩
  | .hbm, ⟨123, _⟩ => ⟨S64x2, .f32⟩
  | _, _ => ⟨S64x65536x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_c_2 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_c_3 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v8 : Ref sig .tc := ⟨.hbm, 32, rfl⟩
abbrev main_v9 : Ref sig .tc := ⟨.hbm, 33, rfl⟩
abbrev main_cst : Ref sig .tc := ⟨.hbm, 34, rfl⟩
abbrev main_v10 : Ref sig .tc := ⟨.hbm, 35, rfl⟩
abbrev main_cst_0 : Ref sig .tc := ⟨.hbm, 36, rfl⟩
abbrev main_v11 : Ref sig .tc := ⟨.hbm, 37, rfl⟩
abbrev main_v12 : Ref sig .tc := ⟨.hbm, 38, rfl⟩
abbrev main_cst_1 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_3 : Ref sig .tc := ⟨.hbm, 54, rfl⟩
abbrev main_v26 : Ref sig .tc := ⟨.hbm, 55, rfl⟩
abbrev main_cst_4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_5 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_6 : Ref sig .tc := ⟨.hbm, 64, rfl⟩
abbrev main_v33 : Ref sig .tc := ⟨.hbm, 65, rfl⟩
abbrev main_cst_7 : Ref sig .tc := ⟨.hbm, 66, rfl⟩
abbrev main_v34 : Ref sig .tc := ⟨.hbm, 67, rfl⟩
abbrev main_cst_8 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_9 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_10 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_11 : Ref sig .tc := ⟨.hbm, 97, rfl⟩
abbrev main_call1_v0 : Ref sig .tc := ⟨.hbm, 98, rfl⟩
abbrev main_call1_v1 : Ref sig .tc := ⟨.hbm, 99, rfl⟩
abbrev main_v61 : Ref sig .tc := ⟨.hbm, 100, rfl⟩
abbrev main_cst_12 : Ref sig .tc := ⟨.hbm, 101, rfl⟩
abbrev main_v62 : Ref sig .tc := ⟨.hbm, 102, rfl⟩
abbrev main_cst_13 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_14 : Ref sig .tc := ⟨.hbm, 107, rfl⟩
abbrev main_v66 : Ref sig .tc := ⟨.hbm, 108, rfl⟩
abbrev main_v67 : Ref sig .tc := ⟨.hbm, 109, rfl⟩
abbrev main_cst_15 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_16 : Ref sig .tc := ⟨.hbm, 114, rfl⟩
abbrev main_v71 : Ref sig .tc := ⟨.hbm, 115, rfl⟩
abbrev main_v72 : Ref sig .tc := ⟨.hbm, 116, rfl⟩
abbrev main_cst_17 : Ref sig .tc := ⟨.hbm, 117, rfl⟩
abbrev main_call2_v0 : Ref sig .tc := ⟨.hbm, 118, rfl⟩
abbrev main_call2_v1 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩

abbrev nD : Nat := 1
abbrev τ : Topo := Topo.v7x

variable {F : FTy → Type} [FloatOps F]

class Facts₀ : Prop where
  slices_S64x30x17x2_S64x30x17x1_0_0_0_0 : S64x30x17x2.Slices ![0, 0, 0, 0] S64x30x17x1
  shapeCasts_S64x30x17x1_S64x30x17 : S64x30x17x1.ShapeCasts S64x30x17
  slices_S64x30x17x2_S64x30x17x1_0_0_0_1 : S64x30x17x2.Slices ![0, 0, 0, 1] S64x30x17x1
  bcast_S_S64x30x17 : S_.BroadcastsInDim S64x30x17 (![] : Fin 0 → Fin S64x30x17.rank)
  shapeCasts_S64x30x17_S64x510x1 : S64x30x17.ShapeCasts S64x510x1
  bcast_S_S64x510x1 : S_.BroadcastsInDim S64x510x1 (![] : Fin 0 → Fin S64x510x1.rank)
  bcast_S1_S1x1x1_2 : S1.BroadcastsInDim S1x1x1 (![2] : Fin 1 → Fin S1x1x1.rank)
  bcast_S1x1x1_S64x510x1_0_1_2 : S1x1x1.BroadcastsInDim S64x510x1 (![0, 1, 2] : Fin 3 → Fin S64x510x1.rank)
  reducesTo_S64x510x1_S64x510_d2 : S64x510x1.ReducesTo [2] S64x510
  h_S_ : 0 < S_.numel
  bcast_S64x510_S64x510x8_0_1 : S64x510.BroadcastsInDim S64x510x8 (![0, 1] : Fin 2 → Fin S64x510x8.rank)
  bcast_S_S64x510x8 : S_.BroadcastsInDim S64x510x8 (![] : Fin 0 → Fin S64x510x8.rank)
  shapeCasts_S64x510x8_S64x30x17x8 : S64x510x8.ShapeCasts S64x30x17x8
  reducesTo_S64x30x17_S64x30_d2 : S64x30x17.ReducesTo [2] S64x30
  bcast_S_S64x30 : S_.BroadcastsInDim S64x30 (![] : Fin 0 → Fin S64x30.rank)
  bcast_S64x30x17_S64x30x17x1_0_1_2 : S64x30x17.BroadcastsInDim S64x30x17x1 (![0, 1, 2] : Fin 3 → Fin S64x30x17x1.rank)
  bcast_S64x30x17x1_S64x30x17x8_0_1_2_3 : S64x30x17x1.BroadcastsInDim S64x30x17x8 (![0, 1, 2, 3] : Fin 4 → Fin S64x30x17x8.rank)
  reducesTo_S64x30x17x8_S64x30x8_d2 : S64x30x17x8.ReducesTo [2] S64x30x8
  bcast_S64x30_S64x30x1_0_1 : S64x30.BroadcastsInDim S64x30x1 (![0, 1] : Fin 2 → Fin S64x30x1.rank)
  bcast_S64x30x1_S64x30x8_0_1_2 : S64x30x1.BroadcastsInDim S64x30x8 (![0, 1, 2] : Fin 3 → Fin S64x30x8.rank)
  bcast_S64x30x8_S64x30x1x8_0_1_3 : S64x30x8.BroadcastsInDim S64x30x1x8 (![0, 1, 3] : Fin 3 → Fin S64x30x1x8.rank)
  bcast_S64x30x1x8_S64x30x17x8_0_1_2_3 : S64x30x1x8.BroadcastsInDim S64x30x17x8 (![0, 1, 2, 3] : Fin 4 → Fin S64x30x17x8.rank)
  reducesTo_S64x30x17x8_S64x30x17_d3 : S64x30x17x8.ReducesTo [3] S64x30x17
  reducesTo_S64x30_S64_d1 : S64x30.ReducesTo [1] S64
  bcast_S_S64 : S_.BroadcastsInDim S64 (![] : Fin 0 → Fin S64.rank)
  bcast_S64x30x8_S64x1x30x8_0_2_3 : S64x30x8.BroadcastsInDim S64x1x30x8 (![0, 2, 3] : Fin 3 → Fin S64x1x30x8.rank)
  bcast_S64x30x1x8_S64x30x30x8_0_1_2_3 : S64x30x1x8.BroadcastsInDim S64x30x30x8 (![0, 1, 2, 3] : Fin 4 → Fin S64x30x30x8.rank)
  bcast_S64x1x30x8_S64x30x30x8_0_1_2_3 : S64x1x30x8.BroadcastsInDim S64x30x30x8 (![0, 1, 2, 3] : Fin 4 → Fin S64x30x30x8.rank)
  reducesTo_S64x30x30x8_S64x30x30_d3 : S64x30x30x8.ReducesTo [3] S64x30x30
  bcast_S64x30_S64x1x30_0_2 : S64x30.BroadcastsInDim S64x1x30 (![0, 2] : Fin 2 → Fin S64x1x30.rank)
  bcast_S64x30x1_S64x30x30_0_1_2 : S64x30x1.BroadcastsInDim S64x30x30 (![0, 1, 2] : Fin 3 → Fin S64x30x30.rank)
  bcast_S64x1x30_S64x30x30_0_1_2 : S64x1x30.BroadcastsInDim S64x30x30 (![0, 1, 2] : Fin 3 → Fin S64x30x30.rank)
  bcast_S_S30x30 : S_.BroadcastsInDim S30x30 (![] : Fin 0 → Fin S30x30.rank)
  bcast_S30x30_S1x30x30_1_2 : S30x30.BroadcastsInDim S1x30x30 (![1, 2] : Fin 2 → Fin S1x30x30.rank)
  bcast_S1x30x30_S64x30x30_0_1_2 : S1x30x30.BroadcastsInDim S64x30x30 (![0, 1, 2] : Fin 3 → Fin S64x30x30.rank)
  bcast_S_S64x30x30 : S_.BroadcastsInDim S64x30x30 (![] : Fin 0 → Fin S64x30x30.rank)
  reducesTo_S64x30x30_S64_d1_2 : S64x30x30.ReducesTo [1, 2] S64
  bcast_S64_S64x1_0 : S64.BroadcastsInDim S64x1 (![0] : Fin 1 → Fin S64x1.rank)
  concatenates_S64x1_S64x1_S64x2_d1 : Shape.Concatenates [S64x1, S64x1] S64x2 1
  gather_S64x65536x8_S64x510x1_S64x510x8_2_1_0_0_1_2_118_wf : GatherDims.WF S64x65536x8 S64x510x1 S64x510x8 [2] [1] [0] [1] [0] 2 ![1, 1, 8]

variable [Facts₀]

def gather_S64x65536x8_S64x510x1_S64x510x8_2_1_0_0_1_2_118 : GatherDims S64x65536x8 S64x510x1 S64x510x8 where
  offsetDims := [2]
  collapsedSliceDims := [1]
  operandBatchingDims := [0]
  startIndicesBatchingDims := [0]
  startIndexMap := [1]
  indexVectorDim := 2
  sliceSizes := ![1, 1, 8]
  wf := gather_S64x65536x8_S64x510x1_S64x510x8_2_1_0_0_1_2_118_wf

class Facts : Prop extends Facts₀ where

variable [Facts]
-- ==== Proof.RefRunHand.lean ====
/-
  The reference program's run, read back stage by stage: every weakly fair execution of its 122 host operations ends, with
  nothing faulting, the result buffer at the last stage's value of the two arguments and the arguments unchanged.
-/
import proofs.«426285_j17789754540200_2_alg».proof.Proof.RefRead
import Idealize.ShloMosaic.Lib.StableHlo.Run

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-! The operation list is cut into five consecutive pieces, the last the joining of the two result columns alone. For each
piece and each buffer a later piece reads, a lemma gives that buffer's contents after the piece, from any contents before it,
as the stage value of the two arguments, given that the buffers the piece reads from earlier pieces hold their stage values;
a buffer the piece does not write keeps its contents. Joined in order these give the contents after the whole list. -/

/-- Operations 1 to 32 of the program, in order. -/
abbrev ops1 : List (HloOp τ sig (Elt F)) :=
  [ unary main_arg1 main_v0 ((extractStridedSlice S64x30x17x1 ![0, 0, 0, 0] · slices_S64x30x17x2_S64x30x17x1_0_0_0_0) : (⟨S64x30x17x2, .i32⟩ : BufTy).Contents (Elt F) → (⟨S64x30x17x1, .i32⟩ : BufTy).Contents (Elt F)),
    reshape main_v0 main_v1 rfl shapeCasts_S64x30x17x1_S64x30x17,
    unary main_arg1 main_v2 ((extractStridedSlice S64x30x17x1 ![0, 0, 0, 1] · slices_S64x30x17x2_S64x30x17x1_0_0_0_1) : (⟨S64x30x17x2, .i32⟩ : BufTy).Contents (Elt F) → (⟨S64x30x17x1, .i32⟩ : BufTy).Contents (Elt F)),
    reshape main_v2 main_v3 rfl shapeCasts_S64x30x17x1_S64x30x17,
    nullary main_c (constantI S_ 32 0#32),
    unary main_c main_v4 (broadcastInDim S64x30x17 ![] bcast_S_S64x30x17 : (⟨S_, .i32⟩ : BufTy).Contents (Elt F) → (⟨S64x30x17, .i32⟩ : BufTy).Contents (Elt F)),
    binary main_v3 main_v4 main_v5 (cmpi .sgt : (⟨S64x30x17, .i32⟩ : BufTy).Contents (Elt F) → (⟨S64x30x17, .i32⟩ : BufTy).Contents (Elt F) → (⟨S64x30x17, .i1⟩ : BufTy).Contents (Elt F)),
    unary main_v5 main_v6 (uitofp (F := F) .f32 : (⟨S64x30x17, .i1⟩ : BufTy).Contents (Elt F) → (⟨S64x30x17, .f32⟩ : BufTy).Contents (Elt F)),
    reshape main_v1 main_v7 rfl shapeCasts_S64x30x17_S64x510x1,
    TRef.nullary (TRef.of (T := ⟨S_, .i32⟩) main_call0_c) (constantI S_ 32 0#32),
    TRef.unary (TRef.of (T := ⟨S_, .i32⟩) main_call0_c) (TRef.of (T := ⟨S64x510x1, .i32⟩) main_call0_v0) (broadcastInDim S64x510x1 ![] bcast_S_S64x510x1),
    TRef.binary (TRef.of (T := ⟨S64x510x1, .i32⟩) main_v7) (TRef.of (T := ⟨S64x510x1, .i32⟩) main_call0_v0) (TRef.of (T := ⟨S64x510x1, .i1⟩) main_call0_v1) (cmpi .slt),
    TRef.nullary (TRef.of (T := ⟨S_, .i32⟩) main_call0_c_0) (constantI S_ 32 65536#32),
    TRef.unary (TRef.of (T := ⟨S_, .i32⟩) main_call0_c_0) (TRef.of (T := ⟨S64x510x1, .i32⟩) main_call0_v2) (broadcastInDim S64x510x1 ![] bcast_S_S64x510x1),
    TRef.binary (TRef.of (T := ⟨S64x510x1, .i32⟩) main_v7) (TRef.of (T := ⟨S64x510x1, .i32⟩) main_call0_v2) (TRef.of (T := ⟨S64x510x1, .i32⟩) main_call0_v3) addi,
    TRef.ternary (TRef.of (T := ⟨S64x510x1, .i1⟩) main_call0_v1) (TRef.of (T := ⟨S64x510x1, .i32⟩) main_call0_v3) (TRef.of (T := ⟨S64x510x1, .i32⟩) main_v7) (TRef.of (T := ⟨S64x510x1, .i32⟩) main_call0_v4) select,
    TRef.nullary (TRef.of (T := ⟨S1, .i32⟩) main_call0_c_1) (constantI S1 32 65535#32),
    TRef.nullary (TRef.of (T := ⟨S_, .i32⟩) main_call0_c_2) (constantI S_ 32 0#32),
    TRef.unary (TRef.of (T := ⟨S_, .i32⟩) main_call0_c_2) (TRef.of (T := ⟨S64x510x1, .i32⟩) main_call0_v5) (broadcastInDim S64x510x1 ![] bcast_S_S64x510x1),
    TRef.binary (TRef.of (T := ⟨S64x510x1, .i32⟩) main_call0_v4) (TRef.of (T := ⟨S64x510x1, .i32⟩) main_call0_v5) (TRef.of (T := ⟨S64x510x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S64x510x1, .i32⟩) main_call0_v8) (broadcastInDim S64x510x1 ![0, 1, 2] bcast_S1x1x1_S64x510x1_0_1_2),
    TRef.binary (TRef.of (T := ⟨S64x510x1, .i32⟩) main_call0_v4) (TRef.of (T := ⟨S64x510x1, .i32⟩) main_call0_v8) (TRef.of (T := ⟨S64x510x1, .i1⟩) main_call0_v9) (cmpi .sle),
    TRef.binary (TRef.of (T := ⟨S64x510x1, .i1⟩) main_call0_v6) (TRef.of (T := ⟨S64x510x1, .i1⟩) main_call0_v9) (TRef.of (T := ⟨S64x510x1, .i1⟩) main_call0_v10) andi,
    TRef.nullary (TRef.of (T := ⟨S_, .i1⟩) main_call0_c_3) (constantI S_ 1 1#1),
    TRef.binary (TRef.of (T := ⟨S64x510x1, .i1⟩) main_call0_v10) (TRef.of (T := ⟨S_, .i1⟩) main_call0_c_3) (TRef.of (T := ⟨S64x510, .i1⟩) main_call0_v11) (fun x v => Host.reduce IntOp.andi x v reducesTo_S64x510x1_S64x510_d2 h_S_),
    TRef.binary (TRef.of (T := ⟨S64x65536x8, .f32⟩) main_arg0) (TRef.of (T := ⟨S64x510x1, .i32⟩) main_call0_v4) (TRef.of (T := ⟨S64x510x8, .f32⟩) main_call0_v12) (fun x i => Host.gather gather_S64x65536x8_S64x510x1_S64x510x8_2_1_0_0_1_2_118 x i),
    TRef.unary (TRef.of (T := ⟨S64x510, .i1⟩) main_call0_v11) (TRef.of (T := ⟨S64x510x8, .i1⟩) main_call0_v13) (broadcastInDim S64x510x8 ![0, 1] bcast_S64x510_S64x510x8_0_1),
    TRef.nullary (TRef.of (T := ⟨S_, .f32⟩) main_call0_cst) (constant S_ .f32 0x7FC00000#32),
    TRef.unary (TRef.of (T := ⟨S_, .f32⟩) main_call0_cst) (TRef.of (T := ⟨S64x510x8, .f32⟩) main_call0_v14) (broadcastInDim S64x510x8 ![] bcast_S_S64x510x8),
    TRef.ternary (TRef.of (T := ⟨S64x510x8, .i1⟩) main_call0_v13) (TRef.of (T := ⟨S64x510x8, .f32⟩) main_call0_v12) (TRef.of (T := ⟨S64x510x8, .f32⟩) main_call0_v14) (TRef.of (T := ⟨S64x510x8, .f32⟩) main_v8) select,
    reshape main_v8 main_v9 rfl shapeCasts_S64x510x8_S64x30x17x8 ]

set_option maxRecDepth 8192 in
theorem c1_main_v6 (W : Valuation τ sig (Elt F)) (x1 : (⟨S64x30x17x2, .i32⟩ : BufTy).Contents (Elt F))
    (h_main_arg1 : W (Proc.devRef .tc main_arg1) = x1) :
    after (ops1 (F := F)) W (Proc.devRef .tc main_v6) = val_main_v6 (F := F) x1 := by
  after_results_simp
  try simp only [TRef.ofBuf, TRef.toBuf, cast_eq]
  rw [h_main_arg1]
  rfl

set_option maxRecDepth 8192 in
theorem c1_main_v9 (W : Valuation τ sig (Elt F)) (x0 : (⟨S64x65536x8, .f32⟩ : BufTy).Contents (Elt F)) (x1 : (⟨S64x30x17x2, .i32⟩ : BufTy).Contents (Elt F))
    (h_main_arg1 : W (Proc.devRef .tc main_arg1) = x1)
    (h_main_arg0 : W (Proc.devRef .tc main_arg0) = x0) :
    after (ops1 (F := F)) W (Proc.devRef .tc main_v9) = val_main_v9 (F := F) x0 x1 := by
  after_results_simp
  try simp only [TRef.ofBuf, TRef.toBuf, cast_eq]
  rw [h_main_arg1, h_main_arg0]
  rfl

theorem c1_keep_main_arg0 (W : Valuation τ sig (Elt F)) :
    after (ops1 (F := F)) W (Proc.devRef .tc main_arg0) = W (Proc.devRef .tc main_arg0) := by
  after_results_simp

theorem c1_keep_main_arg1 (W : Valuation τ sig (Elt F)) :
    after (ops1 (F := F)) W (Proc.devRef .tc main_arg1) = W (Proc.devRef .tc main_arg1) := by
  after_results_simp

/-- Operations 33 to 70 of the program, in order. -/
abbrev ops2 : List (HloOp τ sig (Elt F)) :=
  [ nullary main_cst (constant S_ .f32 0x00000000#32),
    binary main_v6 main_cst main_v10 ((fun x v => Host.reduceAdd x v reducesTo_S64x30x17_S64x30_d2 h_S_) : (⟨S64x30x17, .f32⟩ : BufTy).Contents (Elt F) → (⟨S_, .f32⟩ : BufTy).Contents (Elt F) → (⟨S64x30, .f32⟩ : BufTy).Contents (Elt F)),
    nullary main_cst_0 (constant S_ .f32 0x00000000#32),
    unary main_cst_0 main_v11 (broadcastInDim S64x30 ![] bcast_S_S64x30 : (⟨S_, .f32⟩ : BufTy).Contents (Elt F) → (⟨S64x30, .f32⟩ : BufTy).Contents (Elt F)),
    binary main_v10 main_v11 main_v12 (cmpf (F := F) .ogt : (⟨S64x30, .f32⟩ : BufTy).Contents (Elt F) → (⟨S64x30, .f32⟩ : BufTy).Contents (Elt F) → (⟨S64x30, .i1⟩ : BufTy).Contents (Elt F)),
    nullary main_cst_1 (constant S_ .f32 0x3F800000#32),
    unary main_cst_1 main_v13 (broadcastInDim S64x30 ![] bcast_S_S64x30 : (⟨S_, .f32⟩ : BufTy).Contents (Elt F) → (⟨S64x30, .f32⟩ : BufTy).Contents (Elt F)),
    binary main_v10 main_v13 main_v14 (maximumf : (⟨S64x30, .f32⟩ : BufTy).Contents (Elt F) → (⟨S64x30, .f32⟩ : BufTy).Contents (Elt F) → (⟨S64x30, .f32⟩ : BufTy).Contents (Elt F)),
    unary main_v6 main_v15 (broadcastInDim S64x30x17x1 ![0, 1, 2] bcast_S64x30x17_S64x30x17x1_0_1_2 : (⟨S64x30x17, .f32⟩ : BufTy).Contents (Elt F) → (⟨S64x30x17x1, .f32⟩ : BufTy).Contents (Elt F)),
    unary main_v15 main_v16 (broadcastInDim S64x30x17x8 ![0, 1, 2, 3] bcast_S64x30x17x1_S64x30x17x8_0_1_2_3 : (⟨S64x30x17x1, .f32⟩ : BufTy).Contents (Elt F) → (⟨S64x30x17x8, .f32⟩ : BufTy).Contents (Elt F)),
    binary main_v9 main_v16 main_v17 (mulf : (⟨S64x30x17x8, .f32⟩ : BufTy).Contents (Elt F) → (⟨S64x30x17x8, .f32⟩ : BufTy).Contents (Elt F) → (⟨S64x30x17x8, .f32⟩ : BufTy).Contents (Elt F)),
    nullary main_cst_2 (constant S_ .f32 0x00000000#32),
    binary main_v17 main_cst_2 main_v18 ((fun x v => Host.reduceAdd x v reducesTo_S64x30x17x8_S64x30x8_d2 h_S_) : (⟨S64x30x17x8, .f32⟩ : BufTy).Contents (Elt F) → (⟨S_, .f32⟩ : BufTy).Contents (Elt F) → (⟨S64x30x8, .f32⟩ : BufTy).Contents (Elt F)),
    unary main_v14 main_v19 (broadcastInDim S64x30x1 ![0, 1] bcast_S64x30_S64x30x1_0_1 : (⟨S64x30, .f32⟩ : BufTy).Contents (Elt F) → (⟨S64x30x1, .f32⟩ : BufTy).Contents (Elt F)),
    unary main_v19 main_v20 (broadcastInDim S64x30x8 ![0, 1, 2] bcast_S64x30x1_S64x30x8_0_1_2 : (⟨S64x30x1, .f32⟩ : BufTy).Contents (Elt F) → (⟨S64x30x8, .f32⟩ : BufTy).Contents (Elt F)),
    binary main_v18 main_v20 main_v21 (Host.divf : (⟨S64x30x8, .f32⟩ : BufTy).Contents (Elt F) → (⟨S64x30x8, .f32⟩ : BufTy).Contents (Elt F) → (⟨S64x30x8, .f32⟩ : BufTy).Contents (Elt F)),
    unary main_v21 main_v22 (broadcastInDim S64x30x1x8 ![0, 1, 3] bcast_S64x30x8_S64x30x1x8_0_1_3 : (⟨S64x30x8, .f32⟩ : BufTy).Contents (Elt F) → (⟨S64x30x1x8, .f32⟩ : BufTy).Contents (Elt F)),
    unary main_v22 main_v23 (broadcastInDim S64x30x17x8 ![0, 1, 2, 3] bcast_S64x30x1x8_S64x30x17x8_0_1_2_3 : (⟨S64x30x1x8, .f32⟩ : BufTy).Contents (Elt F) → (⟨S64x30x17x8, .f32⟩ : BufTy).Contents (Elt F)),
    binary main_v9 main_v23 main_v24 (subf : (⟨S64x30x17x8, .f32⟩ : BufTy).Contents (Elt F) → (⟨S64x30x17x8, .f32⟩ : BufTy).Contents (Elt F) → (⟨S64x30x17x8, .f32⟩ : BufTy).Contents (Elt F)),
    binary main_v24 main_v24 main_v25 (mulf : (⟨S64x30x17x8, .f32⟩ : BufTy).Contents (Elt F) → (⟨S64x30x17x8, .f32⟩ : BufTy).Contents (Elt F) → (⟨S64x30x17x8, .f32⟩ : BufTy).Contents (Elt F)),
    nullary main_cst_3 (constant S_ .f32 0x00000000#32),
    binary main_v25 main_cst_3 main_v26 ((fun x v => Host.reduceAdd x v reducesTo_S64x30x17x8_S64x30x17_d3 h_S_) : (⟨S64x30x17x8, .f32⟩ : BufTy).Contents (Elt F) → (⟨S_, .f32⟩ : BufTy).Contents (Elt F) → (⟨S64x30x17, .f32⟩ : BufTy).Contents (Elt F)),
    nullary main_cst_4 (constant S_ .f32 0x41000000#32),
    unary main_cst_4 main_v27 (broadcastInDim S64x30x17 ![] bcast_S_S64x30x17 : (⟨S_, .f32⟩ : BufTy).Contents (Elt F) → (⟨S64x30x17, .f32⟩ : BufTy).Contents (Elt F)),
    binary main_v26 main_v27 main_v28 (Host.divf : (⟨S64x30x17, .f32⟩ : BufTy).Contents (Elt F) → (⟨S64x30x17, .f32⟩ : BufTy).Contents (Elt F) → (⟨S64x30x17, .f32⟩ : BufTy).Contents (Elt F)),
    binary main_v28 main_v6 main_v29 (mulf : (⟨S64x30x17, .f32⟩ : BufTy).Contents (Elt F) → (⟨S64x30x17, .f32⟩ : BufTy).Contents (Elt F) → (⟨S64x30x17, .f32⟩ : BufTy).Contents (Elt F)),
    nullary main_cst_5 (constant S_ .f32 0x00000000#32),
    binary main_v29 main_cst_5 main_v30 ((fun x v => Host.reduceAdd x v reducesTo_S64x30x17_S64x30_d2 h_S_) : (⟨S64x30x17, .f32⟩ : BufTy).Contents (Elt F) → (⟨S_, .f32⟩ : BufTy).Contents (Elt F) → (⟨S64x30, .f32⟩ : BufTy).Contents (Elt F)),
    binary main_v30 main_v14 main_v31 (Host.divf : (⟨S64x30, .f32⟩ : BufTy).Contents (Elt F) → (⟨S64x30, .f32⟩ : BufTy).Contents (Elt F) → (⟨S64x30, .f32⟩ : BufTy).Contents (Elt F)),
    unary main_v12 main_v32 (uitofp (F := F) .f32 : (⟨S64x30, .i1⟩ : BufTy).Contents (Elt F) → (⟨S64x30, .f32⟩ : BufTy).Contents (Elt F)),
    nullary main_cst_6 (constant S_ .f32 0x00000000#32),
    binary main_v32 main_cst_6 main_v33 ((fun x v => Host.reduceAdd x v reducesTo_S64x30_S64_d1 h_S_) : (⟨S64x30, .f32⟩ : BufTy).Contents (Elt F) → (⟨S_, .f32⟩ : BufTy).Contents (Elt F) → (⟨S64, .f32⟩ : BufTy).Contents (Elt F)),
    nullary main_cst_7 (constant S_ .f32 0x00000000#32),
    binary main_v31 main_cst_7 main_v34 ((fun x v => Host.reduceAdd x v reducesTo_S64x30_S64_d1 h_S_) : (⟨S64x30, .f32⟩ : BufTy).Contents (Elt F) → (⟨S_, .f32⟩ : BufTy).Contents (Elt F) → (⟨S64, .f32⟩ : BufTy).Contents (Elt F)),
    nullary main_cst_8 (constant S_ .f32 0x3F800000#32),
    unary main_cst_8 main_v35 (broadcastInDim S64 ![] bcast_S_S64 : (⟨S_, .f32⟩ : BufTy).Contents (Elt F) → (⟨S64, .f32⟩ : BufTy).Contents (Elt F)),
    binary main_v33 main_v35 main_v36 (maximumf : (⟨S64, .f32⟩ : BufTy).Contents (Elt F) → (⟨S64, .f32⟩ : BufTy).Contents (Elt F) → (⟨S64, .f32⟩ : BufTy).Contents (Elt F)),
    binary main_v34 main_v36 main_v37 (Host.divf : (⟨S64, .f32⟩ : BufTy).Contents (Elt F) → (⟨S64, .f32⟩ : BufTy).Contents (Elt F) → (⟨S64, .f32⟩ : BufTy).Contents (Elt F)) ]

set_option maxRecDepth 8192 in
theorem c2_main_v12 (W : Valuation τ sig (Elt F)) (x1 : (⟨S64x30x17x2, .i32⟩ : BufTy).Contents (Elt F))
    (h_main_v6 : W (Proc.devRef .tc main_v6) = val_main_v6 (F := F) x1) :
    after (ops2 (F := F)) W (Proc.devRef .tc main_v12) = val_main_v12 (F := F) x1 := by
  after_results_simp
  rw [h_main_v6]
  rfl

set_option maxRecDepth 8192 in
theorem c2_main_v21 (W : Valuation τ sig (Elt F)) (x0 : (⟨S64x65536x8, .f32⟩ : BufTy).Contents (Elt F)) (x1 : (⟨S64x30x17x2, .i32⟩ : BufTy).Contents (Elt F))
    (h_main_v9 : W (Proc.devRef .tc main_v9) = val_main_v9 (F := F) x0 x1)
    (h_main_v6 : W (Proc.devRef .tc main_v6) = val_main_v6 (F := F) x1) :
    after (ops2 (F := F)) W (Proc.devRef .tc main_v21) = val_main_v21 (F := F) x0 x1 := by
  after_results_simp
  rw [h_main_v9, h_main_v6]
  rfl

set_option maxRecDepth 8192 in
theorem c2_main_v33 (W : Valuation τ sig (Elt F)) (x1 : (⟨S64x30x17x2, .i32⟩ : BufTy).Contents (Elt F))
    (h_main_v6 : W (Proc.devRef .tc main_v6) = val_main_v6 (F := F) x1) :
    after (ops2 (F := F)) W (Proc.devRef .tc main_v33) = val_main_v33 (F := F) x1 := by
  after_results_simp
  rw [h_main_v6]
  rfl

set_option maxRecDepth 8192 in
theorem c2_main_v37 (W : Valuation τ sig (Elt F)) (x0 : (⟨S64x65536x8, .f32⟩ : BufTy).Contents (Elt F)) (x1 : (⟨S64x30x17x2, .i32⟩ : BufTy).Contents (Elt F))
    (h_main_v9 : W (Proc.devRef .tc main_v9) = val_main_v9 (F := F) x0 x1)
    (h_main_v6 : W (Proc.devRef .tc main_v6) = val_main_v6 (F := F) x1) :
    after (ops2 (F := F)) W (Proc.devRef .tc main_v37) = val_main_v37 (F := F) x0 x1 := by
  after_results_simp
  rw [h_main_v9, h_main_v6]
  rfl

theorem c2_keep_main_arg0 (W : Valuation τ sig (Elt F)) :
    after (ops2 (F := F)) W (Proc.devRef .tc main_arg0) = W (Proc.devRef .tc main_arg0) := by
  after_results_simp

theorem c2_keep_main_arg1 (W : Valuation τ sig (Elt F)) :
    after (ops2 (F := F)) W (Proc.devRef .tc main_arg1) = W (Proc.devRef .tc main_arg1) := by
  after_results_simp

/-- Operations 71 to 101 of the program, in order. -/
abbrev ops3 : List (HloOp τ sig (Elt F)) :=
  [ unary main_v21 main_v38 (broadcastInDim S64x30x1x8 ![0, 1, 3] bcast_S64x30x8_S64x30x1x8_0_1_3 : (⟨S64x30x8, .f32⟩ : BufTy).Contents (Elt F) → (⟨S64x30x1x8, .f32⟩ : BufTy).Contents (Elt F)),
    unary main_v21 main_v39 (broadcastInDim S64x1x30x8 ![0, 2, 3] bcast_S64x30x8_S64x1x30x8_0_2_3 : (⟨S64x30x8, .f32⟩ : BufTy).Contents (Elt F) → (⟨S64x1x30x8, .f32⟩ : BufTy).Contents (Elt F)),
    unary main_v38 main_v40 (broadcastInDim S64x30x30x8 ![0, 1, 2, 3] bcast_S64x30x1x8_S64x30x30x8_0_1_2_3 : (⟨S64x30x1x8, .f32⟩ : BufTy).Contents (Elt F) → (⟨S64x30x30x8, .f32⟩ : BufTy).Contents (Elt F)),
    unary main_v39 main_v41 (broadcastInDim S64x30x30x8 ![0, 1, 2, 3] bcast_S64x1x30x8_S64x30x30x8_0_1_2_3 : (⟨S64x1x30x8, .f32⟩ : BufTy).Contents (Elt F) → (⟨S64x30x30x8, .f32⟩ : BufTy).Contents (Elt F)),
    binary main_v40 main_v41 main_v42 (subf : (⟨S64x30x30x8, .f32⟩ : BufTy).Contents (Elt F) → (⟨S64x30x30x8, .f32⟩ : BufTy).Contents (Elt F) → (⟨S64x30x30x8, .f32⟩ : BufTy).Contents (Elt F)),
    binary main_v42 main_v42 main_v43 (mulf : (⟨S64x30x30x8, .f32⟩ : BufTy).Contents (Elt F) → (⟨S64x30x30x8, .f32⟩ : BufTy).Contents (Elt F) → (⟨S64x30x30x8, .f32⟩ : BufTy).Contents (Elt F)),
    nullary main_cst_9 (constant S_ .f32 0x00000000#32),
    binary main_v43 main_cst_9 main_v44 ((fun x v => Host.reduceAdd x v reducesTo_S64x30x30x8_S64x30x30_d3 h_S_) : (⟨S64x30x30x8, .f32⟩ : BufTy).Contents (Elt F) → (⟨S_, .f32⟩ : BufTy).Contents (Elt F) → (⟨S64x30x30, .f32⟩ : BufTy).Contents (Elt F)),
    unary main_v12 main_v45 (broadcastInDim S64x30x1 ![0, 1] bcast_S64x30_S64x30x1_0_1 : (⟨S64x30, .i1⟩ : BufTy).Contents (Elt F) → (⟨S64x30x1, .i1⟩ : BufTy).Contents (Elt F)),
    unary main_v12 main_v46 (broadcastInDim S64x1x30 ![0, 2] bcast_S64x30_S64x1x30_0_2 : (⟨S64x30, .i1⟩ : BufTy).Contents (Elt F) → (⟨S64x1x30, .i1⟩ : BufTy).Contents (Elt F)),
    unary main_v45 main_v47 (broadcastInDim S64x30x30 ![0, 1, 2] bcast_S64x30x1_S64x30x30_0_1_2 : (⟨S64x30x1, .i1⟩ : BufTy).Contents (Elt F) → (⟨S64x30x30, .i1⟩ : BufTy).Contents (Elt F)),
    unary main_v46 main_v48 (broadcastInDim S64x30x30 ![0, 1, 2] bcast_S64x1x30_S64x30x30_0_1_2 : (⟨S64x1x30, .i1⟩ : BufTy).Contents (Elt F) → (⟨S64x30x30, .i1⟩ : BufTy).Contents (Elt F)),
    binary main_v47 main_v48 main_v49 (andi : (⟨S64x30x30, .i1⟩ : BufTy).Contents (Elt F) → (⟨S64x30x30, .i1⟩ : BufTy).Contents (Elt F) → (⟨S64x30x30, .i1⟩ : BufTy).Contents (Elt F)),
    nullary main_v50 (iotaInDim S30x30 32 0),
    nullary main_v51 (iotaInDim S30x30 32 1),
    nullary main_c_10 (constantI S_ 32 0#32),
    unary main_c_10 main_v52 (broadcastInDim S30x30 ![] bcast_S_S30x30 : (⟨S_, .i32⟩ : BufTy).Contents (Elt F) → (⟨S30x30, .i32⟩ : BufTy).Contents (Elt F)),
    binary main_v50 main_v52 main_v53 (addi : (⟨S30x30, .i32⟩ : BufTy).Contents (Elt F) → (⟨S30x30, .i32⟩ : BufTy).Contents (Elt F) → (⟨S30x30, .i32⟩ : BufTy).Contents (Elt F)),
    binary main_v53 main_v51 main_v54 (cmpi .eq : (⟨S30x30, .i32⟩ : BufTy).Contents (Elt F) → (⟨S30x30, .i32⟩ : BufTy).Contents (Elt F) → (⟨S30x30, .i1⟩ : BufTy).Contents (Elt F)),
    unary main_v54 main_v55 (broadcastInDim S1x30x30 ![1, 2] bcast_S30x30_S1x30x30_1_2 : (⟨S30x30, .i1⟩ : BufTy).Contents (Elt F) → (⟨S1x30x30, .i1⟩ : BufTy).Contents (Elt F)),
    unary main_v55 main_v56 (noti : (⟨S1x30x30, .i1⟩ : BufTy).Contents (Elt F) → (⟨S1x30x30, .i1⟩ : BufTy).Contents (Elt F)),
    unary main_v56 main_v57 (broadcastInDim S64x30x30 ![0, 1, 2] bcast_S1x30x30_S64x30x30_0_1_2 : (⟨S1x30x30, .i1⟩ : BufTy).Contents (Elt F) → (⟨S64x30x30, .i1⟩ : BufTy).Contents (Elt F)),
    binary main_v49 main_v57 main_v58 (andi : (⟨S64x30x30, .i1⟩ : BufTy).Contents (Elt F) → (⟨S64x30x30, .i1⟩ : BufTy).Contents (Elt F) → (⟨S64x30x30, .i1⟩ : BufTy).Contents (Elt F)),
    unary main_v44 main_v59 (Host.negf : (⟨S64x30x30, .f32⟩ : BufTy).Contents (Elt F) → (⟨S64x30x30, .f32⟩ : BufTy).Contents (Elt F)),
    unary main_v59 main_v60 (Host.exp : (⟨S64x30x30, .f32⟩ : BufTy).Contents (Elt F) → (⟨S64x30x30, .f32⟩ : BufTy).Contents (Elt F)),
    nullary main_cst_11 (constant S_ .f32 0x00000000#32),
    TRef.unary (TRef.of (T := ⟨S_, .f32⟩) main_cst_11) (TRef.of (T := ⟨S_, .f32⟩) main_call1_v0) id,
    TRef.unary (TRef.of (T := ⟨S_, .f32⟩) main_call1_v0) (TRef.of (T := ⟨S64x30x30, .f32⟩) main_call1_v1) (broadcastInDim S64x30x30 ![] bcast_S_S64x30x30),
    TRef.ternary (TRef.of (T := ⟨S64x30x30, .i1⟩) main_v58) (TRef.of (T := ⟨S64x30x30, .f32⟩) main_v60) (TRef.of (T := ⟨S64x30x30, .f32⟩) main_call1_v1) (TRef.of (T := ⟨S64x30x30, .f32⟩) main_v61) select,
    nullary main_cst_12 (constant S_ .f32 0x00000000#32),
    binary main_v61 main_cst_12 main_v62 ((fun x v => Host.reduceAdd x v reducesTo_S64x30x30_S64_d1_2 h_S_) : (⟨S64x30x30, .f32⟩ : BufTy).Contents (Elt F) → (⟨S_, .f32⟩ : BufTy).Contents (Elt F) → (⟨S64, .f32⟩ : BufTy).Contents (Elt F)) ]

set_option maxRecDepth 8192 in
theorem c3_main_v62 (W : Valuation τ sig (Elt F)) (x0 : (⟨S64x65536x8, .f32⟩ : BufTy).Contents (Elt F)) (x1 : (⟨S64x30x17x2, .i32⟩ : BufTy).Contents (Elt F))
    (h_main_v12 : W (Proc.devRef .tc main_v12) = val_main_v12 (F := F) x1)
    (h_main_v21 : W (Proc.devRef .tc main_v21) = val_main_v21 (F := F) x0 x1) :
    after (ops3 (F := F)) W (Proc.devRef .tc main_v62) = val_main_v62 (F := F) x0 x1 := by
  after_results_simp
  try simp only [TRef.ofBuf, TRef.toBuf, cast_eq]
  rw [h_main_v12, h_main_v21]
  rfl

theorem c3_keep_main_v33 (W : Valuation τ sig (Elt F)) :
    after (ops3 (F := F)) W (Proc.devRef .tc main_v33) = W (Proc.devRef .tc main_v33) := by
  after_results_simp

theorem c3_keep_main_v37 (W : Valuation τ sig (Elt F)) :
    after (ops3 (F := F)) W (Proc.devRef .tc main_v37) = W (Proc.devRef .tc main_v37) := by
  after_results_simp

theorem c3_keep_main_arg0 (W : Valuation τ sig (Elt F)) :
    after (ops3 (F := F)) W (Proc.devRef .tc main_arg0) = W (Proc.devRef .tc main_arg0) := by
  after_results_simp

theorem c3_keep_main_arg1 (W : Valuation τ sig (Elt F)) :
    after (ops3 (F := F)) W (Proc.devRef .tc main_arg1) = W (Proc.devRef .tc main_arg1) := by
  after_results_simp

/-- Operations 102 to 121 of the program, in order. -/
abbrev ops4 : List (HloOp τ sig (Elt F)) :=
  [ nullary main_cst_13 (constant S_ .f32 0x3F800000#32),
    unary main_cst_13 main_v63 (broadcastInDim S64 ![] bcast_S_S64 : (⟨S_, .f32⟩ : BufTy).Contents (Elt F) → (⟨S64, .f32⟩ : BufTy).Contents (Elt F)),
    binary main_v33 main_v63 main_v64 (subf : (⟨S64, .f32⟩ : BufTy).Contents (Elt F) → (⟨S64, .f32⟩ : BufTy).Contents (Elt F) → (⟨S64, .f32⟩ : BufTy).Contents (Elt F)),
    binary main_v33 main_v64 main_v65 (mulf : (⟨S64, .f32⟩ : BufTy).Contents (Elt F) → (⟨S64, .f32⟩ : BufTy).Contents (Elt F) → (⟨S64, .f32⟩ : BufTy).Contents (Elt F)),
    nullary main_cst_14 (constant S_ .f32 0x3F800000#32),
    unary main_cst_14 main_v66 (broadcastInDim S64 ![] bcast_S_S64 : (⟨S_, .f32⟩ : BufTy).Contents (Elt F) → (⟨S64, .f32⟩ : BufTy).Contents (Elt F)),
    binary main_v65 main_v66 main_v67 (maximumf : (⟨S64, .f32⟩ : BufTy).Contents (Elt F) → (⟨S64, .f32⟩ : BufTy).Contents (Elt F) → (⟨S64, .f32⟩ : BufTy).Contents (Elt F)),
    nullary main_cst_15 (constant S_ .f32 0x3F800000#32),
    unary main_cst_15 main_v68 (broadcastInDim S64 ![] bcast_S_S64 : (⟨S_, .f32⟩ : BufTy).Contents (Elt F) → (⟨S64, .f32⟩ : BufTy).Contents (Elt F)),
    binary main_v33 main_v68 main_v69 (cmpf (F := F) .ogt : (⟨S64, .f32⟩ : BufTy).Contents (Elt F) → (⟨S64, .f32⟩ : BufTy).Contents (Elt F) → (⟨S64, .i1⟩ : BufTy).Contents (Elt F)),
    binary main_v62 main_v67 main_v70 (Host.divf : (⟨S64, .f32⟩ : BufTy).Contents (Elt F) → (⟨S64, .f32⟩ : BufTy).Contents (Elt F) → (⟨S64, .f32⟩ : BufTy).Contents (Elt F)),
    nullary main_cst_16 (constant S_ .f32 0x3F000000#32),
    unary main_cst_16 main_v71 (broadcastInDim S64 ![] bcast_S_S64 : (⟨S_, .f32⟩ : BufTy).Contents (Elt F) → (⟨S64, .f32⟩ : BufTy).Contents (Elt F)),
    binary main_v70 main_v71 main_v72 (mulf : (⟨S64, .f32⟩ : BufTy).Contents (Elt F) → (⟨S64, .f32⟩ : BufTy).Contents (Elt F) → (⟨S64, .f32⟩ : BufTy).Contents (Elt F)),
    nullary main_cst_17 (constant S_ .f32 0x00000000#32),
    TRef.unary (TRef.of (T := ⟨S_, .f32⟩) main_cst_17) (TRef.of (T := ⟨S_, .f32⟩) main_call2_v0) id,
    TRef.unary (TRef.of (T := ⟨S_, .f32⟩) main_call2_v0) (TRef.of (T := ⟨S64, .f32⟩) main_call2_v1) (broadcastInDim S64 ![] bcast_S_S64),
    TRef.ternary (TRef.of (T := ⟨S64, .i1⟩) main_v69) (TRef.of (T := ⟨S64, .f32⟩) main_v72) (TRef.of (T := ⟨S64, .f32⟩) main_call2_v1) (TRef.of (T := ⟨S64, .f32⟩) main_v73) select,
    unary main_v73 main_v74 (broadcastInDim S64x1 ![0] bcast_S64_S64x1_0 : (⟨S64, .f32⟩ : BufTy).Contents (Elt F) → (⟨S64x1, .f32⟩ : BufTy).Contents (Elt F)),
    unary main_v37 main_v75 (broadcastInDim S64x1 ![0] bcast_S64_S64x1_0 : (⟨S64, .f32⟩ : BufTy).Contents (Elt F) → (⟨S64x1, .f32⟩ : BufTy).Contents (Elt F)) ]

set_option maxRecDepth 8192 in
theorem c4_main_v74 (W : Valuation τ sig (Elt F)) (x0 : (⟨S64x65536x8, .f32⟩ : BufTy).Contents (Elt F)) (x1 : (⟨S64x30x17x2, .i32⟩ : BufTy).Contents (Elt F))
    (h_main_v33 : W (Proc.devRef .tc main_v33) = val_main_v33 (F := F) x1)
    (h_main_v62 : W (Proc.devRef .tc main_v62) = val_main_v62 (F := F) x0 x1) :
    after (ops4 (F := F)) W (Proc.devRef .tc main_v74) = val_main_v74 (F := F) x0 x1 := by
  after_results_simp
  try simp only [TRef.ofBuf, TRef.toBuf, cast_eq]
  rw [h_main_v33, h_main_v62]
  rfl

set_option maxRecDepth 8192 in
theorem c4_main_v75 (W : Valuation τ sig (Elt F)) (x0 : (⟨S64x65536x8, .f32⟩ : BufTy).Contents (Elt F)) (x1 : (⟨S64x30x17x2, .i32⟩ : BufTy).Contents (Elt F))
    (h_main_v37 : W (Proc.devRef .tc main_v37) = val_main_v37 (F := F) x0 x1) :
    after (ops4 (F := F)) W (Proc.devRef .tc main_v75) = val_main_v75 (F := F) x0 x1 := by
  after_results_simp
  try simp only [TRef.ofBuf, TRef.toBuf, cast_eq]
  rw [h_main_v37]
  rfl

theorem c4_keep_main_arg0 (W : Valuation τ sig (Elt F)) :
    after (ops4 (F := F)) W (Proc.devRef .tc main_arg0) = W (Proc.devRef .tc main_arg0) := by
  after_results_simp

theorem c4_keep_main_arg1 (W : Valuation τ sig (Elt F)) :
    after (ops4 (F := F)) W (Proc.devRef .tc main_arg1) = W (Proc.devRef .tc main_arg1) := by
  after_results_simp

/-- Operations 122 to 122 of the program, in order. -/
abbrev ops5 : List (HloOp τ sig (Elt F)) :=
  [ binary main_v74 main_v75 main_v76 ((fun a b => concatenate S64x2 1 [⟨S64x1, a⟩, ⟨S64x1, b⟩] concatenates_S64x1_S64x1_S64x2_d1) : (⟨S64x1, .f32⟩ : BufTy).Contents (Elt F) → (⟨S64x1, .f32⟩ : BufTy).Contents (Elt F) → (⟨S64x2, .f32⟩ : BufTy).Contents (Elt F)) ]

set_option maxRecDepth 8192 in
theorem c5_main_v76 (W : Valuation τ sig (Elt F)) (x0 : (⟨S64x65536x8, .f32⟩ : BufTy).Contents (Elt F)) (x1 : (⟨S64x30x17x2, .i32⟩ : BufTy).Contents (Elt F))
    (h_main_v74 : W (Proc.devRef .tc main_v74) = val_main_v74 (F := F) x0 x1)
    (h_main_v75 : W (Proc.devRef .tc main_v75) = val_main_v75 (F := F) x0 x1) :
    after (ops5 (F := F)) W (Proc.devRef .tc main_v76) = val_main_v76 (F := F) x0 x1 := by
  after_results_simp
  rw [h_main_v74, h_main_v75]
  rfl

theorem c5_keep_main_arg0 (W : Valuation τ sig (Elt F)) :
    after (ops5 (F := F)) W (Proc.devRef .tc main_arg0) = W (Proc.devRef .tc main_arg0) := by
  after_results_simp

theorem c5_keep_main_arg1 (W : Valuation τ sig (Elt F)) :
    after (ops5 (F := F)) W (Proc.devRef .tc main_arg1) = W (Proc.devRef .tc main_arg1) := by
  after_results_simp

set_option maxRecDepth 8192 in
/-- The program's operation list is its consecutive pieces joined. -/
theorem ops_eq : (ops : List (HloOp τ sig (Elt F))) = ops1 ++ (ops2 ++ (ops3 ++ (ops4 ++ (ops5)))) := rfl

theorem after_ops (V : Valuation τ sig (Elt F)) :
    after (ops (F := F)) V = after ops5 (after ops4 (after ops3 (after ops2 (after ops1 V)))) := by
  rw [ops_eq, after_append, after_append, after_append, after_append]

set_option maxRecDepth 8192 in
/-- No operation of the program leaves a buffer's contents open. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers after the whole program, from any contents: the result at the last stage's value of the two arguments' contents, the arguments as they were. -/
theorem after_all (V : Valuation τ sig (Elt F)) :
    after (ops (F := F)) V (Proc.devRef .tc main_v76) = val_main_v76 (F := F) (V (Proc.devRef .tc main_arg0)) (V (Proc.devRef .tc main_arg1))
    ∧ after (ops (F := F)) V (Proc.devRef .tc main_arg0) = V (Proc.devRef .tc main_arg0)
    ∧ after (ops (F := F)) V (Proc.devRef .tc main_arg1) = V (Proc.devRef .tc main_arg1) := by
  rw [after_ops]
  have f1_main_v6 := c1_main_v6 (F := F) V (V (Proc.devRef .tc main_arg1)) rfl
  have f1_main_v9 := c1_main_v9 (F := F) V (V (Proc.devRef .tc main_arg0)) (V (Proc.devRef .tc main_arg1)) rfl rfl
  have f1_main_arg0 := c1_keep_main_arg0 (F := F) V
  have f1_main_arg1 := c1_keep_main_arg1 (F := F) V
  have f2_main_v12 := c2_main_v12 (F := F) (after ops1 V) (V (Proc.devRef .tc main_arg1)) f1_main_v6
  have f2_main_v21 := c2_main_v21 (F := F) (after ops1 V) (V (Proc.devRef .tc main_arg0)) (V (Proc.devRef .tc main_arg1)) f1_main_v9 f1_main_v6
  have f2_main_v33 := c2_main_v33 (F := F) (after ops1 V) (V (Proc.devRef .tc main_arg1)) f1_main_v6
  have f2_main_v37 := c2_main_v37 (F := F) (after ops1 V) (V (Proc.devRef .tc main_arg0)) (V (Proc.devRef .tc main_arg1)) f1_main_v9 f1_main_v6
  have f2_main_arg0 := (c2_keep_main_arg0 (F := F) (after ops1 V)).trans f1_main_arg0
  have f2_main_arg1 := (c2_keep_main_arg1 (F := F) (after ops1 V)).trans f1_main_arg1
  have f3_main_v62 := c3_main_v62 (F := F) (after ops2 (after ops1 V)) (V (Proc.devRef .tc main_arg0)) (V (Proc.devRef .tc main_arg1)) f2_main_v12 f2_main_v21
  have f3_main_v33 := (c3_keep_main_v33 (F := F) (after ops2 (after ops1 V))).trans f2_main_v33
  have f3_main_v37 := (c3_keep_main_v37 (F := F) (after ops2 (after ops1 V))).trans f2_main_v37
  have f3_main_arg0 := (c3_keep_main_arg0 (F := F) (after ops2 (after ops1 V))).trans f2_main_arg0
  have f3_main_arg1 := (c3_keep_main_arg1 (F := F) (after ops2 (after ops1 V))).trans f2_main_arg1
  have f4_main_v74 := c4_main_v74 (F := F) (after ops3 (after ops2 (after ops1 V))) (V (Proc.devRef .tc main_arg0)) (V (Proc.devRef .tc main_arg1)) f3_main_v33 f3_main_v62
  have f4_main_v75 := c4_main_v75 (F := F) (after ops3 (after ops2 (after ops1 V))) (V (Proc.devRef .tc main_arg0)) (V (Proc.devRef .tc main_arg1)) f3_main_v37
  have f4_main_arg0 := (c4_keep_main_arg0 (F := F) (after ops3 (after ops2 (after ops1 V)))).trans f3_main_arg0
  have f4_main_arg1 := (c4_keep_main_arg1 (F := F) (after ops3 (after ops2 (after ops1 V)))).trans f3_main_arg1
  have f5_main_v76 := c5_main_v76 (F := F) (after ops4 (after ops3 (after ops2 (after ops1 V)))) (V (Proc.devRef .tc main_arg0)) (V (Proc.devRef .tc main_arg1)) f4_main_v74 f4_main_v75
  have f5_main_arg0 := (c5_keep_main_arg0 (F := F) (after ops4 (after ops3 (after ops2 (after ops1 V))))).trans f4_main_arg0
  have f5_main_arg1 := (c5_keep_main_arg1 (F := F) (after ops4 (after ops3 (after ops2 (after ops1 V))))).trans f4_main_arg1
  exact ⟨f5_main_v76, f5_main_arg0, f5_main_arg1⟩

theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v76)
          = val_main_v76 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v76).trans (after_all (F := F) (launchContents m c)).1,
       (h c main_arg0).trans (after_all (F := F) (launchContents m c)).2.1,
       (h c main_arg1).trans (after_all (F := F) (launchContents m c)).2.2⟩)
    (run_seq scopedRefs_eq scopedSems_eq defs (main (F := F)) (fun _ => ops) main_eq (fun _ => ops_sub) m ρ
      (fun _ => List.forall_iff_forall_mem.1 ops_fresh))

end Cert.ReferenceIdeal.HandRun

end
-- ==== Proof.Spec.lean ====
/-
  The associative-embedding (pull / push) loss of one image as plain real arithmetic, in two arrangements.

  The first arrangement works from the gathered tag vectors `g m k t` (person `m`, joint `k`, tag coordinate `t`) and the
  validity weights `v m k ∈ {0, 1}`: the mean tag of a person over its valid joints, the pull term (mean squared distance of
  the valid joints' tags to that mean) and the push term (`exp (-‖mean_i - mean_j‖²)` over ordered pairs of distinct present
  persons).

  The second arrangement works from the first and second moments `S m j` (`j < 8`: `∑ₖ v·g`; `j ≥ 8`: `∑ₖ v·g²`) over 32 rows, the
  last two of weight zero: the pull term as `S₂ - cnt·‖mean‖²`, the squared distance as `‖a‖² + ‖b‖² - 2⟨a, b⟩`, presence as
  `min cnt 1`.
-/
import Idealize.ShloMosaic.PureOps.Ideal
import Idealize.ShloMosaic.Lib.ValueIdx

noncomputable section

namespace AELoss

/-! ## From the gathered tags -/

section Ref

variable (g : Fin 30 → Fin 17 → Fin 8 → ℝ) (v : Fin 30 → Fin 17 → ℝ)

/-- The number of valid joints of a person. -/
def cnt (m : Fin 30) : ℝ := ∑ k, v m k
/-- The mean tag of a person over its valid joints (over one joint when it has none). -/
def mean (m : Fin 30) (t : Fin 8) : ℝ := (∑ k, g m k t * v m k) / max (cnt v m) 1
/-- A person's pull term: the valid joints' mean (over joints and tag coordinates) squared distance to the mean tag. -/
def pullp (m : Fin 30) : ℝ :=
  (∑ k, (∑ t, (g m k t - mean g v m t) * (g m k t - mean g v m t)) / 8 * v m k) / max (cnt v m) 1
/-- The number of present persons. -/
def npeople : ℝ := ∑ m, (if 0 < cnt v m then (1 : ℝ) else 0)
/-- The pull loss. -/
def pull : ℝ := (∑ m, pullp g v m) / max (npeople v) 1
/-- The squared distance of two persons' mean tags. -/
def dist2 (i j : Fin 30) : ℝ := ∑ t, (mean g v i t - mean g v j t) * (mean g v i t - mean g v j t)
/-- The push sum over ordered pairs of distinct present persons. -/
def pushsum : ℝ :=
  ∑ i, ∑ j, (if (0 < cnt v i ∧ 0 < cnt v j) ∧ i ≠ j then Real.exp (-(dist2 g v i j)) else 0)
/-- The push loss. -/
def push : ℝ := if 1 < npeople v then pushsum g v / max (npeople v * (npeople v - 1)) 1 * (1 / 2) else 0

end Ref

/-! ## From the moments -/

section Ker

variable (S : Fin 32 → Fin 16 → ℝ) (w : Fin 32 → Fin 17 → ℝ)

/-- Column `t` of the first moments. -/
def lo (t : Fin 8) : Fin 16 := ⟨t.val, lt_trans t.isLt (by norm_num)⟩
/-- Column `t` of the second moments. -/
def hi (t : Fin 8) : Fin 16 := ⟨t.val + 8, by have := t.isLt; omega⟩

def kcnt (m : Fin 32) : ℝ := ∑ k, w m k
def kmean (m : Fin 32) (t : Fin 8) : ℝ := S m (lo t) / max (kcnt w m) 1
def kmsq (m : Fin 32) : ℝ := ∑ t, kmean S w m t * kmean S w m t
def kpullp (m : Fin 32) : ℝ := ((∑ t, S m (hi t)) - kcnt w m * kmsq S w m) / 8 / max (kcnt w m) 1
def khas (m : Fin 32) : ℝ := min (kcnt w m) 1
def kn : ℝ := ∑ m, khas w m
def kpull : ℝ := (∑ m, khas w m * kpullp S w m) / max (kn w) 1
def kdist2 (i j : Fin 32) : ℝ := (kmsq S w i + kmsq S w j) - 2 * ∑ t, kmean S w i t * kmean S w j t
def kpushsum : ℝ :=
  ∑ i, ∑ j, (if i ≠ j then khas w i * khas w j * Real.exp (0 - kdist2 S w i j) else 0)
def kpush : ℝ := if 1 < kn w then kpushsum S w / max (kn w * (kn w - 1)) 1 * (1 / 2) else 0

end Ker

/-! ## The moments of gathered tags -/

section Moments

variable (G : Fin 32 → Fin 17 → Fin 8 → ℝ) (w : Fin 32 → Fin 17 → ℝ)

/-- Row `m` of the moments of the gathered tags `G` under the weights `w`: columns `0 … 7` the weighted sums of the tags,
    columns `8 … 15` those of their squares. -/
def Sof (m : Fin 32) (j : Fin 16) : ℝ :=
  if h : j.val < 8 then ∑ k, w m k * G m k ⟨j.val, h⟩
  else ∑ k, w m k * (G m k ⟨j.val - 8, by have := j.isLt; omega⟩ * G m k ⟨j.val - 8, by have := j.isLt; omega⟩)

/-- Person `m` among the 32 rows. -/
def top (m : Fin 30) : Fin 32 := ⟨m.val, lt_trans m.isLt (by norm_num)⟩

end Moments

/-! ## A band of one image's tag rows -/

/-- Row `n` of `X` at coordinate `t` when `a ≤ n < b` (and `n` is a row at all), else zero. -/
def bandTerm (X : Fin 65536 → Fin 8 → ℝ) (n a b : ℕ) (t : Fin 8) : ℝ :=
  if h : n < 65536 then (if a ≤ n ∧ n < b then X ⟨n, h⟩ t else 0) else 0

/-- The squares of the rows. -/
def sqr (X : Fin 65536 → Fin 8 → ℝ) : Fin 65536 → Fin 8 → ℝ := fun n t => X n t * X n t

end AELoss

end
-- ==== Proof.Data.lean ====
/-
  One image's data read off the two argument arrays: the joint's pixel index and validity weight over 32 rows (the last
  two rows padding: index 0, weight 0), the gathered tag vectors, and the loss array the two programs end with.
-/
import proofs.«426285_j17789754540200_2_alg».proof.Proof.Spec

noncomputable section

namespace AELoss

open Idealize.ShloMosaic Idealize.ShloMosaic.ValueIdx

variable (tg : (⟨3, ![64, 65536, 8]⟩ : Shape).Idx → ℝ) (kp : (⟨4, ![64, 30, 17, 2]⟩ : Shape).Idx → BitVec 32)

/-- The pixel index of joint `k` of row `p` of image `b`, as a word (zero on the padding rows). -/
def idxBV (b : Fin 64) (p : Fin 32) (k : Fin 17) : BitVec 32 :=
  if h : p.val < 30 then kp (ix4 b ⟨p.val, h⟩ k (0 : Fin 2)) else 0#32
/-- The same as a natural number. -/
def idx32 (b : Fin 64) (p : Fin 32) (k : Fin 17) : ℕ := (idxBV kp b p k).toNat
/-- The validity weight of joint `k` of row `p` of image `b`: one when the flag is positive, else zero (zero on the padding rows). -/
def w32 (b : Fin 64) (p : Fin 32) (k : Fin 17) : ℝ :=
  if h : p.val < 30 then (if 0 < (kp (ix4 b ⟨p.val, h⟩ k (1 : Fin 2))).toInt then 1 else 0) else 0
/-- Image `b`'s tag rows. -/
def rows (b : Fin 64) : Fin 65536 → Fin 8 → ℝ := fun n t => tg (ix3 b n t)
/-- The tag vector gathered for joint `k` of row `p` of image `b` (zero where the index is no row). -/
def g32 (b : Fin 64) (p : Fin 32) (k : Fin 17) (t : Fin 8) : ℝ :=
  if h : idx32 kp b p k < 65536 then tg (ix3 b ⟨idx32 kp b p k, h⟩ t) else 0
/-- The 30 persons' gathered tags and weights. -/
def gR (b : Fin 64) : Fin 30 → Fin 17 → Fin 8 → ℝ := fun m => g32 tg kp b (top m)
def vR (b : Fin 64) : Fin 30 → Fin 17 → ℝ := fun m => w32 kp b (top m)

/-- The loss array: per image the push loss, then the pull loss. -/
def lossArr : (⟨2, ![64, 2]⟩ : Shape).Idx → EReal := fun i =>
  if (i 1).val = 0 then ((push (gR tg kp ⟨(i 0).val, idx2_lt0 i⟩) (vR kp ⟨(i 0).val, idx2_lt0 i⟩) : ℝ) : EReal)
  else ((pull (gR tg kp ⟨(i 0).val, idx2_lt0 i⟩) (vR kp ⟨(i 0).val, idx2_lt0 i⟩) : ℝ) : EReal)

end AELoss

end
-- ==== Proof.RefMean.lean ====
/-
  The reference's shared intermediate stages read at an entry over real data: a person's count of valid joints, its
  guarded count, whether it is present, the number of present persons, and its mean tag.
-/
import proofs.«426285_j17789754540200_2_alg».proof.Proof.RefRead
import proofs.«426285_j17789754540200_2_alg».proof.Proof.Data
import Idealize.ShloMosaic.PureOps.Ideal.Laws
import Idealize.ShloMosaic.Lib.Pipeline.Value
import Idealize.ShloMosaic.Lib.ValueLayout

noncomputable section

namespace Cert.ReferenceIdeal.RefValue

open Cert.ReferenceIdeal Cert.ReferenceIdeal.Gen Cert.ReferenceIdeal.Read Idealize.ShloMosaic Idealize.ShloMosaic.ValueIdx AELoss

namespace Mean

/-! ## Small facts -/

/-- The coercion of a finite sum of reals is the sum of the coercions. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The word of the float one denotes the real one. -/
theorem one_f32 : Ideal.ofBits .f32 0x3F800000#32 = ((1 : ℝ) : EReal) := by
  simp [Ideal.ofBits, Ideal.ieee, -EReal.coe_mul]
  norm_num

/-- A one-bit word converted to a float is its value. -/
theorem uitofp_bit (c : Prop) [Decidable c] :
    FloatOps.uitofp (F := Ideal) .f32 (if c then 1#1 else 0#1) = (((if c then 1 else 0 : ℝ)) : EReal) := by
  by_cases h : c
  · rw [if_pos h, if_pos h]
    show (((1#1 : BitVec 1).toNat : ℝ) : EReal) = ((1 : ℝ) : EReal)
    norm_num
  · rw [if_neg h, if_neg h]
    show (((0#1 : BitVec 1).toNat : ℝ) : EReal) = ((0 : ℝ) : EReal)
    norm_num

/-! ## The stages' indices by coordinates -/

theorem idx10 (b : Fin 64) (p : Fin 30) (k : Fin 17) : idx_main_v10 (ix2 b p) k = ix3 b p k :=
  funext fun a => Fin.ext (by match a with | ⟨0, _⟩ => rfl | ⟨1, _⟩ => rfl | ⟨2, _⟩ => rfl)

theorem idx33 (b : Fin 64) (p : Fin 30) : idx_main_v33 (ix1 b) p = ix2 b p :=
  funext fun a => Fin.ext (by match a with | ⟨0, _⟩ => rfl | ⟨1, _⟩ => rfl)

theorem idx18 (b : Fin 64) (p : Fin 30) (t : Fin 8) (k : Fin 17) :
    idx_main_v18 (ix3 b p t) k = ix4 b p k t :=
  funext fun a => Fin.ext (by match a with | ⟨0, _⟩ => rfl | ⟨1, _⟩ => rfl | ⟨2, _⟩ => rfl | ⟨3, _⟩ => rfl)

theorem idx16 (b : Fin 64) (p : Fin 30) (k : Fin 17) (t : Fin 8) :
    idx_main_v15 (idx_main_v16 (ix4 b p k t)) = ix3 b p k :=
  funext fun a => Fin.ext (by match a with | ⟨0, _⟩ => rfl | ⟨1, _⟩ => rfl | ⟨2, _⟩ => rfl)

theorem idx20 (b : Fin 64) (p : Fin 30) (t : Fin 8) :
    idx_main_v19 (idx_main_v20 (ix3 b p t)) = ix2 b p :=
  funext fun a => Fin.ext (by match a with | ⟨0, _⟩ => rfl | ⟨1, _⟩ => rfl)

end Mean

open Mean

/-! ## The stages -/

theorem v10_at (x1 : (⟨S64x30x17x2, .i32⟩ : BufTy).Contents (Elt Ideal)) (v : Fin 64 → Fin 30 → Fin 17 → ℝ)
    (hv : ∀ (b : Fin 64) (p : Fin 30) (k : Fin 17), val_main_v6 (F := Ideal) x1 (ix3 b p k) = ((v b p k : ℝ) : EReal))
    (hv01 : ∀ (b : Fin 64) (p : Fin 30) (k : Fin 17), v b p k = 0 ∨ v b p k = 1) (b : Fin 64) (p : Fin 30) :
    val_main_v10 (F := Ideal) x1 (ix2 b p) = ((cnt (v b) p : ℝ) : EReal) := by
  rw [val_main_v10_apply]
  simp only [idx10, hv, val_main_cst_apply, Ideal.ofBits_def, Ideal.ofBits_zero_f32, zero_add]
  rw [← coe_sum]
  rfl

theorem v14_at (x1 : (⟨S64x30x17x2, .i32⟩ : BufTy).Contents (Elt Ideal)) (v : Fin 64 → Fin 30 → Fin 17 → ℝ)
    (hv : ∀ (b : Fin 64) (p : Fin 30) (k : Fin 17), val_main_v6 (F := Ideal) x1 (ix3 b p k) = ((v b p k : ℝ) : EReal))
    (hv01 : ∀ (b : Fin 64) (p : Fin 30) (k : Fin 17), v b p k = 0 ∨ v b p k = 1) (b : Fin 64) (p : Fin 30) :
    val_main_v14 (F := Ideal) x1 (ix2 b p) = ((max (cnt (v b) p) 1 : ℝ) : EReal) := by
  rw [val_main_v14_apply, v10_at x1 v hv hv01 b p, val_main_v13_apply, val_main_cst_1_apply, Ideal.ofBits_def,
    one_f32, Ideal.maximumf_def]
  exact (EReal.coe_strictMono.monotone.map_max).symm

theorem v12_at (x1 : (⟨S64x30x17x2, .i32⟩ : BufTy).Contents (Elt Ideal)) (v : Fin 64 → Fin 30 → Fin 17 → ℝ)
    (hv : ∀ (b : Fin 64) (p : Fin 30) (k : Fin 17), val_main_v6 (F := Ideal) x1 (ix3 b p k) = ((v b p k : ℝ) : EReal))
    (hv01 : ∀ (b : Fin 64) (p : Fin 30) (k : Fin 17), v b p k = 0 ∨ v b p k = 1) (b : Fin 64) (p : Fin 30) :
    val_main_v12 (F := Ideal) x1 (ix2 b p) = if 0 < cnt (v b) p then 1#1 else 0#1 := by
  rw [val_main_v12_apply, v10_at x1 v hv hv01 b p, val_main_v11_apply, val_main_cst_0_apply, Ideal.ofBits_def,
    Ideal.ofBits_zero_f32, Ideal.cmpf_def]
  unfold Ideal.cmp
  by_cases h : 0 < cnt (v b) p
  · have h' : (0 : EReal) < ((cnt (v b) p : ℝ) : EReal) := EReal.coe_pos.mpr h
    rw [if_pos h]
    simp [h']
  · have h' : ¬ (0 : EReal) < ((cnt (v b) p : ℝ) : EReal) := fun hh => h (EReal.coe_pos.mp hh)
    rw [if_neg h]
    simp [h']

theorem v33_at (x1 : (⟨S64x30x17x2, .i32⟩ : BufTy).Contents (Elt Ideal)) (v : Fin 64 → Fin 30 → Fin 17 → ℝ)
    (hv : ∀ (b : Fin 64) (p : Fin 30) (k : Fin 17), val_main_v6 (F := Ideal) x1 (ix3 b p k) = ((v b p k : ℝ) : EReal))
    (hv01 : ∀ (b : Fin 64) (p : Fin 30) (k : Fin 17), v b p k = 0 ∨ v b p k = 1) (b : Fin 64) :
    val_main_v33 (F := Ideal) x1 (ix1 b) = ((npeople (v b) : ℝ) : EReal) := by
  rw [val_main_v33_apply]
  simp only [idx33, val_main_v32_apply, v12_at x1 v hv hv01, uitofp_bit, val_main_cst_6_apply, Ideal.ofBits_def,
    Ideal.ofBits_zero_f32, zero_add]
  rw [← coe_sum]
  rfl

theorem v21_at (x0 : (⟨S64x65536x8, .f32⟩ : BufTy).Contents (Elt Ideal)) (x1 : (⟨S64x30x17x2, .i32⟩ : BufTy).Contents (Elt Ideal)) (g : Fin 64 → Fin 30 → Fin 17 → Fin 8 → ℝ) (v : Fin 64 → Fin 30 → Fin 17 → ℝ)
    (hg : ∀ (b : Fin 64) (p : Fin 30) (k : Fin 17) (t : Fin 8), val_main_v9 (F := Ideal) x0 x1 (ix4 b p k t) = ((g b p k t : ℝ) : EReal))
    (hv : ∀ (b : Fin 64) (p : Fin 30) (k : Fin 17), val_main_v6 (F := Ideal) x1 (ix3 b p k) = ((v b p k : ℝ) : EReal))
    (hv01 : ∀ (b : Fin 64) (p : Fin 30) (k : Fin 17), v b p k = 0 ∨ v b p k = 1) (b : Fin 64) (p : Fin 30) (t : Fin 8) :
    val_main_v21 (F := Ideal) x0 x1 (ix3 b p t) = ((mean (g b) (v b) p t : ℝ) : EReal) := by
  rw [val_main_v21_apply, val_main_v18_apply, val_main_v20_apply, val_main_v19_apply]
  simp only [idx18, idx20, val_main_v17_apply, val_main_v16_apply, val_main_v15_apply, idx16, hg, hv,
    v14_at x1 v hv hv01, val_main_cst_2_apply, Ideal.ofBits_def, Ideal.ofBits_zero_f32, zero_add,
    Ideal.mulf_def, Ideal.hostDivf_def]
  have hM : max (cnt (v b) p) 1 ≠ 0 := by
    have : (1 : ℝ) ≤ max (cnt (v b) p) 1 := le_max_right _ _
    intro h0
    rw [h0] at this
    norm_num at this
  rw [Ideal.div_coe hM]
  simp only [← EReal.coe_mul]
  rw [← coe_sum, ← EReal.coe_mul]
  rw [mul_one_div]
  rfl

end Cert.ReferenceIdeal.RefValue

end
-- ==== Proof.RefPull.lean ====
/-
  The reference's pull loss of an image, read over real data.
-/
import proofs.«426285_j17789754540200_2_alg».proof.Proof.RefRead
import proofs.«426285_j17789754540200_2_alg».proof.Proof.Data
import Idealize.ShloMosaic.PureOps.Ideal.Laws
import Idealize.ShloMosaic.Lib.Pipeline.Value
import Idealize.ShloMosaic.Lib.ValueLayout
import proofs.«426285_j17789754540200_2_alg».proof.Proof.RefMean

noncomputable section

namespace Cert.ReferenceIdeal.RefValue

open Cert.ReferenceIdeal Cert.ReferenceIdeal.Gen Cert.ReferenceIdeal.Read Idealize.ShloMosaic Idealize.ShloMosaic.ValueIdx AELoss

/-- A finite sum of reals, read in the extended reals, is the sum of the terms read there. -/
theorem coe_sum {n : ℕ} (f : Fin n → ℝ) : (∑ k, ((f k : ℝ) : EReal)) = ((∑ k, f k : ℝ) : EReal) := by
  induction (Finset.univ : Finset (Fin n)) using Finset.induction_on with
  | empty => simp
  | insert a s ha ih => rw [Finset.sum_insert ha, Finset.sum_insert ha, ih, EReal.coe_add]

/-- The literal 8. -/
theorem ofBits_eight : Ideal.ofBits .f32 0x41000000#32 = ((8 : ℝ) : EReal) := by
  simp [Ideal.ofBits, Ideal.ieee, -EReal.coe_mul]; norm_num

/-- The literal 1. -/
theorem ofBits_one : Ideal.ofBits .f32 0x3F800000#32 = ((1 : ℝ) : EReal) := by
  simp [Ideal.ofBits, Ideal.ieee, -EReal.coe_mul]; norm_num

/-- A real divided by a nonzero real, in the extended reals. -/
theorem div_coe_coe (x y : ℝ) (hy : y ≠ 0) : Ideal.div ((x : ℝ) : EReal) ((y : ℝ) : EReal) = ((x / y : ℝ) : EReal) := by
  rw [Ideal.div_coe hy, ← EReal.coe_mul, ← div_eq_mul_one_div]

/-- The mean tag broadcast over the joints. -/
theorem v23_at (x0 : (⟨S64x65536x8, .f32⟩ : BufTy).Contents (Elt Ideal)) (x1 : (⟨S64x30x17x2, .i32⟩ : BufTy).Contents (Elt Ideal)) (g : Fin 64 → Fin 30 → Fin 17 → Fin 8 → ℝ) (v : Fin 64 → Fin 30 → Fin 17 → ℝ)
    (hg : ∀ (b : Fin 64) (p : Fin 30) (k : Fin 17) (t : Fin 8), val_main_v9 (F := Ideal) x0 x1 (ix4 b p k t) = ((g b p k t : ℝ) : EReal))
    (hv : ∀ (b : Fin 64) (p : Fin 30) (k : Fin 17), val_main_v6 (F := Ideal) x1 (ix3 b p k) = ((v b p k : ℝ) : EReal))
    (hv01 : ∀ (b : Fin 64) (p : Fin 30) (k : Fin 17), v b p k = 0 ∨ v b p k = 1) (b : Fin 64) (p : Fin 30) (k : Fin 17) (t : Fin 8) :
    val_main_v23 (F := Ideal) x0 x1 (ix4 b p k t) = ((mean (g b) (v b) p t : ℝ) : EReal) := by
  rw [val_main_v23_apply, val_main_v22_apply]
  have e : idx_main_v22 (idx_main_v23 (ix4 b p k t)) = ix3 b p t :=
    funext fun a => Fin.ext (by match a with | ⟨0, _⟩ => rfl | ⟨1, _⟩ => rfl | ⟨2, _⟩ => rfl)
  rw [e]
  exact v21_at x0 x1 g v hg hv hv01 b p t

/-- The squared deviation of a joint's tag coordinate from the mean. -/
theorem v25_at (x0 : (⟨S64x65536x8, .f32⟩ : BufTy).Contents (Elt Ideal)) (x1 : (⟨S64x30x17x2, .i32⟩ : BufTy).Contents (Elt Ideal)) (g : Fin 64 → Fin 30 → Fin 17 → Fin 8 → ℝ) (v : Fin 64 → Fin 30 → Fin 17 → ℝ)
    (hg : ∀ (b : Fin 64) (p : Fin 30) (k : Fin 17) (t : Fin 8), val_main_v9 (F := Ideal) x0 x1 (ix4 b p k t) = ((g b p k t : ℝ) : EReal))
    (hv : ∀ (b : Fin 64) (p : Fin 30) (k : Fin 17), val_main_v6 (F := Ideal) x1 (ix3 b p k) = ((v b p k : ℝ) : EReal))
    (hv01 : ∀ (b : Fin 64) (p : Fin 30) (k : Fin 17), v b p k = 0 ∨ v b p k = 1) (b : Fin 64) (p : Fin 30) (k : Fin 17) (t : Fin 8) :
    val_main_v25 (F := Ideal) x0 x1 (ix4 b p k t)
      = (((g b p k t - mean (g b) (v b) p t) * (g b p k t - mean (g b) (v b) p t) : ℝ) : EReal) := by
  rw [val_main_v25_apply, val_main_v24_apply, hg, v23_at x0 x1 g v hg hv hv01]
  simp only [Ideal.mulf_def, Ideal.subf_def]
  rw [← EReal.coe_sub, ← EReal.coe_mul]

/-- Summed over the tag coordinates. -/
theorem v26_at (x0 : (⟨S64x65536x8, .f32⟩ : BufTy).Contents (Elt Ideal)) (x1 : (⟨S64x30x17x2, .i32⟩ : BufTy).Contents (Elt Ideal)) (g : Fin 64 → Fin 30 → Fin 17 → Fin 8 → ℝ) (v : Fin 64 → Fin 30 → Fin 17 → ℝ)
    (hg : ∀ (b : Fin 64) (p : Fin 30) (k : Fin 17) (t : Fin 8), val_main_v9 (F := Ideal) x0 x1 (ix4 b p k t) = ((g b p k t : ℝ) : EReal))
    (hv : ∀ (b : Fin 64) (p : Fin 30) (k : Fin 17), val_main_v6 (F := Ideal) x1 (ix3 b p k) = ((v b p k : ℝ) : EReal))
    (hv01 : ∀ (b : Fin 64) (p : Fin 30) (k : Fin 17), v b p k = 0 ∨ v b p k = 1) (b : Fin 64) (p : Fin 30) (k : Fin 17) :
    val_main_v26 (F := Ideal) x0 x1 (ix3 b p k)
      = ((∑ t, (g b p k t - mean (g b) (v b) p t) * (g b p k t - mean (g b) (v b) p t) : ℝ) : EReal) := by
  rw [val_main_v26_apply, val_main_cst_3_apply]
  have e : ∀ t : Fin 8, idx_main_v26 (ix3 b p k) t = ix4 b p k t := fun t =>
    funext fun a => Fin.ext (by match a with | ⟨0, _⟩ => rfl | ⟨1, _⟩ => rfl | ⟨2, _⟩ => rfl | ⟨3, _⟩ => rfl)
  simp only [e, v25_at x0 x1 g v hg hv hv01, Ideal.ofBits_def, Ideal.ofBits_zero_f32, zero_add]
  exact coe_sum _

/-- Averaged over the 8 tag coordinates. -/
theorem v28_at (x0 : (⟨S64x65536x8, .f32⟩ : BufTy).Contents (Elt Ideal)) (x1 : (⟨S64x30x17x2, .i32⟩ : BufTy).Contents (Elt Ideal)) (g : Fin 64 → Fin 30 → Fin 17 → Fin 8 → ℝ) (v : Fin 64 → Fin 30 → Fin 17 → ℝ)
    (hg : ∀ (b : Fin 64) (p : Fin 30) (k : Fin 17) (t : Fin 8), val_main_v9 (F := Ideal) x0 x1 (ix4 b p k t) = ((g b p k t : ℝ) : EReal))
    (hv : ∀ (b : Fin 64) (p : Fin 30) (k : Fin 17), val_main_v6 (F := Ideal) x1 (ix3 b p k) = ((v b p k : ℝ) : EReal))
    (hv01 : ∀ (b : Fin 64) (p : Fin 30) (k : Fin 17), v b p k = 0 ∨ v b p k = 1) (b : Fin 64) (p : Fin 30) (k : Fin 17) :
    val_main_v28 (F := Ideal) x0 x1 (ix3 b p k)
      = (((∑ t, (g b p k t - mean (g b) (v b) p t) * (g b p k t - mean (g b) (v b) p t)) / 8 : ℝ) : EReal) := by
  rw [val_main_v28_apply, v26_at x0 x1 g v hg hv hv01, val_main_v27_apply, val_main_cst_4_apply]
  simp only [Ideal.hostDivf_def, Ideal.ofBits_def]
  rw [ofBits_eight]
  exact div_coe_coe _ 8 (by norm_num)

/-- Weighted by the joint's validity. -/
theorem v29_at (x0 : (⟨S64x65536x8, .f32⟩ : BufTy).Contents (Elt Ideal)) (x1 : (⟨S64x30x17x2, .i32⟩ : BufTy).Contents (Elt Ideal)) (g : Fin 64 → Fin 30 → Fin 17 → Fin 8 → ℝ) (v : Fin 64 → Fin 30 → Fin 17 → ℝ)
    (hg : ∀ (b : Fin 64) (p : Fin 30) (k : Fin 17) (t : Fin 8), val_main_v9 (F := Ideal) x0 x1 (ix4 b p k t) = ((g b p k t : ℝ) : EReal))
    (hv : ∀ (b : Fin 64) (p : Fin 30) (k : Fin 17), val_main_v6 (F := Ideal) x1 (ix3 b p k) = ((v b p k : ℝ) : EReal))
    (hv01 : ∀ (b : Fin 64) (p : Fin 30) (k : Fin 17), v b p k = 0 ∨ v b p k = 1) (b : Fin 64) (p : Fin 30) (k : Fin 17) :
    val_main_v29 (F := Ideal) x0 x1 (ix3 b p k)
      = (((∑ t, (g b p k t - mean (g b) (v b) p t) * (g b p k t - mean (g b) (v b) p t)) / 8 * v b p k : ℝ) : EReal) := by
  rw [val_main_v29_apply, v28_at x0 x1 g v hg hv hv01, hv]
  simp only [Ideal.mulf_def]
  rw [← EReal.coe_mul]

/-- Summed over the joints. -/
theorem v30_at (x0 : (⟨S64x65536x8, .f32⟩ : BufTy).Contents (Elt Ideal)) (x1 : (⟨S64x30x17x2, .i32⟩ : BufTy).Contents (Elt Ideal)) (g : Fin 64 → Fin 30 → Fin 17 → Fin 8 → ℝ) (v : Fin 64 → Fin 30 → Fin 17 → ℝ)
    (hg : ∀ (b : Fin 64) (p : Fin 30) (k : Fin 17) (t : Fin 8), val_main_v9 (F := Ideal) x0 x1 (ix4 b p k t) = ((g b p k t : ℝ) : EReal))
    (hv : ∀ (b : Fin 64) (p : Fin 30) (k : Fin 17), val_main_v6 (F := Ideal) x1 (ix3 b p k) = ((v b p k : ℝ) : EReal))
    (hv01 : ∀ (b : Fin 64) (p : Fin 30) (k : Fin 17), v b p k = 0 ∨ v b p k = 1) (b : Fin 64) (p : Fin 30) :
    val_main_v30 (F := Ideal) x0 x1 (ix2 b p)
      = ((∑ k, (∑ t, (g b p k t - mean (g b) (v b) p t) * (g b p k t - mean (g b) (v b) p t)) / 8 * v b p k : ℝ) : EReal) := by
  rw [val_main_v30_apply, val_main_cst_5_apply]
  have e : ∀ k : Fin 17, idx_main_v30 (ix2 b p) k = ix3 b p k := fun k =>
    funext fun a => Fin.ext (by match a with | ⟨0, _⟩ => rfl | ⟨1, _⟩ => rfl | ⟨2, _⟩ => rfl)
  simp only [e, v29_at x0 x1 g v hg hv hv01, Ideal.ofBits_def, Ideal.ofBits_zero_f32, zero_add]
  exact coe_sum _

/-- A person's pull term. -/
theorem v31_at (x0 : (⟨S64x65536x8, .f32⟩ : BufTy).Contents (Elt Ideal)) (x1 : (⟨S64x30x17x2, .i32⟩ : BufTy).Contents (Elt Ideal)) (g : Fin 64 → Fin 30 → Fin 17 → Fin 8 → ℝ) (v : Fin 64 → Fin 30 → Fin 17 → ℝ)
    (hg : ∀ (b : Fin 64) (p : Fin 30) (k : Fin 17) (t : Fin 8), val_main_v9 (F := Ideal) x0 x1 (ix4 b p k t) = ((g b p k t : ℝ) : EReal))
    (hv : ∀ (b : Fin 64) (p : Fin 30) (k : Fin 17), val_main_v6 (F := Ideal) x1 (ix3 b p k) = ((v b p k : ℝ) : EReal))
    (hv01 : ∀ (b : Fin 64) (p : Fin 30) (k : Fin 17), v b p k = 0 ∨ v b p k = 1) (b : Fin 64) (p : Fin 30) :
    val_main_v31 (F := Ideal) x0 x1 (ix2 b p) = ((pullp (g b) (v b) p : ℝ) : EReal) := by
  rw [val_main_v31_apply, v30_at x0 x1 g v hg hv hv01, v14_at x1 v hv hv01]
  simp only [Ideal.hostDivf_def]
  have h1 : max (cnt (v b) p) 1 ≠ 0 := ne_of_gt (lt_of_lt_of_le one_pos (le_max_right _ _))
  rw [div_coe_coe _ _ h1]
  rfl

/-- Summed over the persons. -/
theorem v34_at (x0 : (⟨S64x65536x8, .f32⟩ : BufTy).Contents (Elt Ideal)) (x1 : (⟨S64x30x17x2, .i32⟩ : BufTy).Contents (Elt Ideal)) (g : Fin 64 → Fin 30 → Fin 17 → Fin 8 → ℝ) (v : Fin 64 → Fin 30 → Fin 17 → ℝ)
    (hg : ∀ (b : Fin 64) (p : Fin 30) (k : Fin 17) (t : Fin 8), val_main_v9 (F := Ideal) x0 x1 (ix4 b p k t) = ((g b p k t : ℝ) : EReal))
    (hv : ∀ (b : Fin 64) (p : Fin 30) (k : Fin 17), val_main_v6 (F := Ideal) x1 (ix3 b p k) = ((v b p k : ℝ) : EReal))
    (hv01 : ∀ (b : Fin 64) (p : Fin 30) (k : Fin 17), v b p k = 0 ∨ v b p k = 1) (b : Fin 64) :
    val_main_v34 (F := Ideal) x0 x1 (ix1 b) = ((∑ p, pullp (g b) (v b) p : ℝ) : EReal) := by
  rw [val_main_v34_apply, val_main_cst_7_apply]
  have e : ∀ p : Fin 30, idx_main_v34 (ix1 b) p = ix2 b p := fun p =>
    funext fun a => Fin.ext (by match a with | ⟨0, _⟩ => rfl | ⟨1, _⟩ => rfl)
  simp only [e, v31_at x0 x1 g v hg hv hv01, Ideal.ofBits_def, Ideal.ofBits_zero_f32, zero_add]
  exact coe_sum _

/-- The guarded number of present persons. -/
theorem v36_at (x1 : (⟨S64x30x17x2, .i32⟩ : BufTy).Contents (Elt Ideal)) (v : Fin 64 → Fin 30 → Fin 17 → ℝ)
    (hv : ∀ (b : Fin 64) (p : Fin 30) (k : Fin 17), val_main_v6 (F := Ideal) x1 (ix3 b p k) = ((v b p k : ℝ) : EReal))
    (hv01 : ∀ (b : Fin 64) (p : Fin 30) (k : Fin 17), v b p k = 0 ∨ v b p k = 1) (b : Fin 64) :
    val_main_v36 (F := Ideal) x1 (ix1 b) = ((max (npeople (v b)) 1 : ℝ) : EReal) := by
  rw [val_main_v36_apply, v33_at x1 v hv hv01, val_main_v35_apply, val_main_cst_8_apply]
  simp only [Ideal.maximumf_def, Ideal.ofBits_def]
  rw [ofBits_one]
  exact (EReal.coe_strictMono.monotone.map_max).symm

theorem v37_at (x0 : (⟨S64x65536x8, .f32⟩ : BufTy).Contents (Elt Ideal)) (x1 : (⟨S64x30x17x2, .i32⟩ : BufTy).Contents (Elt Ideal)) (g : Fin 64 → Fin 30 → Fin 17 → Fin 8 → ℝ) (v : Fin 64 → Fin 30 → Fin 17 → ℝ)
    (hg : ∀ (b : Fin 64) (p : Fin 30) (k : Fin 17) (t : Fin 8), val_main_v9 (F := Ideal) x0 x1 (ix4 b p k t) = ((g b p k t : ℝ) : EReal))
    (hv : ∀ (b : Fin 64) (p : Fin 30) (k : Fin 17), val_main_v6 (F := Ideal) x1 (ix3 b p k) = ((v b p k : ℝ) : EReal))
    (hv01 : ∀ (b : Fin 64) (p : Fin 30) (k : Fin 17), v b p k = 0 ∨ v b p k = 1) (b : Fin 64) :
    val_main_v37 (F := Ideal) x0 x1 (ix1 b) = ((pull (g b) (v b) : ℝ) : EReal) := by
  rw [val_main_v37_apply, v34_at x0 x1 g v hg hv hv01, v36_at x1 v hv hv01]
  simp only [Ideal.hostDivf_def]
  have h1 : max (npeople (v b)) 1 ≠ 0 := ne_of_gt (lt_of_lt_of_le one_pos (le_max_right _ _))
  rw [div_coe_coe _ _ h1]
  rfl

end Cert.ReferenceIdeal.RefValue

end
-- ==== Proof.RefPush.lean ====
/-
  The reference's push loss of an image, read over real data.
-/
import proofs.«426285_j17789754540200_2_alg».proof.Proof.RefRead
import proofs.«426285_j17789754540200_2_alg».proof.Proof.Data
import Idealize.ShloMosaic.PureOps.Ideal.Laws
import Idealize.ShloMosaic.Lib.Pipeline.Value
import Idealize.ShloMosaic.Lib.ValueLayout
import proofs.«426285_j17789754540200_2_alg».proof.Proof.RefMean

noncomputable section

namespace Cert.ReferenceIdeal.RefValue

open Cert.ReferenceIdeal Cert.ReferenceIdeal.Gen Cert.ReferenceIdeal.Read Idealize.ShloMosaic Idealize.ShloMosaic.ValueIdx AELoss

namespace Push

/-! ## Real numbers among the extended reals -/

/-- The coercion of a finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum of reals. -/
theorem coe_max' (x y : ℝ) : ((max x y : ℝ) : EReal) = max (x : EReal) (y : EReal) :=
  EReal.coe_strictMono.monotone.map_max

/-- The quotient of two reals, the divisor not zero. -/
theorem div_coe_coe (x y : ℝ) (hy : y ≠ 0) : Ideal.div (x : EReal) (y : EReal) = ((x / y : ℝ) : EReal) := by
  rw [Ideal.div_coe hy, ← EReal.coe_mul, ← div_eq_mul_one_div]

theorem max_one_ne_zero (x : ℝ) : max x 1 ≠ 0 :=
  ne_of_gt (lt_of_lt_of_le one_pos (le_max_right _ _))

theorem lit_one : Ideal.ofBits .f32 0x3F800000#32 = ((1 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num

/-- A select on "greater than" between two reals. -/
theorem select_ogt_coe {α : Type} (x y : ℝ) (a b : α) :
    Scalar.select (FloatOps.cmpf (F := Ideal) (φ := .f32) .ogt (x : EReal) (y : EReal)) a b = if y < x then a else b := by
  rw [Ideal.cmpf_def]
  unfold Ideal.cmp Scalar.select
  by_cases h : y < x
  · have h' : (y : EReal) < x := EReal.coe_lt_coe_iff.2 h
    simp [h, h']
  · have h' : ¬ (y : EReal) < x := fun h'' => h (EReal.coe_lt_coe_iff.1 h'')
    simp [h, h']

/-! ## The off-diagonal word -/

/-- "Row plus zero is not the column", on the words of two coordinates below 30. -/
theorem word_ne (i j : Fin 30) :
    ~~~(IntOp.cmpi .eq (IntOp.addi (BitVec.ofNat 32 i.val) 0#32) (BitVec.ofNat 32 j.val)) = if i ≠ j then 1#1 else 0#1 := by
  show ~~~(BitVec.ofBool (BitVec.ofNat 32 i.val + 0#32 == BitVec.ofNat 32 j.val)) = _
  rw [BitVec.add_zero]
  by_cases h : i = j
  · subst h
    rw [beq_self_eq_true, if_neg (not_not.2 rfl)]
    decide
  · have hne : BitVec.ofNat 32 i.val ≠ BitVec.ofNat 32 j.val := by
      intro e
      have e' := congrArg BitVec.toNat e
      simp only [BitVec.toNat_ofNat] at e'
      have hi := i.isLt
      have hj := j.isLt
      rw [Nat.mod_eq_of_lt (by omega), Nat.mod_eq_of_lt (by omega)] at e'
      exact h (Fin.ext e')
    have hb : (BitVec.ofNat 32 i.val == BitVec.ofNat 32 j.val) = false := beq_eq_false_iff_ne.2 hne
    rw [hb, if_pos h]
    decide

/-! ## A sum over the last two axes of three -/

/-- The host's sum of a `[64, 30, 30]` array over its last two axes, read at `b`: the initial value plus the double
    sum over the two coordinates. -/
theorem hostSum12 (y : S64x30x30.Idx → EReal) (init : EReal) (h : S64x30x30.ReducesTo [1, 2] S64) (b : Fin 64) :
    Ideal.hostReduceAdd h y init (ix1 b) = init + ∑ p : Fin 30, ∑ q : Fin 30, y (ix3 b p q) := by
  unfold Ideal.hostReduceAdd
  refine congrArg (init + ·) ?_
  have hleft : ∀ i ∈ Finset.univ.filter (fun i : S64x30x30.Idx => h.drop i = ix1 b),
      ix3 b (i 1 : Fin 30) (i 2 : Fin 30) = i := by
    intro i hi
    have hj := (Finset.mem_filter.1 hi).2
    have h0 : (i 0).val = b.val :=
      (h.drop_apply_val_of_eq i 0 0).symm.trans (congrArg (fun j : S64.Idx => (j 0).val) hj)
    funext a
    match a with
    | ⟨0, _⟩ => exact Fin.ext h0.symm
    | ⟨1, _⟩ => rfl
    | ⟨2, _⟩ => rfl
  refine (Finset.sum_nbij' (t := (Finset.univ : Finset (Fin 30 × Fin 30)))
    (g := fun pq : Fin 30 × Fin 30 => y (ix3 b pq.1 pq.2))
    (fun i => ((i 1 : Fin 30), (i 2 : Fin 30))) (fun pq => ix3 b pq.1 pq.2)
    (fun _ _ => Finset.mem_univ _) ?_ hleft (fun _ _ => rfl) ?_).trans (Fintype.sum_prod_type _)
  · intro pq _
    refine Finset.mem_filter.2 ⟨Finset.mem_univ _, ?_⟩
    funext a
    obtain rfl : a = 0 := Subsingleton.elim _ _
    exact Fin.ext (h.drop_apply_val_of_eq (ix3 b pq.1 pq.2) 0 0)
  · intro i hi
    exact congrArg y (hleft i hi).symm

/-! ## The stages over real data -/

section Mask

variable (x1 : (⟨S64x30x17x2, .i32⟩ : BufTy).Contents (Elt Ideal)) (v : Fin 64 → Fin 30 → Fin 17 → ℝ)
  (hv : ∀ (b : Fin 64) (p : Fin 30) (k : Fin 17), val_main_v6 (F := Ideal) x1 (ix3 b p k) = ((v b p k : ℝ) : EReal))
  (hv01 : ∀ (b : Fin 64) (p : Fin 30) (k : Fin 17), v b p k = 0 ∨ v b p k = 1)
include hv hv01

/-- The mask of the ordered pairs of distinct present persons. -/
theorem v58_at (b : Fin 64) (i j : Fin 30) :
    val_main_v58 (F := Ideal) x1 (ix3 b i j)
      = if (0 < cnt (v b) i ∧ 0 < cnt (v b) j) ∧ i ≠ j then 1#1 else 0#1 := by
  have e1 : idx_main_v45 (idx_main_v47 (ix3 b i j)) = ix2 b i := funext fun a => Fin.ext (by
    match a with
    | ⟨0, _⟩ => rfl
    | ⟨1, _⟩ => rfl)
  have e2 : idx_main_v46 (idx_main_v48 (ix3 b i j)) = ix2 b j := funext fun a => Fin.ext (by
    match a with
    | ⟨0, _⟩ => rfl
    | ⟨1, _⟩ => rfl)
  have e3 : idx_main_v55 (idx_main_v57 (ix3 b i j)) = ix2 i j := funext fun a => Fin.ext (by
    match a with
    | ⟨0, _⟩ => rfl
    | ⟨1, _⟩ => rfl)
  rw [val_main_v58_apply, val_main_v49_apply, val_main_v47_apply, val_main_v45_apply, val_main_v48_apply,
    val_main_v46_apply, e1, e2, v12_at x1 v hv hv01 b i, v12_at x1 v hv hv01 b j, val_main_v57_apply,
    val_main_v56_apply, val_main_v55_apply, e3, val_main_v54_apply, val_main_v53_apply, val_main_v50_apply,
    val_main_v51_apply, val_main_v52_apply, val_main_c_10_apply]
  show IntOp.andi (IntOp.andi _ _)
    (~~~(IntOp.cmpi .eq (IntOp.addi (BitVec.ofNat 32 i.val) 0#32) (BitVec.ofNat 32 j.val))) = _
  rw [word_ne]
  by_cases h1 : 0 < cnt (v b) i <;> by_cases h2 : 0 < cnt (v b) j <;> by_cases h3 : i = j <;>
    simp [h1, h2, h3, IntOp.andi]

/-- The guarded product of the number of present persons with one less. -/
theorem v67_at (b : Fin 64) :
    val_main_v67 (F := Ideal) x1 (ix1 b) = ((max (npeople (v b) * (npeople (v b) - 1)) 1 : ℝ) : EReal) := by
  rw [val_main_v67_apply, val_main_v65_apply, val_main_v64_apply, v33_at x1 v hv hv01 b, val_main_v63_apply,
    val_main_cst_13_apply, val_main_v66_apply, val_main_cst_14_apply, Ideal.ofBits_def, lit_one, Ideal.maximumf_def,
    Ideal.mulf_def, Ideal.subf_def, ← EReal.coe_sub, ← EReal.coe_mul, coe_max']

end Mask

section Dist

variable (x0 : (⟨S64x65536x8, .f32⟩ : BufTy).Contents (Elt Ideal)) (x1 : (⟨S64x30x17x2, .i32⟩ : BufTy).Contents (Elt Ideal))
  (g : Fin 64 → Fin 30 → Fin 17 → Fin 8 → ℝ) (v : Fin 64 → Fin 30 → Fin 17 → ℝ)
  (hg : ∀ (b : Fin 64) (p : Fin 30) (k : Fin 17) (t : Fin 8),
    val_main_v9 (F := Ideal) x0 x1 (ix4 b p k t) = ((g b p k t : ℝ) : EReal))
  (hv : ∀ (b : Fin 64) (p : Fin 30) (k : Fin 17), val_main_v6 (F := Ideal) x1 (ix3 b p k) = ((v b p k : ℝ) : EReal))
  (hv01 : ∀ (b : Fin 64) (p : Fin 30) (k : Fin 17), v b p k = 0 ∨ v b p k = 1)
include hg hv hv01

/-- The squared distance of two persons' mean tags. -/
theorem v44_at (b : Fin 64) (i j : Fin 30) :
    val_main_v44 (F := Ideal) x0 x1 (ix3 b i j) = ((dist2 (g b) (v b) i j : ℝ) : EReal) := by
  rw [val_main_v44_apply, val_main_cst_9_apply, Ideal.ofBits_def, Ideal.ofBits_zero_f32, zero_add]
  unfold dist2
  rw [coe_sum]
  refine Finset.sum_congr rfl fun t _ => ?_
  have e1 : idx_main_v38 (idx_main_v40 (idx_main_v44 (ix3 b i j) t)) = ix3 b i t := funext fun a => Fin.ext (by
    match a with
    | ⟨0, _⟩ => rfl
    | ⟨1, _⟩ => rfl
    | ⟨2, _⟩ => rfl)
  have e2 : idx_main_v39 (idx_main_v41 (idx_main_v44 (ix3 b i j) t)) = ix3 b j t := funext fun a => Fin.ext (by
    match a with
    | ⟨0, _⟩ => rfl
    | ⟨1, _⟩ => rfl
    | ⟨2, _⟩ => rfl)
  rw [val_main_v43_apply, val_main_v42_apply, val_main_v40_apply, val_main_v38_apply, val_main_v41_apply,
    val_main_v39_apply, e1, e2, v21_at x0 x1 g v hg hv hv01 b i t, v21_at x0 x1 g v hg hv hv01 b j t, Ideal.subf_def,
    Ideal.mulf_def, ← EReal.coe_sub, ← EReal.coe_mul]

/-- The masked exponential of minus the squared distance. -/
theorem v61_at (b : Fin 64) (i j : Fin 30) :
    val_main_v61 (F := Ideal) x0 x1 (ix3 b i j)
      = (((if (0 < cnt (v b) i ∧ 0 < cnt (v b) j) ∧ i ≠ j then Real.exp (-(dist2 (g b) (v b) i j)) else 0 : ℝ)) : EReal) := by
  rw [val_main_v61_apply, v58_at x1 v hv hv01 b i j, val_main_v60_apply, val_main_v59_apply,
    v44_at x0 x1 g v hg hv hv01 b i j, val_main_call1_v1_apply, val_main_call1_v0_apply, val_main_cst_11_apply,
    Ideal.ofBits_def, Ideal.ofBits_zero_f32, Ideal.hostNegf_def, Ideal.negf_def, ← EReal.coe_neg,
    Ideal.hostUnary_exp_def, Ideal.exp_coe]
  by_cases hc : (0 < cnt (v b) i ∧ 0 < cnt (v b) j) ∧ i ≠ j
  · rw [if_pos hc, if_pos hc, select_one]
  · rw [if_neg hc, if_neg hc, select_zero, EReal.coe_zero]

/-- The push sum. -/
theorem v62_at (b : Fin 64) :
    val_main_v62 (F := Ideal) x0 x1 (ix1 b) = ((pushsum (g b) (v b) : ℝ) : EReal) := by
  unfold val_main_v62
  simp only [Host.reduceAdd, Ideal.hostReduceAdd_def]
  rw [hostSum12, val_main_cst_12_apply, Ideal.ofBits_def, Ideal.ofBits_zero_f32, zero_add]
  unfold pushsum
  rw [coe_sum]
  refine Finset.sum_congr rfl fun i _ => ?_
  rw [coe_sum]
  exact Finset.sum_congr rfl fun j _ => v61_at x0 x1 g v hg hv hv01 b i j

end Dist

end Push

theorem v73_at (x0 : (⟨S64x65536x8, .f32⟩ : BufTy).Contents (Elt Ideal)) (x1 : (⟨S64x30x17x2, .i32⟩ : BufTy).Contents (Elt Ideal)) (g : Fin 64 → Fin 30 → Fin 17 → Fin 8 → ℝ) (v : Fin 64 → Fin 30 → Fin 17 → ℝ)
    (hg : ∀ (b : Fin 64) (p : Fin 30) (k : Fin 17) (t : Fin 8), val_main_v9 (F := Ideal) x0 x1 (ix4 b p k t) = ((g b p k t : ℝ) : EReal))
    (hv : ∀ (b : Fin 64) (p : Fin 30) (k : Fin 17), val_main_v6 (F := Ideal) x1 (ix3 b p k) = ((v b p k : ℝ) : EReal))
    (hv01 : ∀ (b : Fin 64) (p : Fin 30) (k : Fin 17), v b p k = 0 ∨ v b p k = 1) (b : Fin 64) :
    val_main_v73 (F := Ideal) x0 x1 (ix1 b) = ((push (g b) (v b) : ℝ) : EReal) := by
  rw [val_main_v73_apply, val_main_v69_apply, v33_at x1 v hv hv01 b, val_main_v68_apply, val_main_cst_15_apply,
    Ideal.ofBits_def, Push.lit_one, Push.select_ogt_coe]
  unfold push
  by_cases hc : 1 < npeople (v b)
  · rw [if_pos hc, if_pos hc, val_main_v72_apply, val_main_v71_apply, val_main_cst_16_apply, Ideal.ofBits_def,
      Push.lit_half, val_main_v70_apply, Push.v62_at x0 x1 g v hg hv hv01 b, Push.v67_at x1 v hv hv01 b,
      Ideal.hostDivf_def, Push.div_coe_coe _ _ (Push.max_one_ne_zero _), Ideal.mulf_def, ← EReal.coe_mul]
  · rw [if_neg hc, if_neg hc, val_main_call2_v1_apply, val_main_call2_v0_apply, val_main_cst_17_apply,
      Ideal.ofBits_def, Ideal.ofBits_zero_f32, EReal.coe_zero]

end Cert.ReferenceIdeal.RefValue

end
-- ==== Proof.RefGather.lean ====
/-
  The reference's two inputs to its loss formula, read at an entry: the tag vector gathered for a joint (the joint's pixel
  index lies in [0, 65536), so the index is neither wrapped nor masked) and the joint's validity weight.
-/
import proofs.«426285_j17789754540200_2_alg».proof.Proof.RefRead
import proofs.«426285_j17789754540200_2_alg».proof.Proof.Data
import Idealize.ShloMosaic.PureOps.Ideal.Laws
import Idealize.ShloMosaic.Lib.Pipeline.Value
import Idealize.ShloMosaic.Lib.ValueLayout

noncomputable section

namespace Cert.ReferenceIdeal.RefValue

open Cert.ReferenceIdeal Cert.ReferenceIdeal.Gen Cert.ReferenceIdeal.Read Idealize.ShloMosaic Idealize.ShloMosaic.ValueIdx AELoss

namespace Gather

/-- A signed "greater than zero" on a word is the bit one exactly when the word's signed value is positive. -/
theorem sgt_zero (x : BitVec 32) : IntOp.cmpi .sgt x 0#32 = if 0 < x.toInt then 1#1 else 0#1 := by
  unfold IntOp.cmpi
  by_cases h : 0 < x.toInt
  · rw [if_pos h]; simp [BitVec.slt, h]
  · rw [if_neg h]; simp [BitVec.slt, h]

/-! ## Words below 65536 -/

private theorem toInt_of_lt (x : BitVec 32) (h : x.toNat < 65536) : x.toInt = (x.toNat : Int) :=
  BitVec.toInt_eq_toNat_of_lt (by omega)

/-- A word below 65536 is not negative, -/
theorem slt_zero_of_lt (x : BitVec 32) (h : x.toNat < 65536) : IntOp.cmpi .slt x 0#32 = 0#1 := by
  have e := toInt_of_lt x h
  have hb : x.slt 0#32 = false := by
    show decide (x.toInt < (0#32 : BitVec 32).toInt) = false
    rw [BitVec.toInt_zero, e]; exact decide_eq_false (by omega)
  show BitVec.ofBool (x.slt 0#32) = 0#1
  rw [hb]; rfl

/-- it is at least zero, -/
theorem sge_zero_of_lt (x : BitVec 32) (h : x.toNat < 65536) : IntOp.cmpi .sge x 0#32 = 1#1 := by
  have e := toInt_of_lt x h
  have hb : (0#32 : BitVec 32).sle x = true := by
    show decide ((0#32 : BitVec 32).toInt ≤ x.toInt) = true
    rw [BitVec.toInt_zero, e]; exact decide_eq_true (by omega)
  show BitVec.ofBool ((0#32 : BitVec 32).sle x) = 1#1
  rw [hb]; rfl

/-- and at most 65535. -/
theorem sle_max_of_lt (x : BitVec 32) (h : x.toNat < 65536) : IntOp.cmpi .sle x 65535#32 = 1#1 := by
  have e := toInt_of_lt x h
  have e2 : (65535#32 : BitVec 32).toInt = 65535 := by decide
  have hb : x.sle 65535#32 = true := by
    show decide (x.toInt ≤ (65535#32 : BitVec 32).toInt) = true
    rw [e, e2]; exact decide_eq_true (by omega)
  show BitVec.ofBool (x.sle 65535#32) = 1#1
  rw [hb]; rfl

/-- Read signed and clamped to the last row it is itself. -/
theorem clamp_of_lt (x : BitVec 32) (h : x.toNat < 65536) : min x.toInt.toNat 65535 = x.toNat := by
  rw [toInt_of_lt x h, Int.toNat_natCast]
  omega

/-! ## A conjunction of ones -/

/-- The reduce-and of an array of ones from the bit one is the bit one. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  generalize ((List.finRange s.numel).filter fun n => h.drop (s.rowMajor.symm n) = j) = l
  induction l with
  | nil => rfl
  | cons n l ih =>
    rw [List.foldl_cons, hx]
    exact ih

/-! ## The gather's operand index -/

private abbrev GD := gather_S64x65536x8_S64x510x1_S64x510x8_2_1_0_0_1_2_118

/-- The gather read at (b, r, t): image b's row whose number is the start index at (b, r), read signed and clamped
    to the last row, at coordinate t. -/
theorem gather_at {α : Type} (x : S64x65536x8.Idx → α) (idx : IVec S64x510x1 32) (b : Fin 64) (r : Fin 510) (t : Fin 8) :
    Host.gather gather_S64x65536x8_S64x510x1_S64x510x8_2_1_0_0_1_2_118 x idx (ix3 b r t)
      = x (ix3 b ⟨min (idx (ix3 b r (0 : Fin 1))).toInt.toNat 65535, by omega⟩ t) := by
  unfold Host.gather
  congr 1
  funext a
  refine Fin.ext ?_
  match a with
  | ⟨0, _⟩ =>
    show GD.start (ix3 b r t) idx 0 + GD.batchCoord (ix3 b r t) 0 + GD.offCoord (ix3 b r t) 0 = b.val
    have h1 : GD.start (ix3 b r t) idx 0 = 0 := rfl
    have h2 : GD.batchCoord (ix3 b r t) 0 = b.val := rfl
    have h3 : GD.offCoord (ix3 b r t) 0 = 0 := rfl
    rw [h1, h2, h3]
    omega
  | ⟨1, _⟩ =>
    show GD.start (ix3 b r t) idx 1 + GD.batchCoord (ix3 b r t) 1 + GD.offCoord (ix3 b r t) 1 = min (idx (ix3 b r (0 : Fin 1))).toInt.toNat 65535
    have h1 : GD.start (ix3 b r t) idx 1 = min (idx (ix3 b r (0 : Fin 1))).toInt.toNat 65535 := by
      unfold GatherDims.start
      rw [dif_pos (show (1 : Fin S64x65536x8.rank) ∈ GD.startIndexMap from List.mem_singleton.mpr rfl)]
      have hsi : GD.siIdx (ix3 b r t) ⟨List.idxOf (1 : Fin S64x65536x8.rank) GD.startIndexMap,
          List.idxOf_lt_length_iff.2 (List.mem_singleton.mpr rfl)⟩ = ix3 b r (0 : Fin 1) := by
        funext c; refine Fin.ext ?_
        match c with
        | ⟨0, _⟩ => rfl
        | ⟨1, _⟩ => rfl
        | ⟨2, _⟩ => rfl
      rw [hsi]
      rfl
    have h2 : GD.batchCoord (ix3 b r t) 1 = 0 := rfl
    have h3 : GD.offCoord (ix3 b r t) 1 = 0 := rfl
    rw [h1, h2, h3]
    omega
  | ⟨2, _⟩ =>
    show GD.start (ix3 b r t) idx 2 + GD.batchCoord (ix3 b r t) 2 + GD.offCoord (ix3 b r t) 2 = t.val
    have h1 : GD.start (ix3 b r t) idx 2 = 0 := rfl
    have h2 : GD.batchCoord (ix3 b r t) 2 = 0 := rfl
    have h3 : GD.offCoord (ix3 b r t) 2 = t.val := rfl
    rw [h1, h2, h3]
    omega

/-! ## The start indices -/

/-- Row r = 17 p + k of the flattened indices reads joint k of person p. -/
theorem v7_at (x1 : (⟨S64x30x17x2, .i32⟩ : BufTy).Contents (Elt Ideal)) (b : Fin 64) (p : Fin 30) (k : Fin 17)
    (r : Fin 510) (hr : r.val = 17 * p.val + k.val) :
    val_main_v7 (F := Ideal) x1 (ix3 b r (0 : Fin 1)) = x1 (ix4 b p k (0 : Fin 2)) := by
  have hb : b.val < 64 := b.isLt
  have hp : p.val < 30 := p.isLt
  have hk : k.val < 17 := k.isLt
  have h7 : idx_main_v7 (ix3 b r (0 : Fin 1)) = ix3 b p k := by
    funext a; refine Fin.ext ?_
    match a with
    | ⟨0, _⟩ => show ((b.val * 510 + r.val) * 1 + 0) / 510 = b.val; omega
    | ⟨1, _⟩ => show ((b.val * 510 + r.val) * 1 + 0) / 17 % 30 = p.val; omega
    | ⟨2, _⟩ => show ((b.val * 510 + r.val) * 1 + 0) % 17 = k.val; omega
  have h1 : idx_main_v1 (ix3 b p k) = ix4 b p k (0 : Fin 1) := by
    funext a; refine Fin.ext ?_
    match a with
    | ⟨0, _⟩ => show ((b.val * 30 + p.val) * 17 + k.val) / 510 = b.val; omega
    | ⟨1, _⟩ => show ((b.val * 30 + p.val) * 17 + k.val) / 17 % 30 = p.val; omega
    | ⟨2, _⟩ => show ((b.val * 30 + p.val) * 17 + k.val) / 1 % 17 = k.val; omega
    | ⟨3, _⟩ => rfl
  have h0 : idx_main_v0 (ix4 b p k (0 : Fin 1)) = ix4 b p k (0 : Fin 2) := by
    funext a; refine Fin.ext ?_
    match a with
    | ⟨0, _⟩ => rfl
    | ⟨1, _⟩ => rfl
    | ⟨2, _⟩ => rfl
    | ⟨3, _⟩ => rfl
  rw [val_main_v7_apply, h7, val_main_v1_apply, h1, val_main_v0_apply, h0]

/-- A start index below 65536 is not wrapped. -/
theorem v4_at (x1 : (⟨S64x30x17x2, .i32⟩ : BufTy).Contents (Elt Ideal)) (b : Fin 64) (p : Fin 30) (k : Fin 17)
    (r : Fin 510) (hr : r.val = 17 * p.val + k.val) (h : (x1 (ix4 b p k (0 : Fin 2))).toNat < 65536) :
    val_main_call0_v4 (F := Ideal) x1 (ix3 b r (0 : Fin 1)) = x1 (ix4 b p k (0 : Fin 2)) := by
  rw [val_main_call0_v4_apply, val_main_call0_v1_apply, val_main_call0_v0_apply, val_main_call0_c_apply,
    v7_at x1 b p k r hr, slt_zero_of_lt _ h]
  exact select_zero _ _

/-- Every start index below 65536: every in-range bit is one, -/
theorem v10_at (x1 : (⟨S64x30x17x2, .i32⟩ : BufTy).Contents (Elt Ideal))
    (hidx : ∀ (b : Fin 64) (p : Fin 30) (k : Fin 17), (x1 (ix4 b p k (0 : Fin 2))).toNat < 65536) (i : S64x510x1.Idx) :
    val_main_call0_v10 (F := Ideal) x1 i = 1#1 := by
  obtain ⟨b, r, z, rfl⟩ : ∃ (b : Fin 64) (r : Fin 510) (z : Fin 1), i = ix3 b r z := ⟨i 0, i 1, i 2, eq_ix3 i⟩
  obtain rfl : z = 0 := Subsingleton.elim _ _
  have hr : r.val < 510 := r.isLt
  have h := hidx b ⟨r.val / 17, by omega⟩ ⟨r.val % 17, by omega⟩
  have e := v4_at x1 b ⟨r.val / 17, by omega⟩ ⟨r.val % 17, by omega⟩ r (by show r.val = 17 * (r.val / 17) + r.val % 17; omega) h
  rw [val_main_call0_v10_apply, val_main_call0_v6_apply, val_main_call0_v9_apply, e, val_main_call0_v5_apply,
    val_main_call0_c_2_apply, val_main_call0_v8_apply, val_main_call0_v7_apply, val_main_call0_c_1_apply,
    sge_zero_of_lt _ h, sle_max_of_lt _ h]
  rfl

/-- so is their conjunction over the index vector's one entry. -/
theorem v11_at (x1 : (⟨S64x30x17x2, .i32⟩ : BufTy).Contents (Elt Ideal))
    (hidx : ∀ (b : Fin 64) (p : Fin 30) (k : Fin 17), (x1 (ix4 b p k (0 : Fin 2))).toNat < 65536) (j : S64x510.Idx) :
    val_main_call0_v11 (F := Ideal) x1 j = 1#1 := by
  unfold val_main_call0_v11
  exact reduce_andi_one _ _ _ _ (v10_at x1 hidx) (fun _ => rfl) j

/-- The selected gather at row r = 17 p + k: image b's tag row whose number is the joint's pixel index. -/
theorem v8_at (x0 : (⟨S64x65536x8, .f32⟩ : BufTy).Contents (Elt Ideal)) (x1 : (⟨S64x30x17x2, .i32⟩ : BufTy).Contents (Elt Ideal))
    (hidx : ∀ (b : Fin 64) (p : Fin 30) (k : Fin 17), (x1 (ix4 b p k (0 : Fin 2))).toNat < 65536)
    (b : Fin 64) (p : Fin 30) (k : Fin 17) (t : Fin 8) (r : Fin 510) (hr : r.val = 17 * p.val + k.val) :
    val_main_v8 (F := Ideal) x0 x1 (ix3 b r t) = x0 (ix3 b ⟨(x1 (ix4 b p k (0 : Fin 2))).toNat, hidx b p k⟩ t) := by
  rw [val_main_v8_apply, val_main_call0_v13_apply, v11_at x1 hidx]
  refine (select_one _ _).trans ?_
  unfold val_main_call0_v12
  rw [gather_at]
  have e : min (val_main_call0_v4 (F := Ideal) x1 (ix3 b r (0 : Fin 1))).toInt.toNat 65535 = (x1 (ix4 b p k (0 : Fin 2))).toNat := by
    rw [v4_at x1 b p k r hr (hidx b p k), clamp_of_lt _ (hidx b p k)]
  exact congrArg (fun n : Fin 65536 => x0 (ix3 b n t)) (Fin.ext e)

end Gather

/-- The gathered tag of joint `k` of person `p` of image `b`, coordinate `t`. -/
theorem v9_at (x0 : (⟨S64x65536x8, .f32⟩ : BufTy).Contents (Elt Ideal)) (x1 : (⟨S64x30x17x2, .i32⟩ : BufTy).Contents (Elt Ideal))
    (tg : S64x65536x8.Idx → ℝ) (htg : ∀ j, x0 j = ((tg j : ℝ) : EReal))
    (hidx : ∀ (b : Fin 64) (p : Fin 30) (k : Fin 17), (x1 (ix4 b p k (0 : Fin 2))).toNat < 65536)
    (b : Fin 64) (p : Fin 30) (k : Fin 17) (t : Fin 8) :
    val_main_v9 (F := Ideal) x0 x1 (ix4 b p k t) = ((gR tg x1 b p k t : ℝ) : EReal) := by
  have hb : b.val < 64 := b.isLt
  have hp : p.val < 30 := p.isLt
  have hk : k.val < 17 := k.isLt
  have ht : t.val < 8 := t.isLt
  have hi : idx_main_v9 (ix4 b p k t) = ix3 b (⟨17 * p.val + k.val, by omega⟩ : Fin 510) t := by
    funext a; refine Fin.ext ?_
    match a with
    | ⟨0, _⟩ => show (((b.val * 30 + p.val) * 17 + k.val) * 8 + t.val) / 4080 = b.val; omega
    | ⟨1, _⟩ => show (((b.val * 30 + p.val) * 17 + k.val) * 8 + t.val) / 8 % 510 = 17 * p.val + k.val; omega
    | ⟨2, _⟩ => show (((b.val * 30 + p.val) * 17 + k.val) * 8 + t.val) % 8 = t.val; omega
  rw [val_main_v9_apply, hi, Gather.v8_at x0 x1 hidx b p k t _ rfl, htg]
  have e : idxBV x1 b (top p) k = x1 (ix4 b p k (0 : Fin 2)) := dif_pos p.isLt
  have e2 : idx32 x1 b (top p) k = (x1 (ix4 b p k (0 : Fin 2))).toNat := congrArg BitVec.toNat e
  show _ = ((g32 tg x1 b (top p) k t : ℝ) : EReal)
  unfold g32
  rw [dif_pos (show idx32 x1 b (top p) k < 65536 from e2 ▸ hidx b p k)]
  exact congrArg (fun n : Fin 65536 => ((tg (ix3 b n t) : ℝ) : EReal)) (Fin.ext e2.symm)

/-- The validity weight of joint `k` of person `p` of image `b`. -/
theorem v6_at (x1 : (⟨S64x30x17x2, .i32⟩ : BufTy).Contents (Elt Ideal)) (b : Fin 64) (p : Fin 30) (k : Fin 17) :
    val_main_v6 (F := Ideal) x1 (ix3 b p k) = ((vR x1 b p k : ℝ) : EReal) := by
  rw [val_main_v6_apply, val_main_v5_apply, val_main_v3_apply, val_main_v2_apply, val_main_v4_apply, val_main_c_apply]
  have hb : b.val < 64 := b.isLt
  have hp : p.val < 30 := p.isLt
  have hk : k.val < 17 := k.isLt
  have hi : idx_main_v2 (idx_main_v3 (ix3 b p k)) = ix4 b p k (1 : Fin 2) := by
    funext a; refine Fin.ext ?_
    match a with
    | ⟨0, _⟩ => show ((b.val * 30 + p.val) * 17 + k.val) / 510 = b.val; omega
    | ⟨1, _⟩ => show ((b.val * 30 + p.val) * 17 + k.val) / 17 % 30 = p.val; omega
    | ⟨2, _⟩ => show ((b.val * 30 + p.val) * 17 + k.val) / 1 % 17 = k.val; omega
    | ⟨3, _⟩ => show 1 + 0 = 1; rfl
  rw [hi, Gather.sgt_zero]
  show (((if 0 < (x1 (ix4 b p k (1 : Fin 2))).toInt then 1#1 else 0#1 : BitVec 1).toNat : ℝ) : EReal) = _
  unfold vR w32
  rw [dif_pos (show (top p).val < 30 from p.isLt)]
  show _ = (((if 0 < (x1 (ix4 b p k (1 : Fin 2))).toInt then (1 : ℝ) else 0 : ℝ)) : EReal)
  by_cases h : 0 < (x1 (ix4 b p k (1 : Fin 2))).toInt
  · rw [if_pos h, if_pos h]; simp
  · rw [if_neg h, if_neg h]; simp

/-- A weight is zero or one. -/
theorem vR_01 (x1 : (⟨S64x30x17x2, .i32⟩ : BufTy).Contents (Elt Ideal)) (b : Fin 64) (p : Fin 30) (k : Fin 17) : vR x1 b p k = 0 ∨ vR x1 b p k = 1 := by
  unfold vR w32
  rw [dif_pos (show (top p).val < 30 from p.isLt)]
  by_cases h : 0 < (x1 (ix4 b ⟨(top p).val, p.isLt⟩ k (1 : Fin 2))).toInt
  · right; rw [if_pos h]
  · left; rw [if_neg h]

end Cert.ReferenceIdeal.RefValue

end
-- ==== Proof.RefLoss.lean ====
/-
  The reference's result read at an entry: per image the push loss, then the pull loss.
-/
import proofs.«426285_j17789754540200_2_alg».proof.Proof.RefRead
import proofs.«426285_j17789754540200_2_alg».proof.Proof.Data
import Idealize.ShloMosaic.PureOps.Ideal.Laws
import Idealize.ShloMosaic.Lib.Pipeline.Value
import Idealize.ShloMosaic.Lib.ValueLayout
import proofs.«426285_j17789754540200_2_alg».proof.Proof.RefPull
import proofs.«426285_j17789754540200_2_alg».proof.Proof.RefPush
import proofs.«426285_j17789754540200_2_alg».proof.Proof.RefGather

noncomputable section

namespace Cert.ReferenceIdeal.RefValue

open Cert.ReferenceIdeal Cert.ReferenceIdeal.Gen Cert.ReferenceIdeal.Read Idealize.ShloMosaic Idealize.ShloMosaic.ValueIdx AELoss

/-- Column 0 of the result at image `b` is the push stage at `b`. -/
theorem v76_col0 (x0 : (⟨S64x65536x8, .f32⟩ : BufTy).Contents (Elt Ideal)) (x1 : (⟨S64x30x17x2, .i32⟩ : BufTy).Contents (Elt Ideal))
    (b : Fin 64) :
    val_main_v76 (F := Ideal) x0 x1 (ix2 b (0 : Fin 2)) = val_main_v73 (F := Ideal) x0 x1 (ix1 b) := by
  unfold val_main_v76
  refine (concatenate_pair_apply_left _ _ _ concatenates_S64x1_S64x1_S64x2_d1 (ix2 b (0 : Fin 2)) rfl
    (ix2 b (0 : Fin 1)) (fun a => ?_)).trans ?_
  · match a with
    | ⟨0, _⟩ => rfl
    | ⟨1, _⟩ => rfl
  · rw [val_main_v74_apply]
    exact congrArg _ (funext fun a => match a with | ⟨0, _⟩ => rfl)

/-- Column 1 of the result at image `b` is the pull stage at `b`. -/
theorem v76_col1 (x0 : (⟨S64x65536x8, .f32⟩ : BufTy).Contents (Elt Ideal)) (x1 : (⟨S64x30x17x2, .i32⟩ : BufTy).Contents (Elt Ideal))
    (b : Fin 64) :
    val_main_v76 (F := Ideal) x0 x1 (ix2 b (1 : Fin 2)) = val_main_v37 (F := Ideal) x0 x1 (ix1 b) := by
  unfold val_main_v76
  refine (concatenate_pair_apply_right _ _ _ concatenates_S64x1_S64x1_S64x2_d1 (ix2 b (1 : Fin 2)) rfl rfl
    (ix2 b (0 : Fin 1)) (fun a ha => ?_) rfl).trans ?_
  · match a, ha with
    | ⟨0, _⟩, _ => rfl
    | ⟨1, _⟩, ha => exact absurd rfl ha
  · rw [val_main_v75_apply]
    exact congrArg _ (funext fun a => match a with | ⟨0, _⟩ => rfl)

theorem v76_at (x0 : (⟨S64x65536x8, .f32⟩ : BufTy).Contents (Elt Ideal)) (x1 : (⟨S64x30x17x2, .i32⟩ : BufTy).Contents (Elt Ideal))
    (tg : S64x65536x8.Idx → ℝ) (htg : ∀ j, x0 j = ((tg j : ℝ) : EReal))
    (hidx : ∀ (b : Fin 64) (p : Fin 30) (k : Fin 17), (x1 (ix4 b p k (0 : Fin 2))).toNat < 65536) :
    val_main_v76 (F := Ideal) x0 x1 = lossArr tg x1 := by
  funext i
  obtain ⟨b, q, rfl⟩ : ∃ (b : Fin 64) (q : Fin 2), i = ix2 b q := ⟨i 0, i 1, eq_ix2 i⟩
  have hg := v9_at x0 x1 tg htg hidx
  have hv := v6_at x1
  have hv01 := vR_01 x1
  match q with
  | ⟨0, _⟩ =>
    refine (v76_col0 x0 x1 b).trans ?_
    refine (v73_at x0 x1 (fun b => gR tg x1 b) (fun b => vR x1 b) hg hv hv01 b).trans ?_
    show _ = lossArr tg x1 (ix2 b (0 : Fin 2))
    unfold lossArr
    exact (if_pos rfl).symm
  | ⟨1, _⟩ =>
    refine (v76_col1 x0 x1 b).trans ?_
    refine (v37_at x0 x1 (fun b => gR tg x1 b) (fun b => vR x1 b) hg hv hv01 b).trans ?_
    show _ = lossArr tg x1 (ix2 b (1 : Fin 2))
    unfold lossArr
    exact (if_neg Nat.one_ne_zero).symm

end Cert.ReferenceIdeal.RefValue

end
-- ==== Proof.KernelPay.lean ====
/-
  The kernel body's arithmetic at one grid point as two pure functions of what it loads: the moment update (the tile's
  one-hot weight matrix times the tile's tags and squared tags, added to the carried moments) and the closing formula
  (pull and push from the moments).
-/
import proofs.«426285_j17789754540200_2_alg».proof.Proof.Gen.KernelIdeal.Skeleton

noncomputable section

namespace Cert.KernelIdeal.Pay

open Idealize.ShloMosaic Cert.KernelIdeal Cert.KernelIdeal.Gen

variable {F : FTy → Type} [FloatOps F]

/-- The one-hot weight matrix of the tile: entry `(p, c)` sums, over the 17 joints, the joint's weight where its pixel
    index is the tile's column `c`. -/
def wpay (i : grid0.Coords) (v7 : Vec F S1x32x17 .i32) (v9 : Vec F S1x32x17 .f32) : FVec F S32x8192 .f32 :=
  k0_pay27 (k0_pay16 v7) (k0_pay17 v9) (k0_pay18 i)
    (k0_pay24 (k0_pay16 v7) (k0_pay17 v9) (k0_pay18 i)
      (k0_pay21 (k0_pay16 v7) (k0_pay17 v9) (k0_pay18 i) (k0_pay19 i v7 v9) (k0_pay20 v7))
      (k0_pay22 (k0_pay17 v9)) (k0_pay23 (k0_pay16 v7) (k0_pay18 i)))
    (k0_pay25 (k0_pay16 v7)) (k0_pay26 (k0_pay17 v9))

/-- The moments after the point: the carried moments `v240` plus the tile's contribution. -/
def accpay (i : grid0.Coords) (v3 : Vec F S1x8192x8 .f32) (v7 : Vec F S1x32x17 .i32) (v9 : Vec F S1x32x17 .f32)
    (v240 : Vec F S32x16 .f32) : FVec F S32x16 .f32 :=
  k0_pay1 (k0_pay15 v3) (k0_pay16 v7) (k0_pay17 v9) (k0_pay18 i) (wpay i v7 v9) v240

/-- The block the last tile's point stores: push and pull from the weights `v9` and the moments `v248`. -/
def finalpay (v9 : Vec F S1x32x17 .f32) (v248 : Vec F S32x16 .f32) : FVec F S1x1x2 .f32 :=
  k0_pay2 (k0_pay8 (k0_pay17 v9)) (k0_pay9 (k0_pay17 v9) v248) (k0_pay10 (k0_pay17 v9) v248) k0_pay11
    (k0_pay12 (k0_pay17 v9)) k0_pay13

end Cert.KernelIdeal.Pay

end
-- ==== Proof.KernelPieces.lean ====
/-
  What each control case of the kernel body leaves behind, as the body's pure arithmetic of what it loaded: the carried
  moments after the point (all three cases) and, at an image's last tile, the stored output block.
-/
import proofs.«426285_j17789754540200_2_alg».proof.Proof.Gen.KernelIdeal.Frame
import proofs.«426285_j17789754540200_2_alg».proof.Proof.KernelPay
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen Cert.KernelIdeal.Pay

variable {F : FTy → Type} [FloatOps F]

/-- The zero offsets of a rank-2 and of a rank-3 whole-block access. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-- First tile of an image: the moments are reset to zero, then updated. -/
theorem sout_A (c : Dev nD) (i : grid0.Coords) (arg2 : Memref sig .tc .vmem S1x8192x8 .f32) (harg2 : arg2.IsWhole) (arg3 : Memref sig .tc .vmem S1x32x17 .i32) (harg3 : arg3.IsWhole) (arg4 : Memref sig .tc .vmem S1x32x17 .f32) (harg4 : arg4.IsWhole) (arg5 : Memref sig .tc .vmem S1x1x2 .f32) (harg5 : arg5.IsWhole) (arg6 : Memref sig .tc .vmem S32x16 .f32) (harg6 : arg6.IsWhole) (hc0 : cond0_0 i) (hc1 : ¬cond0_1 i)
    (x0 : Vec F S1x8192x8 .f32) (x1 : Vec F S1x32x17 .i32) (x2 : Vec F S1x32x17 .f32) :
    sout0_A_0 c i arg2 harg2 arg3 harg3 arg4 harg4 arg5 harg5 arg6 harg6 hc0 hc1 x0 x1 x2 = accpay i x0 x1 x2 (k0_pay14 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S32x16) hz2, View.readCov_unit_zero (S := S32x16) _ hz2]
  simp only [View.readAt_eq_ld, harg2.read_unread, harg3.read_unread, harg4.read_unread, harg5.read_unread, harg6.read_unread, View.ld_unit_zero (S := S1x8192x8) hz3, View.ld_unit_zero (S := S1x32x17) hz3, View.ld_unit_zero (S := S1x1x2) hz3, View.ld_unit_zero (S := S32x16) hz2, View.readCov_unit_zero (S := S32x16) _ hz2]
  unfold accpay wpay
  rfl

/-- A middle tile: the carried moments `xs0` are updated. -/
theorem sout_B (c : Dev nD) (i : grid0.Coords) (arg2 : Memref sig .tc .vmem S1x8192x8 .f32) (harg2 : arg2.IsWhole) (arg3 : Memref sig .tc .vmem S1x32x17 .i32) (harg3 : arg3.IsWhole) (arg4 : Memref sig .tc .vmem S1x32x17 .f32) (harg4 : arg4.IsWhole) (arg5 : Memref sig .tc .vmem S1x1x2 .f32) (harg5 : arg5.IsWhole) (arg6 : Memref sig .tc .vmem S32x16 .f32) (harg6 : arg6.IsWhole) (hc0 : ¬cond0_0 i) (hc1 : ¬cond0_1 i)
    (x0 : Vec F S1x8192x8 .f32) (x1 : Vec F S1x32x17 .i32) (x2 : Vec F S1x32x17 .f32) (xs0 : Vec F S32x16 .f32) :
    sout0_B_0 c i arg2 harg2 arg3 harg3 arg4 harg4 arg5 harg5 arg6 harg6 hc0 hc1 x0 x1 x2 xs0 = accpay i x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg4.read_unread, harg5.read_unread, harg6.read_unread, View.ld_unit_zero (S := S1x8192x8) hz3, View.ld_unit_zero (S := S1x32x17) hz3, View.ld_unit_zero (S := S1x1x2) hz3, View.ld_unit_zero (S := S32x16) hz2, View.readCov_unit_zero (S := S32x16) _ hz2]
  unfold accpay wpay
  rfl

/-- Last tile: the carried moments `xs0` are updated, -/
theorem sout_C (c : Dev nD) (i : grid0.Coords) (arg2 : Memref sig .tc .vmem S1x8192x8 .f32) (harg2 : arg2.IsWhole) (arg3 : Memref sig .tc .vmem S1x32x17 .i32) (harg3 : arg3.IsWhole) (arg4 : Memref sig .tc .vmem S1x32x17 .f32) (harg4 : arg4.IsWhole) (arg5 : Memref sig .tc .vmem S1x1x2 .f32) (harg5 : arg5.IsWhole) (arg6 : Memref sig .tc .vmem S32x16 .f32) (harg6 : arg6.IsWhole) (hc0 : ¬cond0_0 i) (hc1 : cond0_1 i)
    (x0 : Vec F S1x8192x8 .f32) (x1 : Vec F S1x32x17 .i32) (x2 : Vec F S1x32x17 .f32) (xs0 : Vec F S32x16 .f32) :
    sout0_C_0 c i arg2 harg2 arg3 harg3 arg4 harg4 arg5 harg5 arg6 harg6 hc0 hc1 x0 x1 x2 xs0 = accpay i x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg5.read_unread, harg6.read_unread, View.ld_unit_zero (S := S1x8192x8) hz3, View.ld_unit_zero (S := S1x32x17) hz3, View.ld_unit_zero (S := S1x1x2) hz3, View.ld_unit_zero (S := S32x16) hz2, View.readCov_unit_zero (S := S32x16) _ hz2]
  unfold accpay wpay
  rfl

/-- and the output block is the closing formula of the updated moments. -/
theorem out_C (c : Dev nD) (i : grid0.Coords) (arg2 : Memref sig .tc .vmem S1x8192x8 .f32) (harg2 : arg2.IsWhole) (arg3 : Memref sig .tc .vmem S1x32x17 .i32) (harg3 : arg3.IsWhole) (arg4 : Memref sig .tc .vmem S1x32x17 .f32) (harg4 : arg4.IsWhole) (arg5 : Memref sig .tc .vmem S1x1x2 .f32) (harg5 : arg5.IsWhole) (arg6 : Memref sig .tc .vmem S32x16 .f32) (harg6 : arg6.IsWhole) (hc0 : ¬cond0_0 i) (hc1 : cond0_1 i)
    (x0 : Vec F S1x8192x8 .f32) (x1 : Vec F S1x32x17 .i32) (x2 : Vec F S1x32x17 .f32) (xs0 : Vec F S32x16 .f32) :
    out0_C_3 c i arg2 harg2 arg3 harg3 arg4 harg4 arg5 harg5 arg6 harg6 hc0 hc1 x0 x1 x2 xs0 = finalpay x2 (accpay i x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3]
  simp only [View.readAt_eq_ld, harg2.read_unread, harg3.read_unread, harg4.read_unread, harg5.read_unread, harg6.read_unread, View.ld_unit_zero (S := S1x8192x8) hz3, View.ld_unit_zero (S := S1x32x17) hz3, View.ld_unit_zero (S := S1x1x2) hz3, View.ld_unit_zero (S := S32x16) hz2, View.readCov_unit_zero (S := S32x16) _ hz2]
  unfold finalpay accpay wpay
  rfl

end Cert.KernelIdeal.Pieces

end
-- ==== Proof.KernelStep.lean ====
/-
  The moment update of the kernel body read at an entry: from a real tile of tags, the joints' index words, real weights
  and real carried moments, entry (p, j) is the carried moment plus, summed over the joints whose index lies in the tile, the
  joint's weight times that row's tag (j < 8) or squared tag (j ≥ 8).
-/
import proofs.«426285_j17789754540200_2_alg».proof.Proof.KernelPay
import proofs.«426285_j17789754540200_2_alg».proof.Proof.Spec
import Idealize.ShloMosaic.PureOps.Ideal.Laws
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen AELoss

/-- The reset stores zeros. -/
theorem pay14_apply (p : Fin 32) (j : Fin 16) : (k0_pay14 (F := Ideal)) (ix2 p j) = ((0 : ℝ) : EReal) := by
  show shapeCast S32x16 (broadcast S32x16 (Scalar.ofBits (F := Ideal) .f32 0x00000000#32)) Facts₀.shapeCasts_S32x16_S32x16 (ix2 p j) = _
  rw [shapeCast_self, broadcast_apply]
  show Ideal.ofBits .f32 0x00000000#32 = _
  rw [Ideal.ofBits_zero_f32, EReal.coe_zero]

/-! ## One column of a `[32, 17]` array spread over the tile's columns -/

/-- Column `o` of a `[32, 17]` array, cut out as `[32, 1]`, cast to `[32]` and back and broadcast to `[32, 8192]`, reads at
    `(p, c)` the array's entry `(p, o)`. -/
theorem col_apply {α : Type} (o : ℕ) (x : S32x17.Idx → α) (h : S32x17.Slices ![0, o] S32x1)
    (h1 : S32x1.ShapeCasts S32) (h2 : S32.ShapeCasts S32x1) (hb : S32x1.Broadcasts S32x8192)
    (p : Fin 32) (c : Fin 8192) (k : Fin 17) (hk : k.val = o) :
    broadcastTo S32x8192 (shapeCast S32x1 (shapeCast S32 (extractStridedSlice S32x1 ![0, o] x h) h1) h2) hb (ix2 p c)
      = x (ix2 p k) := by
  rw [shapeCast_shapeCast]
  refine (broadcastTo_apply _ hb (ix2 p c) (ix2 p (0 : Fin 1)) ?_).trans ?_
  · intro a
    match a with
    | ⟨0, _⟩ => rfl
    | ⟨1, _⟩ => rfl
  · exact slice2_axis1_apply o x h p (0 : Fin 1) k (by rw [hk]; rfl)

/-- The word of an equality test, widened and converted to a float: one where the two words agree, else zero. -/
theorem ind_apply (a b : BitVec 32) :
    FloatOps.sitofp (F := Ideal) .f32 ((IntOp.cmpi .eq a b).setWidth 32) = (((if a = b then 1 else 0 : ℝ)) : EReal) := by
  show (((((BitVec.ofBool (a == b)).setWidth 32).toInt : ℝ)) : EReal) = _
  by_cases h : a = b
  · have hb : (a == b) = true := by simpa using h
    have h1 : ((BitVec.ofBool true).setWidth 32).toInt = 1 := by decide
    rw [hb, if_pos h, h1]; norm_num
  · have hb : (a == b) = false := by simpa using h
    have h0 : ((BitVec.ofBool false).setWidth 32).toInt = 0 := by decide
    rw [hb, if_neg h, h0]; norm_num

/-! ## One joint's step of the weight matrix -/

/-- The step for the joint in column `o`: to `prev` is added, entry by entry, the joint's weight where the tile's column
    word is the joint's index word. -/
def jstep (v8 : IVec S32x17 32) (v10 : FVec Ideal S32x17 .f32) (v14 : IVec S32x8192 32) (o : ℕ)
    (h : S32x17.Slices ![0, o] S32x1) (prev : FVec Ideal S32x8192 .f32) : FVec Ideal S32x8192 .f32 :=
  addf prev (mulf
    (sitofp .f32 (extui 32 (cmpi .eq v14 (broadcastTo S32x8192 (shapeCast S32x1 (shapeCast S32
      (extractStridedSlice S32x1 ![0, o] v8 h) Facts₀.shapeCasts_S32x1_S32) Facts₀.shapeCasts_S32_S32x1)
      Facts₀.broadcasts_S32x1_S32x8192)) Facts₀.natLt_1_32))
    (broadcastTo S32x8192 (shapeCast S32x1 (shapeCast S32
      (extractStridedSlice S32x1 ![0, o] v10 h) Facts₀.shapeCasts_S32x1_S32) Facts₀.shapeCasts_S32_S32x1)
      Facts₀.broadcasts_S32x1_S32x8192))

/-- The step read at `(p, c)`. -/
theorem jstep_apply (v8 : IVec S32x17 32) (v10 : FVec Ideal S32x17 .f32) (v14 : IVec S32x8192 32) (o : ℕ)
    (h : S32x17.Slices ![0, o] S32x1) (prev : FVec Ideal S32x8192 .f32) (p : Fin 32) (c : Fin 8192) (k : Fin 17) (hk : k.val = o) :
    jstep v8 v10 v14 o h prev (ix2 p c)
      = prev (ix2 p c) + (((if v14 (ix2 p c) = v8 (ix2 p k) then 1 else 0 : ℝ)) : EReal) * v10 (ix2 p k) := by
  unfold jstep
  rw [addf_apply, mulf_apply, sitofp_apply, extui_apply, col_apply o v10 h _ _ _ p c k hk]
  show prev (ix2 p c) + FloatOps.sitofp (F := Ideal) .f32 ((IntOp.cmpi .eq (v14 (ix2 p c)) (broadcastTo S32x8192 (shapeCast S32x1 (shapeCast S32
      (extractStridedSlice S32x1 ![0, o] v8 h) Facts₀.shapeCasts_S32x1_S32) Facts₀.shapeCasts_S32_S32x1)
      Facts₀.broadcasts_S32x1_S32x8192 (ix2 p c))).setWidth 32) * _ = _
  rw [col_apply o v8 h _ _ _ p c k hk, ind_apply]

/-- The weight matrix of the tile is sixteen steps from zero. -/
theorem wpay_eq (i : grid0.Coords) (v7 : Vec Ideal S1x32x17 .i32) (v9 : Vec Ideal S1x32x17 .f32) :
    wpay (F := Ideal) i v7 v9 =
      jstep (k0_pay16 v7) (k0_pay17 v9) (k0_pay18 i) 15 Facts₀.slices_S32x17_o0_15_S32x1 (
      jstep (k0_pay16 v7) (k0_pay17 v9) (k0_pay18 i) 14 Facts₀.slices_S32x17_o0_14_S32x1 (
      jstep (k0_pay16 v7) (k0_pay17 v9) (k0_pay18 i) 13 Facts₀.slices_S32x17_o0_13_S32x1 (
      jstep (k0_pay16 v7) (k0_pay17 v9) (k0_pay18 i) 12 Facts₀.slices_S32x17_o0_12_S32x1 (
      jstep (k0_pay16 v7) (k0_pay17 v9) (k0_pay18 i) 11 Facts₀.slices_S32x17_o0_11_S32x1 (
      jstep (k0_pay16 v7) (k0_pay17 v9) (k0_pay18 i) 10 Facts₀.slices_S32x17_o0_10_S32x1 (
      jstep (k0_pay16 v7) (k0_pay17 v9) (k0_pay18 i) 9 Facts₀.slices_S32x17_o0_9_S32x1 (
      jstep (k0_pay16 v7) (k0_pay17 v9) (k0_pay18 i) 8 Facts₀.slices_S32x17_o0_8_S32x1 (
      jstep (k0_pay16 v7) (k0_pay17 v9) (k0_pay18 i) 7 Facts₀.slices_S32x17_o0_7_S32x1 (
      jstep (k0_pay16 v7) (k0_pay17 v9) (k0_pay18 i) 6 Facts₀.slices_S32x17_o0_6_S32x1 (
      jstep (k0_pay16 v7) (k0_pay17 v9) (k0_pay18 i) 5 Facts₀.slices_S32x17_o0_5_S32x1 (
      jstep (k0_pay16 v7) (k0_pay17 v9) (k0_pay18 i) 4 Facts₀.slices_S32x17_o0_4_S32x1 (
      jstep (k0_pay16 v7) (k0_pay17 v9) (k0_pay18 i) 3 Facts₀.slices_S32x17_o0_3_S32x1 (
      jstep (k0_pay16 v7) (k0_pay17 v9) (k0_pay18 i) 2 Facts₀.slices_S32x17_o0_2_S32x1 (
      jstep (k0_pay16 v7) (k0_pay17 v9) (k0_pay18 i) 1 Facts₀.slices_S32x17_o0_1_S32x1 (
      jstep (k0_pay16 v7) (k0_pay17 v9) (k0_pay18 i) 0 Facts₀.slices_S32x17_o0_0_S32x1 (
      broadcast S32x8192 (Scalar.ofBits (F := Ideal) .f32 0x00000000#32))))))))))))))))) := rfl

/-! ## What the steps read -/

/-- The tile's column word at `(p, c)`: the column plus 8192 times the tile's number. -/
theorem pay18_apply (i : grid0.Coords) (nt : ℕ) (hcoord : (i 1).val = nt) (hnt : nt < 8) (p : Fin 32) (c : Fin 8192) :
    k0_pay18 i (ix2 p c) = BitVec.ofNat 32 (c.val + 8192 * nt) := by
  show IntOp.addi (iota .tc S32x8192 32 [1] Facts₀.iota_S32x8192_d1_w32 (ix2 p c))
      (Scalar.muli (BitVec.ofNat 32 (i 1).val) 8192#32) = _
  rw [iota_single_apply, hcoord]
  show BitVec.ofNat 32 c.val + BitVec.ofNat 32 nt * 8192#32 = _
  apply BitVec.eq_of_toNat_eq
  have hc := c.isLt
  simp only [BitVec.toNat_add, BitVec.toNat_mul, BitVec.toNat_ofNat]
  omega

/-- The column word is a joint's index word exactly when the index is that row of the image. -/
theorem word_eq_iff (c nt : ℕ) (hc : c < 8192) (hnt : nt < 8) (a : BitVec 32) :
    BitVec.ofNat 32 (c + 8192 * nt) = a ↔ a.toNat = c + 8192 * nt := by
  constructor
  · intro h
    rw [← h, BitVec.toNat_ofNat]
    omega
  · intro h
    apply BitVec.eq_of_toNat_eq
    rw [BitVec.toNat_ofNat, h]
    omega

/-- The index words and the weights with their unit axis dropped. -/
theorem pay16_apply (v7 : Vec Ideal S1x32x17 .i32) (p : Fin 32) (k : Fin 17) :
    k0_pay16 v7 (ix2 p k) = v7 (ix3 (0 : Fin 1) p k) :=
  shapeCast_1ab_ab_apply _ _ p k
theorem pay17_apply (v9 : Vec Ideal S1x32x17 .f32) (p : Fin 32) (k : Fin 17) :
    k0_pay17 v9 (ix2 p k) = v9 (ix3 (0 : Fin 1) p k) :=
  shapeCast_1ab_ab_apply _ _ p k

/-- The tile's tags beside their squares: column `t` the tag, column `t + 8` its square. -/
theorem pay15_lo (v3 : Vec Ideal S1x8192x8 .f32) (c : Fin 8192) (t : Fin 8) :
    k0_pay15 v3 (ix2 c (lo t)) = v3 (ix3 (0 : Fin 1) c t) := by
  show concatenate S8192x16 1 [⟨S8192x8, shapeCast S8192x8 v3 Facts₀.shapeCasts_S1x8192x8_S8192x8⟩,
      ⟨S8192x8, mulf (F := Ideal) (shapeCast S8192x8 v3 Facts₀.shapeCasts_S1x8192x8_S8192x8) (shapeCast S8192x8 v3 Facts₀.shapeCasts_S1x8192x8_S8192x8)⟩]
      Facts₀.concatenates_S8192x8_S8192x8_S8192x16_d1 (ix2 c (lo t)) = _
  refine (concatenate_pair_apply_left (t := S8192x16) (s₁ := S8192x8) (s₂ := S8192x8) (1 : Fin S8192x16.rank) _ _ _ (ix2 c (lo t)) rfl (ix2 c t) ?_).trans ?_
  · intro b
    match b with
    | ⟨0, _⟩ => rfl
    | ⟨1, _⟩ => rfl
  · exact shapeCast_1ab_ab_apply _ _ c t
theorem pay15_hi (v3 : Vec Ideal S1x8192x8 .f32) (c : Fin 8192) (t : Fin 8) :
    k0_pay15 v3 (ix2 c (hi t)) = v3 (ix3 (0 : Fin 1) c t) * v3 (ix3 (0 : Fin 1) c t) := by
  show concatenate S8192x16 1 [⟨S8192x8, shapeCast S8192x8 v3 Facts₀.shapeCasts_S1x8192x8_S8192x8⟩,
      ⟨S8192x8, mulf (F := Ideal) (shapeCast S8192x8 v3 Facts₀.shapeCasts_S1x8192x8_S8192x8) (shapeCast S8192x8 v3 Facts₀.shapeCasts_S1x8192x8_S8192x8)⟩]
      Facts₀.concatenates_S8192x8_S8192x8_S8192x16_d1 (ix2 c (hi t)) = _
  refine (concatenate_pair_apply_right (t := S8192x16) (s₁ := S8192x8) (s₂ := S8192x8) (1 : Fin S8192x16.rank) _ _ _ (ix2 c (hi t)) rfl rfl (ix2 c t) ?_ ?_).trans ?_
  · intro b hb
    match b with
    | ⟨0, _⟩ => rfl
    | ⟨1, _⟩ => exact absurd rfl hb
  · rfl
  · rw [mulf_apply, shapeCast_1ab_ab_apply _ _ c t]

/-! ## The matrix product over the tile's columns -/

/-- The product's operand indices at an output index and a contraction index, axis by axis. -/
theorem lhs_S32x16_0 (i : S32x16.Idx) (q : dot_S32x8192_S8192x16_S32x16_1_0_0_1_n_n.contr.Idx) :
    (dot_S32x8192_S8192x16_S32x16_1_0_0_1_n_n.lhsIdx i q 0).val = (i 0).val := by
  unfold DotDims.lhsIdx
  rw [dif_neg (show ¬(0 : Fin S32x8192.rank) ∈ dot_S32x8192_S8192x16_S32x16_1_0_0_1_n_n.lhsBatch by decide),
    dif_pos (show (0 : Fin S32x8192.rank) ∈ dot_S32x8192_S8192x16_S32x16_1_0_0_1_n_n.lhsNonContracting by decide)]
  rfl
theorem lhs_S32x16_1 (i : S32x16.Idx) (q : dot_S32x8192_S8192x16_S32x16_1_0_0_1_n_n.contr.Idx) :
    (dot_S32x8192_S8192x16_S32x16_1_0_0_1_n_n.lhsIdx i q 1).val = (q ⟨0, by decide⟩).val :=
  dot_S32x8192_S8192x16_S32x16_1_0_0_1_n_n.lhsIdx_val_of_single rfl i q
theorem rhs_S32x16_0 (i : S32x16.Idx) (q : dot_S32x8192_S8192x16_S32x16_1_0_0_1_n_n.contr.Idx) :
    (dot_S32x8192_S8192x16_S32x16_1_0_0_1_n_n.rhsIdx i q 0).val = (q ⟨0, by decide⟩).val :=
  dot_S32x8192_S8192x16_S32x16_1_0_0_1_n_n.rhsIdx_val_of_single rfl i q
theorem rhs_S32x16_1 (i : S32x16.Idx) (q : dot_S32x8192_S8192x16_S32x16_1_0_0_1_n_n.contr.Idx) :
    (dot_S32x8192_S8192x16_S32x16_1_0_0_1_n_n.rhsIdx i q 1).val = (i 1).val := by
  unfold DotDims.rhsIdx
  rw [dif_neg (show ¬(1 : Fin S8192x16.rank) ∈ dot_S32x8192_S8192x16_S32x16_1_0_0_1_n_n.rhsBatch by decide),
    dif_pos (show (1 : Fin S8192x16.rank) ∈ dot_S32x8192_S8192x16_S32x16_1_0_0_1_n_n.rhsNonContracting by decide)]
  rfl

/-- The product into a zero accumulator, read at `(p, j)`: the sum over the tile's columns. -/
theorem mm_apply (Lm : FVec Ideal S32x8192 .bf16) (Rm : FVec Ideal S8192x16 .bf16) (p : Fin 32) (j : Fin 16) :
    matmul dot_S32x8192_S8192x16_S32x16_1_0_0_1_n_n none Lm Rm (constant (F := Ideal) S32x16 .f32 0x00000000#32) (ix2 p j)
      = ∑ c : Fin 8192, Lm (ix2 p c) * Rm (ix2 c j) := by
  simp only [matmul]
  rw [Ideal.matmul_constant_zero_apply,
    ← Equiv.sum_comp (contrEquiv1 dot_S32x8192_S8192x16_S32x16_1_0_0_1_n_n 8192 rfl rfl).symm]
  refine Finset.sum_congr rfl fun k _ => ?_
  have hk := contrEquiv1_symm_val dot_S32x8192_S8192x16_S32x16_1_0_0_1_n_n 8192 rfl rfl k
  have el : dot_S32x8192_S8192x16_S32x16_1_0_0_1_n_n.lhsIdx (ix2 p j)
      ((contrEquiv1 dot_S32x8192_S8192x16_S32x16_1_0_0_1_n_n 8192 rfl rfl).symm k) = ix2 p k := funext fun a => Fin.ext (by
    match a with
    | ⟨0, _⟩ => exact lhs_S32x16_0 _ _
    | ⟨1, _⟩ => exact (lhs_S32x16_1 _ _).trans hk)
  have er : dot_S32x8192_S8192x16_S32x16_1_0_0_1_n_n.rhsIdx (ix2 p j)
      ((contrEquiv1 dot_S32x8192_S8192x16_S32x16_1_0_0_1_n_n 8192 rfl rfl).symm k) = ix2 k j := funext fun a => Fin.ext (by
    match a with
    | ⟨0, _⟩ => exact (rhs_S32x16_0 _ _).trans hk
    | ⟨1, _⟩ => exact rhs_S32x16_1 _ _)
  rw [el, er]

/-- The whole weight matrix: the sixteen steps and the last joint's. -/
def wfull (i : grid0.Coords) (v7 : Vec Ideal S1x32x17 .i32) (v9 : Vec Ideal S1x32x17 .f32) : FVec Ideal S32x8192 .f32 :=
  jstep (k0_pay16 v7) (k0_pay17 v9) (k0_pay18 i) 16 Facts₀.slices_S32x17_o0_16_S32x1 (wpay i v7 v9)

/-- The updated moments at `(p, j)`: the carried moment plus the sum over the tile's columns of weight times tag. -/
theorem accpay_sum (i : grid0.Coords) (v3 : Vec Ideal S1x8192x8 .f32) (v7 : Vec Ideal S1x32x17 .i32)
    (v9 : Vec Ideal S1x32x17 .f32) (v240 : Vec Ideal S32x16 .f32) (p : Fin 32) (j : Fin 16) :
    accpay (F := Ideal) i v3 v7 v9 v240 (ix2 p j)
      = v240 (ix2 p j) + ∑ c : Fin 8192, wfull i v7 v9 (ix2 p c) * k0_pay15 v3 (ix2 c j) := by
  show shapeCast S32x16 (addf (F := Ideal) v240 (matmul dot_S32x8192_S8192x16_S32x16_1_0_0_1_n_n none
      (truncf .bf16 (wfull i v7 v9) Facts₀.bitsLt_bf16_f32) (truncf .bf16 (k0_pay15 v3) Facts₀.bitsLt_bf16_f32)
      (constant (F := Ideal) S32x16 .f32 0x00000000#32))) Facts₀.shapeCasts_S32x16_S32x16 (ix2 p j) = _
  rw [shapeCast_self, addf_apply, mm_apply]
  rfl

/-! ## The weight matrix at an entry, as a real number -/

/-- The terms of a row's first `n` joints at the column word `a`. -/
def rowPart (iwp : Fin 17 → BitVec 32) (wp : Fin 17 → ℝ) (a : BitVec 32) (n : ℕ) : ℝ :=
  ∑ k ∈ Finset.range n, if h : k < 17 then (if a = iwp ⟨k, h⟩ then 1 else 0) * wp ⟨k, h⟩ else 0

theorem rowPart_succ (iwp : Fin 17 → BitVec 32) (wp : Fin 17 → ℝ) (a : BitVec 32) (o : ℕ) (k : Fin 17) (hk : k.val = o) :
    rowPart iwp wp a (o + 1) = rowPart iwp wp a o + (if a = iwp k then 1 else 0) * wp k := by
  subst hk
  unfold rowPart
  rw [Finset.sum_range_succ, dif_pos k.isLt]

theorem rowPart_all (iwp : Fin 17 → BitVec 32) (wp : Fin 17 → ℝ) (a : BitVec 32) :
    rowPart iwp wp a 17 = ∑ k : Fin 17, (if a = iwp k then 1 else 0) * wp k := by
  unfold rowPart
  rw [Finset.sum_range]
  refine Finset.sum_congr rfl fun k _ => ?_
  rw [dif_pos k.isLt]

/-- A step takes the first `o` joints' terms to the first `o + 1`. -/
theorem jstep_coe (v8 : IVec S32x17 32) (v10 : FVec Ideal S32x17 .f32) (v14 : IVec S32x8192 32) (o : ℕ)
    (h : S32x17.Slices ![0, o] S32x1) (prev : FVec Ideal S32x8192 .f32) (p : Fin 32) (c : Fin 8192) (k : Fin 17) (hk : k.val = o)
    (iw : Fin 32 → Fin 17 → BitVec 32) (w : Fin 32 → Fin 17 → ℝ)
    (h8 : ∀ (p : Fin 32) (k : Fin 17), v8 (ix2 p k) = iw p k)
    (h10 : ∀ (p : Fin 32) (k : Fin 17), v10 (ix2 p k) = ((w p k : ℝ) : EReal))
    (hprev : prev (ix2 p c) = ((rowPart (iw p) (w p) (v14 (ix2 p c)) o : ℝ) : EReal)) :
    jstep v8 v10 v14 o h prev (ix2 p c) = ((rowPart (iw p) (w p) (v14 (ix2 p c)) (o + 1) : ℝ) : EReal) := by
  rw [jstep_apply v8 v10 v14 o h prev p c k hk, hprev, h8, h10, rowPart_succ _ _ _ o k hk, EReal.coe_add, EReal.coe_mul]

/-- The weight matrix at `(p, c)`: the sum over the joints of the joint's weight where the column word is its index word. -/
theorem wfull_apply (i : grid0.Coords) (v7 : Vec Ideal S1x32x17 .i32) (v9 : Vec Ideal S1x32x17 .f32)
    (iw : Fin 32 → Fin 17 → BitVec 32) (w : Fin 32 → Fin 17 → ℝ)
    (hv7 : ∀ (p : Fin 32) (k : Fin 17), v7 (ix3 (0 : Fin 1) p k) = iw p k)
    (hv9 : ∀ (p : Fin 32) (k : Fin 17), v9 (ix3 (0 : Fin 1) p k) = ((w p k : ℝ) : EReal))
    (p : Fin 32) (c : Fin 8192) :
    wfull i v7 v9 (ix2 p c)
      = ((∑ k : Fin 17, (if k0_pay18 i (ix2 p c) = iw p k then 1 else 0) * w p k : ℝ) : EReal) := by
  have h8 : ∀ (p : Fin 32) (k : Fin 17), k0_pay16 v7 (ix2 p k) = iw p k := fun p k => (pay16_apply v7 p k).trans (hv7 p k)
  have h10 : ∀ (p : Fin 32) (k : Fin 17), k0_pay17 v9 (ix2 p k) = ((w p k : ℝ) : EReal) :=
    fun p k => (pay17_apply v9 p k).trans (hv9 p k)
  have e0 : (broadcast S32x8192 (Scalar.ofBits (F := Ideal) .f32 0x00000000#32)) (ix2 p c)
      = ((rowPart (iw p) (w p) (k0_pay18 i (ix2 p c)) 0 : ℝ) : EReal) := by
    rw [broadcast_apply]
    show Ideal.ofBits .f32 0x00000000#32 = _
    rw [Ideal.ofBits_zero_f32]
    simp [rowPart]
  have e1 := jstep_coe _ _ _ 0 Facts₀.slices_S32x17_o0_0_S32x1 _ p c 0 rfl iw w h8 h10 e0
  have e2 := jstep_coe _ _ _ 1 Facts₀.slices_S32x17_o0_1_S32x1 _ p c 1 rfl iw w h8 h10 e1
  have e3 := jstep_coe _ _ _ 2 Facts₀.slices_S32x17_o0_2_S32x1 _ p c 2 rfl iw w h8 h10 e2
  have e4 := jstep_coe _ _ _ 3 Facts₀.slices_S32x17_o0_3_S32x1 _ p c 3 rfl iw w h8 h10 e3
  have e5 := jstep_coe _ _ _ 4 Facts₀.slices_S32x17_o0_4_S32x1 _ p c 4 rfl iw w h8 h10 e4
  have e6 := jstep_coe _ _ _ 5 Facts₀.slices_S32x17_o0_5_S32x1 _ p c 5 rfl iw w h8 h10 e5
  have e7 := jstep_coe _ _ _ 6 Facts₀.slices_S32x17_o0_6_S32x1 _ p c 6 rfl iw w h8 h10 e6
  have e8 := jstep_coe _ _ _ 7 Facts₀.slices_S32x17_o0_7_S32x1 _ p c 7 rfl iw w h8 h10 e7
  have e9 := jstep_coe _ _ _ 8 Facts₀.slices_S32x17_o0_8_S32x1 _ p c 8 rfl iw w h8 h10 e8
  have e10 := jstep_coe _ _ _ 9 Facts₀.slices_S32x17_o0_9_S32x1 _ p c 9 rfl iw w h8 h10 e9
  have e11 := jstep_coe _ _ _ 10 Facts₀.slices_S32x17_o0_10_S32x1 _ p c 10 rfl iw w h8 h10 e10
  have e12 := jstep_coe _ _ _ 11 Facts₀.slices_S32x17_o0_11_S32x1 _ p c 11 rfl iw w h8 h10 e11
  have e13 := jstep_coe _ _ _ 12 Facts₀.slices_S32x17_o0_12_S32x1 _ p c 12 rfl iw w h8 h10 e12
  have e14 := jstep_coe _ _ _ 13 Facts₀.slices_S32x17_o0_13_S32x1 _ p c 13 rfl iw w h8 h10 e13
  have e15 := jstep_coe _ _ _ 14 Facts₀.slices_S32x17_o0_14_S32x1 _ p c 14 rfl iw w h8 h10 e14
  have e16 := jstep_coe _ _ _ 15 Facts₀.slices_S32x17_o0_15_S32x1 _ p c 15 rfl iw w h8 h10 e15
  have e17 := jstep_coe _ _ _ 16 Facts₀.slices_S32x17_o0_16_S32x1 _ p c 16 rfl iw w h8 h10 e16
  rw [← rowPart_all]
  unfold wfull
  rw [wpay_eq]
  exact e17

/-! ## The sum over the tile's columns, over the reals -/

/-- A finite sum of reals, coerced, is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the tile's columns, the indicator of "row `n` is this column's row" picks row `n`'s entry when the row is in the tile,
    and nothing otherwise. -/
theorem band_sum (Y : Fin 65536 → Fin 8 → ℝ) (nt : ℕ) (hnt : nt < 8) (n : ℕ) (t : Fin 8) :
    ∑ c : Fin 8192, (if n = c.val + 8192 * nt then (1 : ℝ) else 0) * Y ⟨8192 * nt + c.val, by have := c.isLt; omega⟩ t
      = bandTerm Y n (8192 * nt) (8192 * (nt + 1)) t := by
  unfold bandTerm
  by_cases hb : 8192 * nt ≤ n ∧ n < 8192 * (nt + 1)
  · have hn : n < 65536 := by omega
    have hc0 : n - 8192 * nt < 8192 := by omega
    rw [dif_pos hn, if_pos hb, Finset.sum_eq_single (⟨n - 8192 * nt, hc0⟩ : Fin 8192)]
    · rw [if_pos (show n = n - 8192 * nt + 8192 * nt by omega), one_mul]
      congr 2
      show 8192 * nt + (n - 8192 * nt) = n
      omega
    · intro c _ hc
      rw [if_neg, zero_mul]
      intro h
      apply hc
      apply Fin.ext
      show c.val = n - 8192 * nt
      omega
    · intro h
      exact absurd (Finset.mem_univ _) h
  · have hne : ∀ c : Fin 8192, ¬ n = c.val + 8192 * nt := by
      intro c h
      have := c.isLt
      apply hb
      omega
    rw [Finset.sum_eq_zero (fun c _ => by rw [if_neg (hne c), zero_mul])]
    by_cases hn : n < 65536
    · rw [dif_pos hn, if_neg hb]
    · rw [dif_neg hn]

/-- The tile's contribution to a row's moment: the weights gather the joints' rows that lie in the tile. -/
theorem tile_sum (Y : Fin 65536 → Fin 8 → ℝ) (nt : ℕ) (hnt : nt < 8) (iwp : Fin 17 → BitVec 32) (wp : Fin 17 → ℝ) (t : Fin 8) :
    ∑ c : Fin 8192, (∑ k : Fin 17, (if (iwp k).toNat = c.val + 8192 * nt then (1 : ℝ) else 0) * wp k)
        * Y ⟨8192 * nt + c.val, by have := c.isLt; omega⟩ t
      = ∑ k : Fin 17, wp k * bandTerm Y (iwp k).toNat (8192 * nt) (8192 * (nt + 1)) t := by
  simp_rw [Finset.sum_mul]
  rw [Finset.sum_comm]
  refine Finset.sum_congr rfl fun k _ => ?_
  rw [← band_sum Y nt hnt (iwp k).toNat t, Finset.mul_sum]
  refine Finset.sum_congr rfl fun c _ => ?_
  ring

theorem accpay_apply (i : grid0.Coords) (nt : ℕ) (hcoord : (i 1).val = nt) (hnt : nt < 8)
    (X : Fin 65536 → Fin 8 → ℝ) (iw : Fin 32 → Fin 17 → BitVec 32) (w : Fin 32 → Fin 17 → ℝ) (A : Fin 32 → Fin 16 → ℝ)
    (v3 : Vec Ideal S1x8192x8 .f32) (v7 : Vec Ideal S1x32x17 .i32) (v9 : Vec Ideal S1x32x17 .f32) (v240 : Vec Ideal S32x16 .f32)
    (hv3 : ∀ (c : Fin 8192) (t : Fin 8), v3 (ix3 (0 : Fin 1) c t) = ((X ⟨8192 * nt + c.val, by have := c.isLt; omega⟩ t : ℝ) : EReal))
    (hv7 : ∀ (p : Fin 32) (k : Fin 17), v7 (ix3 (0 : Fin 1) p k) = iw p k)
    (hv9 : ∀ (p : Fin 32) (k : Fin 17), v9 (ix3 (0 : Fin 1) p k) = ((w p k : ℝ) : EReal))
    (hv240 : ∀ (p : Fin 32) (j : Fin 16), v240 (ix2 p j) = ((A p j : ℝ) : EReal))
    (p : Fin 32) (t : Fin 8) :
    accpay (F := Ideal) i v3 v7 v9 v240 (ix2 p (lo t))
        = ((A p (lo t) + ∑ k, w p k * bandTerm X (iw p k).toNat (8192 * nt) (8192 * (nt + 1)) t : ℝ) : EReal)
    ∧ accpay (F := Ideal) i v3 v7 v9 v240 (ix2 p (hi t))
        = ((A p (hi t) + ∑ k, w p k * bandTerm (sqr X) (iw p k).toNat (8192 * nt) (8192 * (nt + 1)) t : ℝ) : EReal) := by
  have hW : ∀ c : Fin 8192, wfull i v7 v9 (ix2 p c)
      = ((∑ k : Fin 17, (if (iw p k).toNat = c.val + 8192 * nt then (1 : ℝ) else 0) * w p k : ℝ) : EReal) := by
    intro c
    rw [wfull_apply i v7 v9 iw w hv7 hv9 p c, pay18_apply i nt hcoord hnt p c]
    congr 1
    refine Finset.sum_congr rfl fun k _ => ?_
    congr 1
    exact if_congr (word_eq_iff c.val nt c.isLt hnt (iw p k)) rfl rfl
  constructor
  · rw [accpay_sum, hv240, ← tile_sum X nt hnt (iw p) (w p) t, EReal.coe_add, coe_sum]
    refine congrArg (fun z : EReal => ((A p (lo t) : ℝ) : EReal) + z) ?_
    refine Finset.sum_congr rfl fun c _ => ?_
    rw [hW c, pay15_lo, hv3, EReal.coe_mul]
  · rw [accpay_sum, hv240, ← tile_sum (sqr X) nt hnt (iw p) (w p) t, EReal.coe_add, coe_sum]
    refine congrArg (fun z : EReal => ((A p (hi t) : ℝ) : EReal) + z) ?_
    refine Finset.sum_congr rfl fun c _ => ?_
    rw [hW c, pay15_hi, hv3, EReal.coe_mul]
    unfold sqr
    rw [EReal.coe_mul]

end Cert.KernelIdeal.Pay

end
-- ==== Proof.KernelFinal.lean ====
/-
  The closing formula of the kernel body read at its two entries: from real weights and real moments it is the push loss
  and the pull loss in the moment arrangement.
-/
import proofs.«426285_j17789754540200_2_alg».proof.Proof.KernelPay
import proofs.«426285_j17789754540200_2_alg».proof.Proof.Spec
import Idealize.ShloMosaic.PureOps.Ideal.Laws
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen

namespace Final

/-! ## Layout operations at an index given by coordinates -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Sums along one axis, at the extended reals -/

/-- The sum over the columns of an `[a, b]` array, read at row `i`. -/
theorem sumCols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => rfl
  | ⟨1, _⟩ => rfl

/-- The sum over the rows of an `[a, 1]` column. -/
theorem sumRows_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec 32) = FKind.add.neutral .f32 hφ) (u : Fin 1) :
    multiReduction .add [0] ⟨1, ![1]⟩ src 0x00000000#32 h hφ hacc (ix1 u) = ∑ k : Fin a, src (ix2 k (0 : Fin 1)) := by
  refine (Ideal.multiReduction_add_single src 0x00000000#32 h hφ hacc (ix1 u)).trans ?_
  refine Finset.sum_congr rfl fun k _ => congrArg src ?_
  funext c
  match c with
  | ⟨0, _⟩ => rfl
  | ⟨1, _⟩ => exact Fin.ext (by have := u.isLt; show (u : ℕ) = 0; omega)

/-- The coercion of a finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The literals -/

theorem lit_one : Ideal.ofBits .f32 0x3F800000#32 = ((1 : ℝ) : EReal) := by
  simp [Ideal.ofBits, Ideal.ieee, -EReal.coe_mul]; norm_num
theorem lit_eight : Ideal.ofBits .f32 0x41000000#32 = ((8 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_zero : Ideal.ofBits .f32 0x00000000#32 = ((0 : ℝ) : EReal) := by
  rw [Ideal.ofBits_zero_f32, EReal.coe_zero]

/-- The coercion of a maximum and of a minimum of reals. -/
theorem coe_max' (x y : ℝ) : ((max x y : ℝ) : EReal) = max (x : EReal) (y : EReal) :=
  EReal.coe_strictMono.monotone.map_max
theorem coe_min' (x y : ℝ) : ((min x y : ℝ) : EReal) = min (x : EReal) (y : EReal) :=
  EReal.coe_strictMono.monotone.map_min

/-- The quotient of two reals, the divisor not zero. -/
theorem div_coe_coe (x y : ℝ) (hy : y ≠ 0) : Ideal.div (x : EReal) (y : EReal) = ((x / y : ℝ) : EReal) := by
  rw [Ideal.div_coe hy, ← EReal.coe_mul, ← div_eq_mul_one_div]

theorem max_one_ne_zero (x : ℝ) : max x 1 ≠ 0 :=
  ne_of_gt (lt_of_lt_of_le one_pos (le_max_right _ _))

/-! ## The payloads over real data -/

section Payloads

variable (S : Fin 32 → Fin 16 → ℝ) (w : Fin 32 → Fin 17 → ℝ)

theorem ofBits_scalar (b : BitVec 32) : Scalar.ofBits (F := Ideal) .f32 b = Ideal.ofBits .f32 b := rfl

/-- The weights block with its leading unit axis dropped. -/
theorem pay17_apply (v9 : Vec Ideal S1x32x17 .f32)
    (hv9 : ∀ (p : Fin 32) (k : Fin 17), v9 (ix3 (0 : Fin 1) p k) = ((w p k : ℝ) : EReal)) (p : Fin 32) (k : Fin 17) :
    k0_pay17 (F := Ideal) v9 (ix2 p k) = ((w p k : ℝ) : EReal) := by
  unfold k0_pay17
  exact (shapeCast_1ab_ab_apply _ _ p k).trans (hv9 p k)

variable (v10 : FVec Ideal S32x17 .f32) (hv10 : ∀ (p : Fin 32) (k : Fin 17), v10 (ix2 p k) = ((w p k : ℝ) : EReal))
include hv10

/-- The row sums of the weights. -/
theorem pay3_apply (p : Fin 32) (u : Fin 1) : k0_pay3 (F := Ideal) v10 (ix2 p u) = ((AELoss.kcnt w p : ℝ) : EReal) := by
  unfold k0_pay3
  refine (shapeCast_a_a1_apply _ _ p u).trans ?_
  refine (sumCols_apply _ _ _ _ p).trans ?_
  unfold AELoss.kcnt
  rw [coe_sum]
  exact Finset.sum_congr rfl fun k _ => hv10 p k

/-- The row sums, at least one. -/
theorem pay4_apply (p : Fin 32) (u : Fin 1) :
    k0_pay4 (F := Ideal) v10 (ix2 p u) = ((max (AELoss.kcnt w p) 1 : ℝ) : EReal) := by
  unfold k0_pay4
  rw [maximumf_apply, pay3_apply w v10 hv10 p u, broadcast_apply, ofBits_scalar, lit_one, coe_max']

/-- The row sums, at most one. -/
theorem pay7_apply (p : Fin 32) (u : Fin 1) :
    k0_pay7 (F := Ideal) v10 (ix2 p u) = ((AELoss.khas w p : ℝ) : EReal) := by
  unfold k0_pay7 AELoss.khas
  rw [minimumf_apply, pay3_apply w v10 hv10 p u, broadcast_apply, ofBits_scalar, lit_one, coe_min']

/-- The number of present rows. -/
theorem pay8_apply (u u' : Fin 1) : k0_pay8 (F := Ideal) v10 (ix2 u u') = ((AELoss.kn w : ℝ) : EReal) := by
  unfold k0_pay8
  refine (shapeCast_a_1a_apply _ _ u u').trans ?_
  refine (sumRows_apply _ _ _ _ u').trans ?_
  unfold AELoss.kn
  rw [coe_sum]
  exact Finset.sum_congr rfl fun m _ => pay7_apply w v10 hv10 m 0

variable (v248 : Vec Ideal S32x16 .f32) (hv248 : ∀ (p : Fin 32) (j : Fin 16), v248 (ix2 p j) = ((S p j : ℝ) : EReal))
include hv248

/-- The mean tags. -/
theorem pay5_apply (p : Fin 32) (t : Fin 8) :
    k0_pay5 (F := Ideal) v10 v248 (ix2 p t) = ((AELoss.kmean S w p t : ℝ) : EReal) := by
  unfold k0_pay5 AELoss.kmean
  rw [divf_apply, slice2_axis1_apply 0 v248 _ p t (AELoss.lo t) (Nat.zero_add _).symm, hv248,
    broadcastTo_a1_ab_apply, pay4_apply w v10 hv10 p 0, div_coe_coe _ _ (max_one_ne_zero _)]

/-- The squared norms of the mean tags. -/
theorem pay6_apply (p : Fin 32) (u : Fin 1) :
    k0_pay6 (F := Ideal) v10 v248 (ix2 p u) = ((AELoss.kmsq S w p : ℝ) : EReal) := by
  unfold k0_pay6
  refine (shapeCast_a_a1_apply _ _ p u).trans ?_
  refine (sumCols_apply _ _ _ _ p).trans ?_
  unfold AELoss.kmsq
  rw [coe_sum]
  refine Finset.sum_congr rfl fun t _ => ?_
  rw [mulf_apply, pay5_apply S w v10 hv10 v248 hv248 p t, ← EReal.coe_mul]

end Payloads

/-! ## The product of the means with themselves -/

theorem lhs_gram_0 (i : S32x32.Idx) (q : dot_S32x8_S32x8_S32x32_1_1_0_0_n_n.contr.Idx) :
    (dot_S32x8_S32x8_S32x32_1_1_0_0_n_n.lhsIdx i q 0).val = (i 0).val := by
  unfold DotDims.lhsIdx
  rw [dif_neg (show ¬(0 : Fin S32x8.rank) ∈ dot_S32x8_S32x8_S32x32_1_1_0_0_n_n.lhsBatch by decide),
    dif_pos (show (0 : Fin S32x8.rank) ∈ dot_S32x8_S32x8_S32x32_1_1_0_0_n_n.lhsNonContracting by decide)]
  rfl
theorem lhs_gram_1 (i : S32x32.Idx) (q : dot_S32x8_S32x8_S32x32_1_1_0_0_n_n.contr.Idx) :
    (dot_S32x8_S32x8_S32x32_1_1_0_0_n_n.lhsIdx i q 1).val = (q ⟨0, by decide⟩).val :=
  dot_S32x8_S32x8_S32x32_1_1_0_0_n_n.lhsIdx_val_of_single rfl i q
theorem rhs_gram_0 (i : S32x32.Idx) (q : dot_S32x8_S32x8_S32x32_1_1_0_0_n_n.contr.Idx) :
    (dot_S32x8_S32x8_S32x32_1_1_0_0_n_n.rhsIdx i q 0).val = (i 1).val := by
  unfold DotDims.rhsIdx
  rw [dif_neg (show ¬(0 : Fin S32x8.rank) ∈ dot_S32x8_S32x8_S32x32_1_1_0_0_n_n.rhsBatch by decide),
    dif_pos (show (0 : Fin S32x8.rank) ∈ dot_S32x8_S32x8_S32x32_1_1_0_0_n_n.rhsNonContracting by decide)]
  rfl
theorem rhs_gram_1 (i : S32x32.Idx) (q : dot_S32x8_S32x8_S32x32_1_1_0_0_n_n.contr.Idx) :
    (dot_S32x8_S32x8_S32x32_1_1_0_0_n_n.rhsIdx i q 1).val = (q ⟨0, by decide⟩).val :=
  dot_S32x8_S32x8_S32x32_1_1_0_0_n_n.rhsIdx_val_of_single rfl i q

/-- The product of a `[32, 8]` array with itself, contracted on the second axis of both, into a zero accumulator:
    entry `(i, j)` is the inner product of rows `i` and `j`. -/
theorem gram_apply (A : FVec Ideal S32x8 .bf16) (i j : Fin 32) :
    matmul dot_S32x8_S32x8_S32x32_1_1_0_0_n_n none A A (constant (F := Ideal) S32x32 .f32 0x00000000#32) (ix2 i j)
      = ∑ t : Fin 8, A (ix2 i t) * A (ix2 j t) := by
  show FloatOps.matmul dot_S32x8_S32x8_S32x32_1_1_0_0_n_n none A A (constant (F := Ideal) S32x32 .f32 0x00000000#32) (ix2 i j) = _
  rw [Ideal.matmul_constant_zero_apply,
    ← Equiv.sum_comp (contrEquiv1 dot_S32x8_S32x8_S32x32_1_1_0_0_n_n 8 rfl rfl).symm]
  refine Finset.sum_congr rfl fun k _ => ?_
  have hk := contrEquiv1_symm_val dot_S32x8_S32x8_S32x32_1_1_0_0_n_n 8 rfl rfl k
  have el : dot_S32x8_S32x8_S32x32_1_1_0_0_n_n.lhsIdx (ix2 i j)
      ((contrEquiv1 dot_S32x8_S32x8_S32x32_1_1_0_0_n_n 8 rfl rfl).symm k) = ix2 i k := funext fun a => Fin.ext (by
    match a with
    | ⟨0, _⟩ => exact lhs_gram_0 _ _
    | ⟨1, _⟩ => exact (lhs_gram_1 _ _).trans hk)
  have er : dot_S32x8_S32x8_S32x32_1_1_0_0_n_n.rhsIdx (ix2 i j)
      ((contrEquiv1 dot_S32x8_S32x8_S32x32_1_1_0_0_n_n 8 rfl rfl).symm k) = ix2 j k := funext fun a => Fin.ext (by
    match a with
    | ⟨0, _⟩ => exact rhs_gram_0 _ _
    | ⟨1, _⟩ => exact (rhs_gram_1 _ _).trans hk)
  rw [el, er]

/-! ## The off-diagonal mask -/

theorem pay11_apply (i j : Fin 32) : k0_pay11 (ix2 i j) = if i ≠ j then 1#1 else 0#1 := by
  unfold k0_pay11
  show IntOp.cmpi .ne (iota .tc S32x32 32 [0] iota_S32x32_d0_w32 (ix2 i j))
    (iota .tc S32x32 32 [1] iota_S32x32_d1_w32 (ix2 i j)) = _
  rw [iota_single_apply, iota_single_apply]
  show BitVec.ofBool (BitVec.ofNat 32 i.val != BitVec.ofNat 32 j.val) = _
  by_cases h : i = j
  · subst h; simp
  · have hne : BitVec.ofNat 32 i.val ≠ BitVec.ofNat 32 j.val := by
      intro e
      have e' := congrArg BitVec.toNat e
      simp only [BitVec.toNat_ofNat] at e'
      have hi := i.isLt
      have hj := j.isLt
      rw [Nat.mod_eq_of_lt (by omega), Nat.mod_eq_of_lt (by omega)] at e'
      exact h (Fin.ext e')
    have hb : (BitVec.ofNat 32 i.val != BitVec.ofNat 32 j.val) = true := bne_iff_ne.2 hne
    rw [hb, if_pos h]
    rfl

theorem pay13_apply (i j : Fin 32) : k0_pay13 (F := Ideal) (ix2 i j) = ((0 : ℝ) : EReal) := by
  unfold k0_pay13
  rw [broadcast_apply, ofBits_scalar, lit_zero]

section Payloads2

variable (S : Fin 32 → Fin 16 → ℝ) (w : Fin 32 → Fin 17 → ℝ)
variable (v10 : FVec Ideal S32x17 .f32) (hv10 : ∀ (p : Fin 32) (k : Fin 17), v10 (ix2 p k) = ((w p k : ℝ) : EReal))
include hv10

/-- The products of the rows' presences. -/
theorem pay12_apply (i j : Fin 32) :
    k0_pay12 (F := Ideal) v10 (ix2 i j) = ((AELoss.khas w i * AELoss.khas w j : ℝ) : EReal) := by
  unfold k0_pay12
  rw [mulf_apply, broadcastTo_a1_ab_apply, broadcastTo_1b_ab_apply, transpose_ix2_apply,
    pay7_apply w v10 hv10 i 0, pay7_apply w v10 hv10 j 0, ← EReal.coe_mul]

variable (v248 : Vec Ideal S32x16 .f32) (hv248 : ∀ (p : Fin 32) (j : Fin 16), v248 (ix2 p j) = ((S p j : ℝ) : EReal))
include hv248

/-- The pull loss. -/
theorem pay9_apply (u u' : Fin 1) :
    k0_pay9 (F := Ideal) v10 v248 (ix2 u u') = ((AELoss.kpull S w : ℝ) : EReal) := by
  unfold k0_pay9 AELoss.kpull
  rw [divf_apply, ← div_coe_coe _ _ (max_one_ne_zero _)]
  congr 1
  · refine (shapeCast_a_1a_apply _ _ u u').trans ?_
    refine (sumRows_apply _ _ _ _ u').trans ?_
    rw [coe_sum]
    refine Finset.sum_congr rfl fun m _ => ?_
    rw [mulf_apply, pay7_apply w v10 hv10 m 0, EReal.coe_mul]
    congr 1
    unfold AELoss.kpullp
    rw [divf_apply, pay4_apply w v10 hv10 m 0, ← div_coe_coe _ _ (max_one_ne_zero _)]
    congr 1
    rw [divf_apply, broadcast_apply, ofBits_scalar, lit_eight, ← div_coe_coe _ _ (by norm_num)]
    congr 1
    rw [subf_apply, EReal.coe_sub]
    congr 1
    · refine (shapeCast_a_a1_apply _ _ m 0).trans ?_
      refine (sumCols_apply _ _ _ _ m).trans ?_
      rw [coe_sum]
      refine Finset.sum_congr rfl fun t _ => ?_
      rw [slice2_axis1_apply 8 v248 _ m t (AELoss.hi t) (Nat.add_comm _ _), hv248]
    · rw [mulf_apply, pay3_apply w v10 hv10 m 0, pay6_apply S w v10 hv10 v248 hv248 m 0, ← EReal.coe_mul]
  · rw [maximumf_apply, pay8_apply w v10 hv10 u u', broadcast_apply, ofBits_scalar, lit_one, coe_max']

/-- The squared distances of the mean tags. -/
theorem pay10_apply (i j : Fin 32) :
    k0_pay10 (F := Ideal) v10 v248 (ix2 i j) = ((AELoss.kdist2 S w i j : ℝ) : EReal) := by
  unfold k0_pay10 AELoss.kdist2
  rw [subf_apply, addf_apply, mulf_apply, broadcastTo_a1_ab_apply, broadcastTo_1b_ab_apply, transpose_ix2_apply,
    pay6_apply S w v10 hv10 v248 hv248 i 0, pay6_apply S w v10 hv10 v248 hv248 j 0, broadcast_apply, ofBits_scalar,
    lit_two, gram_apply, EReal.coe_sub, EReal.coe_add, EReal.coe_mul, coe_sum]
  congr 2
  refine Finset.sum_congr rfl fun t _ => ?_
  rw [truncf_apply, truncf_apply, pay5_apply S w v10 hv10 v248 hv248 i t, pay5_apply S w v10 hv10 v248 hv248 j t,
    ← EReal.coe_mul]

end Payloads2

/-! ## The closing formula -/

theorem exp_apply' {s : Shape} (a : FVec Ideal s .f32) (i : s.Idx) : exp a i = Ideal.exp (a i) := rfl

/-- A select on "greater than" between two reals. -/
theorem select_ogt_coe {α : Type} (x y : ℝ) (a b : α) :
    Scalar.select (FloatOps.cmpf (F := Ideal) (φ := .f32) .ogt (x : EReal) (y : EReal)) a b = if y < x then a else b := by
  rw [Ideal.cmpf_def]
  unfold Ideal.cmp Scalar.select
  by_cases h : y < x
  · have h' : (y : EReal) < x := EReal.coe_lt_coe_iff.2 h
    simp [h, h']
  · have h' : ¬ (y : EReal) < x := fun h'' => h (EReal.coe_lt_coe_iff.1 h'')
    simp [h, h']

section Closing

variable (S : Fin 32 → Fin 16 → ℝ) (w : Fin 32 → Fin 17 → ℝ)
variable (v270 v276 : FVec Ideal S1x1 .f32) (v285 v292 v293 : FVec Ideal S32x32 .f32) (v288 : IVec S32x32 1)

/-- The second entry of the stored block is the pull loss as it was computed. -/
theorem pay2_pull_apply :
    k0_pay2 (F := Ideal) v270 v276 v285 v288 v292 v293 (ix3 (0 : Fin 1) (0 : Fin 1) (1 : Fin 2))
      = v276 (ix2 (0 : Fin 1) (0 : Fin 1)) := by
  unfold k0_pay2
  refine (shapeCast_ab_1ab_apply _ _ (0 : Fin 1) (0 : Fin 1) (1 : Fin 2)).trans ?_
  exact concatenate_pair_apply_right (s₁ := S1x1) (s₂ := S1x1) (1 : Fin S1x2.rank) _ _ _ (ix2 (0 : Fin 1) (1 : Fin 2)) rfl rfl
    (ix2 (0 : Fin 1) (0 : Fin 1))
    (fun b hb => by
      match b with
      | ⟨0, _⟩ => rfl
      | ⟨1, _⟩ => exact absurd (Fin.ext rfl) hb)
    rfl

/-- The first entry of the stored block is the push loss. -/
theorem pay2_push_apply
    (h270 : ∀ u u' : Fin 1, v270 (ix2 u u') = ((AELoss.kn w : ℝ) : EReal))
    (h285 : ∀ i j : Fin 32, v285 (ix2 i j) = ((AELoss.kdist2 S w i j : ℝ) : EReal))
    (h288 : ∀ i j : Fin 32, v288 (ix2 i j) = if i ≠ j then 1#1 else 0#1)
    (h292 : ∀ i j : Fin 32, v292 (ix2 i j) = ((AELoss.khas w i * AELoss.khas w j : ℝ) : EReal))
    (h293 : ∀ i j : Fin 32, v293 (ix2 i j) = ((0 : ℝ) : EReal)) :
    k0_pay2 (F := Ideal) v270 v276 v285 v288 v292 v293 (ix3 (0 : Fin 1) (0 : Fin 1) (0 : Fin 2))
      = ((AELoss.kpush S w : ℝ) : EReal) := by
  unfold k0_pay2
  refine (shapeCast_ab_1ab_apply _ _ (0 : Fin 1) (0 : Fin 1) (0 : Fin 2)).trans ?_
  refine (concatenate_pair_apply_left (s₁ := S1x1) (s₂ := S1x1) (1 : Fin S1x2.rank) _ _ _ (ix2 (0 : Fin 1) (0 : Fin 2)) rfl
    (ix2 (0 : Fin 1) (0 : Fin 1))
    (fun b => by
      match b with
      | ⟨0, _⟩ => rfl
      | ⟨1, _⟩ => rfl)).trans ?_
  rw [select_apply, cmpf_apply, h270, broadcast_apply (Scalar.ofBits (F := Ideal) .f32 0x3F800000#32),
    ofBits_scalar 0x3F800000#32, lit_one, select_ogt_coe]
  unfold AELoss.kpush
  by_cases hc : 1 < AELoss.kn w
  · rw [if_pos hc, if_pos hc, mulf_apply, broadcast_apply (Scalar.ofBits (F := Ideal) .f32 0x3F000000#32),
      ofBits_scalar 0x3F000000#32, lit_half, EReal.coe_mul]
    congr 1
    rw [divf_apply, ← div_coe_coe _ _ (max_one_ne_zero _)]
    congr 1
    · refine (shapeCast_a_1a_apply _ _ (0 : Fin 1) (0 : Fin 1)).trans ?_
      refine (sumRows_apply _ _ _ _ (0 : Fin 1)).trans ?_
      unfold AELoss.kpushsum
      rw [coe_sum]
      refine Finset.sum_congr rfl fun i _ => ?_
      refine (shapeCast_a_a1_apply _ _ i (0 : Fin 1)).trans ?_
      refine (sumCols_apply _ _ _ _ i).trans ?_
      rw [coe_sum]
      refine Finset.sum_congr rfl fun j _ => ?_
      rw [select_apply, h288]
      by_cases hij : i = j
      · rw [if_neg (not_not.2 hij), if_neg (not_not.2 hij), select_zero, broadcast_apply, ofBits_scalar 0x00000000#32,
          lit_zero]
      · rw [if_pos hij, if_pos hij, select_one, mulf_apply, h292, exp_apply', subf_apply, h293, h285, ← EReal.coe_sub,
          Ideal.exp_coe, ← EReal.coe_mul]
    · rw [maximumf_apply, mulf_apply, subf_apply, h270, broadcast_apply, ← EReal.coe_sub, ← EReal.coe_mul, coe_max']
  · rw [if_neg hc, if_neg hc, broadcast_apply, ofBits_scalar 0x00000000#32, lit_zero]

end Closing

end Final

theorem finalpay_apply (S : Fin 32 → Fin 16 → ℝ) (w : Fin 32 → Fin 17 → ℝ)
    (v9 : Vec Ideal S1x32x17 .f32) (v248 : Vec Ideal S32x16 .f32)
    (hv9 : ∀ (p : Fin 32) (k : Fin 17), v9 (ix3 (0 : Fin 1) p k) = ((w p k : ℝ) : EReal))
    (hv248 : ∀ (p : Fin 32) (j : Fin 16), v248 (ix2 p j) = ((S p j : ℝ) : EReal)) :
    finalpay (F := Ideal) v9 v248 (ix3 (0 : Fin 1) (0 : Fin 1) (0 : Fin 2)) = ((AELoss.kpush S w : ℝ) : EReal)
    ∧ finalpay (F := Ideal) v9 v248 (ix3 (0 : Fin 1) (0 : Fin 1) (1 : Fin 2)) = ((AELoss.kpull S w : ℝ) : EReal) := by
  have hv10 := Final.pay17_apply w v9 hv9
  unfold finalpay
  refine ⟨?_, ?_⟩
  · exact Final.pay2_push_apply S w _ _ _ _ _ _ (Final.pay8_apply w _ hv10) (Final.pay10_apply S w _ hv10 v248 hv248)
      Final.pay11_apply (Final.pay12_apply w _ hv10) Final.pay13_apply
  · exact (Final.pay2_pull_apply _ _ _ _ _ _).trans (Final.pay9_apply S w _ hv10 v248 hv248 0 0)

end Cert.KernelIdeal.Pay

end
-- ==== Proof.KernelHost.lean ====
/-
  What the kernel's three input windows hold at a grid point, read at an entry: the tile of the image's tags, the joints'
  index words and the joints' validity weights over 32 rows (the last two rows the padding the host operations add).
-/
import proofs.«426285_j17789754540200_2_alg».proof.Proof.Gen.KernelIdeal.Frame
import proofs.«426285_j17789754540200_2_alg».proof.Proof.Data
import Idealize.ShloMosaic.Lib.Pipeline.Value
import Idealize.ShloMosaic.Lib.StableHlo.Run
import Idealize.ShloMosaic.Lib.ValueLayout
import Idealize.ShloMosaic.Lib.KernelVsHost

noncomputable section

namespace Cert.KernelIdeal.HostVal

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-! ## Where the windows' blocks sit in their arrays -/

/-- Window 0's block index at a point: the image, the tile, column block 0. -/
theorem idx0 : ∀ t : Fin grid0.N, win0_0.index t 0 = t.val / 8 ∧ win0_0.index t 1 = t.val % 8 ∧ win0_0.index t 2 = 0 := by
  decide +kernel

/-- Window 1's block index at a point: the image, then 0, 0. -/
theorem idx1 : ∀ t : Fin grid0.N, win0_1.index t 0 = t.val / 8 ∧ win0_1.index t 1 = 0 ∧ win0_1.index t 2 = 0 := by
  decide +kernel

/-- Window 2's block index at a point: the image, then 0, 0. -/
theorem idx2 : ∀ t : Fin grid0.N, win0_2.index t 0 = t.val / 8 ∧ win0_2.index t 1 = 0 ∧ win0_2.index t 2 = 0 := by
  decide +kernel

/-! ## The two arrays the host operations write, as terms over the keypoints -/

/-- The index words' array: column 0 of the keypoints, padded by two rows of the word 0. -/
theorem v7_eq (c : Dev nD) : (V m c main_v7 : S64x32x17.Idx → BitVec 32) =
    pad S64x32x17 ![0, 0, 0] ![0, 2, 0] ![0, 0, 0]
      (shapeCast S64x30x17 (extractStridedSlice S64x30x17x1 ![0, 0, 0, 0] (m ((c : Thread nD τ).loc main_arg1)) slices_S64x30x17x2_S64x30x17x1_0_0_0_0) shapeCasts_S64x30x17x1_S64x30x17)
      (constantI S_ 32 0#32) pads_S64x30x17_S64x32x17_000_020_000 h_S_ := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- The weights' array: column 1 of the keypoints compared against 0 (signed), the flag converted, padded by two rows
    of the converted word 0. -/
theorem v8_eq (c : Dev nD) : (V m c main_v8 : S64x32x17.Idx → EReal) =
    pad S64x32x17 ![0, 0, 0] ![0, 2, 0] ![0, 0, 0]
      (uitofp (F := Ideal) .f32 (cmpi .sgt
        (shapeCast S64x30x17 (extractStridedSlice S64x30x17x1 ![0, 0, 0, 1] (m ((c : Thread nD τ).loc main_arg1)) slices_S64x30x17x2_S64x30x17x1_0_0_0_1) shapeCasts_S64x30x17x1_S64x30x17)
        (broadcastInDim S64x30x17 ![] bcast_S_S64x30x17 (constantI S_ 32 0#32))))
      (sitofp (F := Ideal) .f32 (constantI S_ 32 0#32)) pads_S64x30x17_S64x32x17_000_020_000 h_S_ := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-! ## Those terms read at an entry -/

/-- Column `j` of the keypoints, its unit axis dropped, read at `(b, p, k)`: the keypoints at `(b, p, k, j)` — the two
    row-major positions agree, and the slice shifts the last coordinate by `j`. -/
theorem col_apply (kp : S64x30x17x2.Idx → BitVec 32) (off : Fin 4 → ℕ) (j : Fin 2) (hoff : off = ![0, 0, 0, j.val])
    (hs : S64x30x17x2.Slices off S64x30x17x1) (b : Fin 64) (p : Fin 30) (k : Fin 17) :
    shapeCast S64x30x17 (extractStridedSlice S64x30x17x1 off kp hs) shapeCasts_S64x30x17x1_S64x30x17 (ix3 b p k)
      = kp (ix4 b p k j) := by
  subst hoff
  refine (shapeCast_apply _ _ (ix3 b p k) (ix4 b p k (0 : Fin 1)) ?_).trans ?_
  · rw [Shape.rowMajor_val_four, Shape.rowMajor_val_three]
    show ((b.val * 30 + p.val) * 17 + k.val) * 1 + 0 = (b.val * 30 + p.val) * 17 + k.val
    omega
  · refine extractStridedSlice_apply _ _ _ _ (ix4 b p k j) (fun a => ?_)
    match a with
    | ⟨0, _⟩ => show b.val = 0 + b.val; omega
    | ⟨1, _⟩ => show p.val = 0 + p.val; omega
    | ⟨2, _⟩ => show k.val = 0 + k.val; omega
    | ⟨3, _⟩ => show j.val = j.val + 0; omega

/-- A word's positivity flag, converted: one when the word is positive as a signed number, else zero. -/
theorem flag_real (x : BitVec 32) :
    (((IntOp.cmpi .sgt x 0#32).toNat : ℝ) : EReal) = (((if 0 < x.toInt then 1 else 0 : ℝ)) : EReal) := by
  unfold IntOp.cmpi
  by_cases h : 0 < x.toInt
  · have : (0#32).slt x = true := by simp [BitVec.slt, h]
    simp [this, h]
  · have : (0#32).slt x = false := by simp [BitVec.slt, h]
    simp [this, h]

/-- The index words' array at `(b, p, k)`: the keypoint's index word on the first 30 rows, the word 0 on the two
    padding rows. -/
theorem v7_apply (c : Dev nD) (b : Fin 64) (p : Fin 32) (k : Fin 17) :
    (V m c main_v7 : S64x32x17.Idx → BitVec 32) (ix3 b p k) = AELoss.idxBV (m ((c : Thread nD τ).loc main_arg1)) b p k := by
  rw [v7_eq]
  unfold AELoss.idxBV
  by_cases h : p.val < 30
  · rw [dif_pos h]
    refine (pad_apply_of_inside _ _ _ _ _ _ _ (ix3 b p k) (ix3 b (⟨p.val, h⟩ : Fin 30) k) (fun a => ?_)).trans ?_
    · match a with
      | ⟨0, _⟩ => show b.val = 0 + b.val * (0 + 1); omega
      | ⟨1, _⟩ => show p.val = 0 + p.val * (0 + 1); omega
      | ⟨2, _⟩ => show k.val = 0 + k.val * (0 + 1); omega
    · exact col_apply _ _ (0 : Fin 2) rfl _ b ⟨p.val, h⟩ k
  · rw [dif_neg h]
    refine (pad_apply_of_not_inside _ _ _ _ _ _ _ (ix3 b p k) (1 : Fin 3) (fun hh => h ?_)).trans ?_
    · have h3 := hh.2.2
      change (p.val - 0) / (0 + 1) < 30 at h3
      omega
    · rfl

/-- The weights' array at `(b, p, k)`: the keypoint's validity weight on the first 30 rows, zero on the two padding
    rows. -/
theorem v8_apply (c : Dev nD) (b : Fin 64) (p : Fin 32) (k : Fin 17) :
    (V m c main_v8 : S64x32x17.Idx → EReal) (ix3 b p k) = ((AELoss.w32 (m ((c : Thread nD τ).loc main_arg1)) b p k : ℝ) : EReal) := by
  rw [v8_eq]
  unfold AELoss.w32
  by_cases h : p.val < 30
  · rw [dif_pos h]
    refine (pad_apply_of_inside _ _ _ _ _ _ _ (ix3 b p k) (ix3 b (⟨p.val, h⟩ : Fin 30) k) (fun a => ?_)).trans ?_
    · match a with
      | ⟨0, _⟩ => show b.val = 0 + b.val * (0 + 1); omega
      | ⟨1, _⟩ => show p.val = 0 + p.val * (0 + 1); omega
      | ⟨2, _⟩ => show k.val = 0 + k.val * (0 + 1); omega
    · show (((IntOp.cmpi .sgt (shapeCast S64x30x17 (extractStridedSlice S64x30x17x1 ![0, 0, 0, 1] (m ((c : Thread nD τ).loc main_arg1)) slices_S64x30x17x2_S64x30x17x1_0_0_0_1) shapeCasts_S64x30x17x1_S64x30x17 (ix3 b (⟨p.val, h⟩ : Fin 30) k)) 0#32).toNat : ℝ) : EReal) = _
      refine (congrArg (fun x : BitVec 32 => (((IntOp.cmpi .sgt x 0#32).toNat : ℝ) : EReal))
        (col_apply (m ((c : Thread nD τ).loc main_arg1)) ![0, 0, 0, 1] (1 : Fin 2) rfl slices_S64x30x17x2_S64x30x17x1_0_0_0_1 b ⟨p.val, h⟩ k)).trans ?_
      exact flag_real _
  · rw [dif_neg h]
    refine (pad_apply_of_not_inside _ _ _ _ _ _ _ (ix3 b p k) (1 : Fin 3) (fun hh => h ?_)).trans ?_
    · have h3 := hh.2.2
      change (p.val - 0) / (0 + 1) < 30 at h3
      omega
    · show ((((0#32 : BitVec 32).toInt : ℝ)) : EReal) = ((0 : ℝ) : EReal)
      simp

/-! ## The blocks -/

/-- Window 0 at the point of image `b`, tile `nt`: rows `8192·nt …` of the image's tags. -/
theorem iblk0_apply (c : Dev nD) (t : Fin cfg0.N) (b : Fin 64) (nt : ℕ) (hnt : nt < 8) (ht : t.val = 8 * b.val + nt)
    (tg : S64x65536x8.Idx → ℝ) (htg : ∀ j, m ((c : Thread nD τ).loc main_arg0) j = ((tg j : ℝ) : EReal))
    (cc : Fin 8192) (q : Fin 8) :
    (iblk m c 0 t : Vec Ideal S1x8192x8 .f32) (ix3 (0 : Fin 1) cc q)
      = ((AELoss.rows tg b ⟨8192 * nt + cc.val, by have := cc.isLt; omega⟩ q : ℝ) : EReal) := by
  have hi := idx0 t
  unfold iblk
  rw [View.read_apply]
  show V m c main_arg0 _ = _
  rw [V_main_arg0, htg]
  unfold AELoss.rows
  congr 2
  funext a
  apply Fin.ext
  match a with
  | ⟨0, _⟩ => show win0_0.index t 0 * 1 + 1 * 0 = b.val; rw [hi.1]; omega
  | ⟨1, _⟩ => show win0_0.index t 1 * 8192 + 1 * cc.val = 8192 * nt + cc.val; rw [hi.2.1]; omega
  | ⟨2, _⟩ => show win0_0.index t 2 * 8 + 1 * q.val = q.val; rw [hi.2.2]; omega

/-- Window 1 at a point of image `b`: the joints' index words. -/
theorem iblk1_apply (c : Dev nD) (t : Fin cfg0.N) (b : Fin 64) (nt : ℕ) (hnt : nt < 8) (ht : t.val = 8 * b.val + nt)
    (p : Fin 32) (k : Fin 17) :
    (iblk m c 1 t : Vec Ideal S1x32x17 .i32) (ix3 (0 : Fin 1) p k)
      = AELoss.idxBV (m ((c : Thread nD τ).loc main_arg1)) b p k := by
  have hi := idx1 t
  refine Eq.trans ?_ (v7_apply m c b p k)
  unfold iblk
  rw [View.read_apply]
  show (V m c main_v7 : S64x32x17.Idx → BitVec 32) _ = (V m c main_v7 : S64x32x17.Idx → BitVec 32) (ix3 b p k)
  refine congrArg _ (funext fun a => Fin.ext ?_)
  match a with
  | ⟨0, _⟩ => show win0_1.index t 0 * 1 + 1 * 0 = b.val; rw [hi.1]; omega
  | ⟨1, _⟩ => show win0_1.index t 1 * 32 + 1 * p.val = p.val; rw [hi.2.1]; omega
  | ⟨2, _⟩ => show win0_1.index t 2 * 17 + 1 * k.val = k.val; rw [hi.2.2]; omega

/-- Window 2 at a point of image `b`: the joints' validity weights. -/
theorem iblk2_apply (c : Dev nD) (t : Fin cfg0.N) (b : Fin 64) (nt : ℕ) (hnt : nt < 8) (ht : t.val = 8 * b.val + nt)
    (p : Fin 32) (k : Fin 17) :
    (iblk m c 2 t : Vec Ideal S1x32x17 .f32) (ix3 (0 : Fin 1) p k)
      = ((AELoss.w32 (m ((c : Thread nD τ).loc main_arg1)) b p k : ℝ) : EReal) := by
  have hi := idx2 t
  refine Eq.trans ?_ (v8_apply m c b p k)
  unfold iblk
  rw [View.read_apply]
  show (V m c main_v8 : S64x32x17.Idx → EReal) _ = (V m c main_v8 : S64x32x17.Idx → EReal) (ix3 b p k)
  refine congrArg _ (funext fun a => Fin.ext ?_)
  match a with
  | ⟨0, _⟩ => show win0_2.index t 0 * 1 + 1 * 0 = b.val; rw [hi.1]; omega
  | ⟨1, _⟩ => show win0_2.index t 1 * 32 + 1 * p.val = p.val; rw [hi.2.1]; omega
  | ⟨2, _⟩ => show win0_2.index t 2 * 17 + 1 * k.val = k.val; rw [hi.2.2]; omega

end Cert.KernelIdeal.HostVal

end
-- ==== Proof.KernelArr.lean ====
/-
  From the blocks the last-tile points store to the kernel program's result: the output window is written back at the
  last tile of each image only, image b's block is row b of the [64, 1, 2] array, and the closing reshape reads it as row b
  of the [64, 2] result.
-/
import proofs.«426285_j17789754540200_2_alg».proof.Proof.Gen.KernelIdeal.Frame
import Idealize.ShloMosaic.Lib.Pipeline.Value
import Idealize.ShloMosaic.Lib.StableHlo.Run
import Idealize.ShloMosaic.Lib.ValueLayout

noncomputable section

namespace Cert.KernelIdeal.Arr

open Idealize.ShloMosaic Idealize.ShloMosaic.TcCoe Idealize.ShloMosaic.ValueIdx Idealize.SL.Sem Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg)

/-- The [64, 1, 2] array whose row `b` is the block `B c b`: entry `(b, 0, q)` is `B c b (0, 0, q)`. -/
def rowsOf (B : Dev nD → Fin 64 → Vec F S1x1x2 .f32) (c : Dev nD) : S64x1x2.Idx → Elt F .f32 :=
  fun j => B c ⟨(j 0).val, (j 0).isLt⟩ (ix3 (0 : Fin 1) (0 : Fin 1) ⟨(j 2).val, (j 2).isLt⟩)

/-- Two reads of the blocks agree when the rows and the coordinates inside the block agree as numbers. -/
theorem block_congr (B : Dev nD → Fin 64 → Vec F S1x1x2 .f32) (c : Dev nD) {b b' : Fin 64} {x x' : S1x1x2.Idx}
    (hb : b.val = b'.val) (hx : ∀ a, (x a).val = (x' a).val) : B c b x = B c b' x' := by
  obtain rfl : b = b' := Fin.ext hb
  obtain rfl : x = x' := funext fun a => Fin.ext (hx a)
  rfl

/-- The output window's block index at point `t` is `(t / 8, 0, 0)`: the image's number, fixed over its eight tiles. -/
theorem blockIndex : ∀ t : Fin cfg0.N, win0_3.index t (0 : Fin 3) = t.val / 8
    ∧ win0_3.index t (1 : Fin 3) = 0 ∧ win0_3.index t (2 : Fin 3) = 0 :=
  (by decide +kernel : ∀ t : Fin grid0.N, _)

/-- What the last tile of image `t / 8` writes back is row `t / 8` of `rowsOf B c`, read through the window's block there:
    the block sits at row `t / 8` of the array and at offset zero on the two other axes. -/
theorem flushed_eq (B : Dev nD → Fin 64 → Vec F S1x1x2 .f32)
    (hB : ∀ (c : Dev nD) (t : Fin cfg0.N) (b : Fin 64), t.val = 8 * b.val + 7 → (outsAt0 m c t.val t.isLt).1 = B c b)
    (c : Dev nD) (t : Fin cfg0.N) (hf : (cfg0.win 3).flush t = true) :
    (dats m 0 c).flushed 3 t = ((cfg0.win 3).blk t).view.read (Elt F) (rowsOf B c) := by
  have h7 : t.val % 8 = 7 := (flush0_3 t).mp hf
  have hN : t.val < 512 := lt_of_lt_of_eq t.isLt (show cfg0.N = 512 from N_0)
  have hb : t.val / 8 < 64 := by omega
  obtain ⟨e0, e1, e2⟩ := blockIndex t
  show (cfg0.win 3).cut (grid0.coords t) ((dats m 0 c).after 3 t) = _
  rw [after0_3, hB c t ⟨t.val / 8, hb⟩ (by show t.val = 8 * (t.val / 8) + 7; omega)]
  funext y
  rw [View.read_apply]
  have hy0 : (y 0).val < 1 := (y 0).isLt
  have hy1 : (y 1).val < 1 := (y 1).isLt
  show B c ⟨t.val / 8, hb⟩ ((cfg0.win 3).xinj (grid0.coords t) y) = rowsOf B c (((cfg0.win 3).blk t).view.emb y)
  unfold rowsOf
  refine block_congr B c ?_ ?_
  · show t.val / 8 = win0_3.index t (0 : Fin 3) * 1 + 1 * (y 0).val
    rw [e0]; omega
  · intro a
    match a with
    | ⟨0, _⟩ => show (y 0).val = 0; omega
    | ⟨1, _⟩ => show (y 1).val = 0; omega
    | ⟨2, _⟩ => show (y 2).val = win0_3.index t (2 : Fin 3) * 2 + 1 * (y 2).val
                rw [e2]; omega

/-- Every entry `(b, 0, q)` of the array lies in the block the last tile of image `b`, point `8 b + 7`, writes back. -/
theorem covered (i : S64x1x2.Idx) :
    ∃ t : Fin cfg0.N, (cfg0.win 3).flush t = true ∧ i ∈ ((cfg0.win 3).blk t).view.set := by
  have h0 : (i 0).val < 64 := (i 0).isLt
  have h1 : (i 1).val < 1 := (i 1).isLt
  have h2 : (i 2).val < 2 := (i 2).isLt
  have hlt : 8 * (i 0).val + 7 < cfg0.N := lt_of_lt_of_eq (by omega : 8 * (i 0).val + 7 < 512) (show cfg0.N = 512 from N_0).symm
  obtain ⟨e0, e1, e2⟩ := blockIndex ⟨8 * (i 0).val + 7, hlt⟩
  have e0' : win0_3.index ⟨8 * (i 0).val + 7, hlt⟩ (0 : Fin 3) = (i 0).val := by rw [e0]; show (8 * (i 0).val + 7) / 8 = _; omega
  refine ⟨⟨8 * (i 0).val + 7, hlt⟩, (flush0_3 _).mpr (by show (8 * (i 0).val + 7) % 8 = 7; omega), ?_⟩
  show i ∈ ((View.whole main_v9).slice (win0_3.rect ⟨8 * (i 0).val + 7, hlt⟩)).set
  rw [View.set_slice_whole, Rect.mem_set_unit]
  intro a
  match a with
  | ⟨0, _⟩ => show win0_3.index ⟨8 * (i 0).val + 7, hlt⟩ (0 : Fin 3) * 1 ≤ (i 0).val ∧ (i 0).val < win0_3.index ⟨8 * (i 0).val + 7, hlt⟩ (0 : Fin 3) * 1 + 1
              rw [e0']; omega
  | ⟨1, _⟩ => show win0_3.index ⟨8 * (i 0).val + 7, hlt⟩ (1 : Fin 3) * 1 ≤ (i 1).val ∧ (i 1).val < win0_3.index ⟨8 * (i 0).val + 7, hlt⟩ (1 : Fin 3) * 1 + 1
              rw [e1]; omega
  | ⟨2, _⟩ => show win0_3.index ⟨8 * (i 0).val + 7, hlt⟩ (2 : Fin 3) * 2 ≤ (i 2).val ∧ (i 2).val < win0_3.index ⟨8 * (i 0).val + 7, hlt⟩ (2 : Fin 3) * 2 + 2
              rw [e2]; omega

/-- So the [64, 1, 2] array ends holding the blocks, row by row. -/
theorem final (B : Dev nD → Fin 64 → Vec F S1x1x2 .f32)
    (hB : ∀ (c : Dev nD) (t : Fin cfg0.N) (b : Fin 64), t.val = 8 * b.val + 7 → (outsAt0 m c t.val t.isLt).1 = B c b)
    (c : Dev nD) : (dats m 0 c).arrAt 3 cfg0.N = rowsOf B c :=
  (dats m 0 c).arrAt_eq_of_cover 3 (rowsOf B c) (flushed_eq m B hB c) covered

/-- The closing reshape of the [64, 1, 2] array to [64, 2] reads entry `(b, q)` at `(b, 0, q)`: the same row-major position. -/
theorem reshape_rows (x : S64x1x2.Idx → Elt F .f32) (b : Fin 64) (q : Fin 2) :
    shapeCast S64x2 x shapeCasts_S64x1x2_S64x2 (ix2 b q) = x (ix3 b (0 : Fin 1) q) := by
  refine shapeCast_apply x shapeCasts_S64x1x2_S64x2 (ix2 b q) (ix3 b (0 : Fin 1) q) ?_
  rw [Shape.rowMajor_val_three, Shape.rowMajor_val_two]
  show (b.val * 1 + 0) * 2 + q.val = b.val * 2 + q.val
  omega

/-- The result the program's last line leaves: the reshape of the array the region left. -/
theorem tail_eq (B : Dev nD → Fin 64 → Vec F S1x1x2 .f32)
    (hB : ∀ (c : Dev nD) (t : Fin cfg0.N) (b : Fin 64), t.val = 8 * b.val + 7 → (outsAt0 m c t.val t.isLt).1 = B c b)
    (c : Dev nD) :
    Pipeline.afterTail₀ cfgs (dats m) 0 (V0 m) [hostOps1] c main_v10 = shapeCast S64x2 (rowsOf B c) shapeCasts_S64x1x2_S64x2 := by
  unfold Pipeline.afterTail₀
  show StableHlo.after hostOps1 _ (Proc.devRef .tc main_v10) = _
  after_results
  exact congrArg (fun x => shapeCast S64x2 x shapeCasts_S64x1x2_S64x2)
    ((Pipeline.withArrays_arr spec0 launch0.win.arr_inj c _ _ 3).trans (final m B hB c))

/-- If at every image's last tile the output block is `B c b`, the program ends with result entry `(b, q)` at `B c b (0, 0, q)`
    and its arguments unchanged. -/
theorem run_of_blocks (B : Dev nD → Fin 64 → Vec F S1x1x2 .f32)
    (hB : ∀ (c : Dev nD) (t : Fin cfg0.N) (b : Fin 64), t.val = 8 * b.val + 7 → (outsAt0 m c t.val t.isLt).1 = B c b) :
    θ_run defs (onTc (τ := τ) (main (F := F))) ⟨m, fun _ => 0, ρ⟩ (fun r => ∀ c : Dev nD,
      (∀ (b : Fin 64) (q : Fin 2), r.2.mem ((c : Thread nD τ).loc main_v10) (ix2 b q) = B c b (ix3 (0 : Fin 1) (0 : Fin 1) q))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c =>
    ⟨fun b q => (congrFun (((h c).2 main_v10 (Pipeline.mem_restRefs_of main_v10 (by decide) (by decide))).trans (tail_eq m B hB c)) (ix2 b q)).trans
        (reshape_rows (rowsOf B c) b q),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Arr

end
-- ==== Proof.Algebra.lean ====
/-
  The two arrangements of the loss agree: from the moments of the gathered tags over 32 rows (the last two of weight zero)
  and from the gathered tags of the 30 persons.
-/
import proofs.«426285_j17789754540200_2_alg».proof.Proof.Spec

noncomputable section

namespace AELoss

/-! ## Sums of weights that are zero or one -/

/-- A sum of numbers each zero or one is zero or at least one. -/
theorem sum01_zero_or_one_le (x : Fin 17 → ℝ) (h : ∀ k, x k = 0 ∨ x k = 1) :
    ∑ k, x k = 0 ∨ 1 ≤ ∑ k, x k := by
  classical
  have key : ∀ s : Finset (Fin 17), ∑ k ∈ s, x k = 0 ∨ 1 ≤ ∑ k ∈ s, x k := by
    intro s
    induction s using Finset.induction_on with
    | empty => left; simp
    | insert a s ha ih =>
      rw [Finset.sum_insert ha]
      rcases h a with h0 | h1
      · rw [h0, zero_add]; exact ih
      · right
        rw [h1]
        have hs : 0 ≤ ∑ k ∈ s, x k :=
          Finset.sum_nonneg (fun k _ => by rcases h k with h' | h' <;> rw [h'] <;> norm_num)
        linarith
  exact key Finset.univ

/-- When a sum of numbers each zero or one vanishes, each of them vanishes. -/
theorem sum01_eq_zero (x : Fin 17 → ℝ) (h : ∀ k, x k = 0 ∨ x k = 1) (h0 : ∑ k, x k = 0) (k : Fin 17) :
    x k = 0 := by
  have hn : ∀ i ∈ (Finset.univ : Finset (Fin 17)), 0 ≤ x i := by
    intro i _
    rcases h i with h' | h' <;> rw [h'] <;> norm_num
  exact (Finset.sum_eq_zero_iff_of_nonneg hn).mp h0 k (Finset.mem_univ k)

/-! ## One row -/

/-- One row's pull term: the weighted mean squared distance to the mean, from the second moments and the mean. -/
theorem pull_row (x : Fin 17 → Fin 8 → ℝ) (u : Fin 17 → ℝ) (h01 : ∀ k, u k = 0 ∨ u k = 1)
    (μ : Fin 8 → ℝ) (hμ : ∀ t, μ t = (∑ k, x k t * u k) / max (∑ k, u k) 1) :
    (if 0 < ∑ k, u k then (1 : ℝ) else 0) *
        (((∑ t, ∑ k, u k * (x k t * x k t)) - (∑ k, u k) * ∑ t, μ t * μ t) / 8 / max (∑ k, u k) 1)
      = (∑ k, (∑ t, (x k t - μ t) * (x k t - μ t)) / 8 * u k) / max (∑ k, u k) 1 := by
  rcases sum01_zero_or_one_le u h01 with h0 | h1
  · have hz : ∀ k, u k = 0 := sum01_eq_zero u h01 h0
    have hs : ∑ k, (∑ t, (x k t - μ t) * (x k t - μ t)) / 8 * u k = 0 :=
      Finset.sum_eq_zero (fun k _ => by rw [hz k, mul_zero])
    rw [hs, zero_div, h0, if_neg (lt_irrefl 0), zero_mul]
  · have hpos : 0 < ∑ k, u k := by linarith
    have hne : (∑ k, u k) ≠ 0 := ne_of_gt hpos
    have hmax : max (∑ k, u k) 1 = ∑ k, u k := max_eq_left h1
    have hS1 : ∀ t, ∑ k, x k t * u k = (∑ k, u k) * μ t := by
      intro t
      rw [hμ t, hmax]
      field_simp
    have hrow : ∀ t, ∑ k, u k * ((x k t - μ t) * (x k t - μ t))
        = (∑ k, u k * (x k t * x k t)) - (∑ k, u k) * (μ t * μ t) := by
      intro t
      have e1 : ∑ k, u k * ((x k t - μ t) * (x k t - μ t))
          = (∑ k, u k * (x k t * x k t)) - 2 * μ t * (∑ k, x k t * u k)
            + (∑ k, u k) * (μ t * μ t) := by
        rw [Finset.mul_sum, Finset.sum_mul, ← Finset.sum_sub_distrib, ← Finset.sum_add_distrib]
        apply Finset.sum_congr rfl
        intro k _
        ring
      rw [e1, hS1 t]
      ring
    have e2 : ∑ k, (∑ t, (x k t - μ t) * (x k t - μ t)) / 8 * u k
        = (∑ t, ∑ k, u k * ((x k t - μ t) * (x k t - μ t))) / 8 := by
      rw [Finset.sum_comm, Finset.sum_div]
      apply Finset.sum_congr rfl
      intro k _
      rw [← Finset.mul_sum]
      ring
    rw [if_pos hpos, one_mul, hmax, e2]
    congr 2
    rw [Finset.sum_congr rfl (fun t _ => hrow t), Finset.sum_sub_distrib, ← Finset.mul_sum]

/-! ## The 32 rows and the 30 persons -/

/-- A sum over the 32 rows of a function vanishing on the last two is the sum over the 30 persons. -/
theorem sum_top (f : Fin 32 → ℝ) (hf : ∀ m : Fin 32, 30 ≤ m.val → f m = 0) :
    ∑ m, f m = ∑ m : Fin 30, f (top m) := by
  rw [Fin.sum_univ_castSucc, Fin.sum_univ_castSucc]
  rw [hf (Fin.last 31) (by simp), hf (Fin.castSucc (Fin.last 30)) (by simp), add_zero, add_zero]
  rfl

theorem top_inj (i j : Fin 30) : top i = top j ↔ i = j := by
  constructor
  · intro h
    have := congrArg Fin.val h
    exact Fin.ext this
  · intro h; rw [h]

section Rows

variable (G : Fin 32 → Fin 17 → Fin 8 → ℝ) (w : Fin 32 → Fin 17 → ℝ)

/-- The first moments. -/
theorem Sof_lo (m : Fin 32) (t : Fin 8) : Sof G w m (lo t) = ∑ k, w m k * G m k t := by
  have h : (lo t).val < 8 := t.isLt
  unfold Sof
  rw [dif_pos h]
  rfl

/-- The second moments. -/
theorem Sof_hi (m : Fin 32) (t : Fin 8) :
    Sof G w m (hi t) = ∑ k, w m k * (G m k t * G m k t) := by
  have h : ¬ (hi t).val < 8 := by
    show ¬ (t.val + 8 < 8)
    omega
  unfold Sof
  rw [dif_neg h]
  have e : ∀ p : (hi t).val - 8 < 8, (⟨(hi t).val - 8, p⟩ : Fin 8) = t := by
    intro p
    apply Fin.ext
    show t.val + 8 - 8 = t.val
    omega
  apply Finset.sum_congr rfl
  intro k _
  rw [e]

theorem kcnt_top (m : Fin 30) : kcnt w (top m) = cnt (fun m => w (top m)) m := rfl

theorem kcnt_pad (hpad : ∀ m : Fin 32, 30 ≤ m.val → ∀ k, w m k = 0) (m : Fin 32) (hm : 30 ≤ m.val) :
    kcnt w m = 0 := by
  unfold kcnt
  exact Finset.sum_eq_zero (fun k _ => hpad m hm k)

/-- Presence is one when some joint is valid and zero otherwise. -/
theorem khas_eq (h01 : ∀ m k, w m k = 0 ∨ w m k = 1) (m : Fin 32) :
    khas w m = if 0 < kcnt w m then 1 else 0 := by
  unfold khas
  rcases sum01_zero_or_one_le (w m) (h01 m) with h0 | h1
  · have : kcnt w m = 0 := h0
    rw [this]
    simp
  · have : 1 ≤ kcnt w m := h1
    rw [min_eq_right this, if_pos (by linarith)]

theorem khas_pad (hpad : ∀ m : Fin 32, 30 ≤ m.val → ∀ k, w m k = 0) (m : Fin 32) (hm : 30 ≤ m.val) :
    khas w m = 0 := by
  unfold khas
  rw [kcnt_pad w hpad m hm]
  simp

/-- The mean tag from the first moments is the mean tag from the gathered tags. -/
theorem kmean_top (m : Fin 30) (t : Fin 8) :
    kmean (Sof G w) w (top m) t = mean (fun m => G (top m)) (fun m => w (top m)) m t := by
  unfold kmean mean
  rw [Sof_lo, kcnt_top]
  congr 1
  apply Finset.sum_congr rfl
  intro k _
  ring

/-- The number of present persons. -/
theorem kn_eq (h01 : ∀ m k, w m k = 0 ∨ w m k = 1) (hpad : ∀ m : Fin 32, 30 ≤ m.val → ∀ k, w m k = 0) :
    kn w = npeople (fun m => w (top m)) := by
  unfold kn npeople
  rw [sum_top _ (fun m hm => khas_pad w hpad m hm)]
  apply Finset.sum_congr rfl
  intro m _
  rw [khas_eq w h01, kcnt_top]

/-- The squared distance from the moments is the squared distance of the mean tags. -/
theorem kdist2_top (i j : Fin 30) :
    kdist2 (Sof G w) w (top i) (top j) = dist2 (fun m => G (top m)) (fun m => w (top m)) i j := by
  unfold kdist2 kmsq dist2
  simp only [kmean_top]
  rw [Finset.mul_sum, ← Finset.sum_add_distrib, ← Finset.sum_sub_distrib]
  apply Finset.sum_congr rfl
  intro t _
  ring

/-- The push sum. -/
theorem kpushsum_eq (h01 : ∀ m k, w m k = 0 ∨ w m k = 1)
    (hpad : ∀ m : Fin 32, 30 ≤ m.val → ∀ k, w m k = 0) :
    kpushsum (Sof G w) w = pushsum (fun m => G (top m)) (fun m => w (top m)) := by
  unfold kpushsum pushsum
  rw [sum_top _ (fun i hi => ?_)]
  · apply Finset.sum_congr rfl
    intro i _
    rw [sum_top _ (fun j hj => ?_)]
    · apply Finset.sum_congr rfl
      intro j _
      rw [kdist2_top, khas_eq w h01, khas_eq w h01, kcnt_top, kcnt_top, zero_sub]
      by_cases hij : i = j
      · have : top i = top j := by rw [hij]
        simp [hij]
      · have hne : top i ≠ top j := fun h => hij ((top_inj i j).mp h)
        rw [if_pos hne]
        by_cases hi : 0 < cnt (fun m => w (top m)) i
        · by_cases hj : 0 < cnt (fun m => w (top m)) j
          · rw [if_pos hi, if_pos hj, if_pos ⟨⟨hi, hj⟩, hij⟩]; ring
          · have hn : ¬ ((0 < cnt (fun m => w (top m)) i ∧ 0 < cnt (fun m => w (top m)) j) ∧ i ≠ j) :=
              fun h => hj h.1.2
            rw [if_neg hj, if_neg hn]; ring
        · have hn : ¬ ((0 < cnt (fun m => w (top m)) i ∧ 0 < cnt (fun m => w (top m)) j) ∧ i ≠ j) :=
            fun h => hi h.1.1
          rw [if_neg hi, if_neg hn]; ring
    · rw [khas_pad w hpad j hj]
      simp
  · apply Finset.sum_eq_zero
    intro j _
    rw [khas_pad w hpad i hi]
    simp

/-- One person's pull term. -/
theorem kpullp_top (h01 : ∀ m k, w m k = 0 ∨ w m k = 1) (m : Fin 30) :
    khas w (top m) * kpullp (Sof G w) w (top m)
      = pullp (fun m => G (top m)) (fun m => w (top m)) m := by
  unfold kpullp pullp kmsq
  simp only [kmean_top, Sof_hi]
  rw [khas_eq w h01, kcnt_top]
  exact pull_row (G (top m)) (w (top m)) (h01 (top m))
    (mean (fun m => G (top m)) (fun m => w (top m)) m) (fun t => rfl)

end Rows

/-- The push loss from the moments is the push loss from the gathered tags. -/
theorem kpush_eq_push (G : Fin 32 → Fin 17 → Fin 8 → ℝ) (w : Fin 32 → Fin 17 → ℝ)
    (h01 : ∀ m k, w m k = 0 ∨ w m k = 1) (hpad : ∀ m : Fin 32, 30 ≤ m.val → ∀ k, w m k = 0) :
    kpush (Sof G w) w = push (fun m => G (top m)) (fun m => w (top m)) := by
  unfold kpush push
  rw [kn_eq w h01 hpad, kpushsum_eq G w h01 hpad]

/-- The pull loss from the moments is the pull loss from the gathered tags. -/
theorem kpull_eq_pull (G : Fin 32 → Fin 17 → Fin 8 → ℝ) (w : Fin 32 → Fin 17 → ℝ)
    (h01 : ∀ m k, w m k = 0 ∨ w m k = 1) (hpad : ∀ m : Fin 32, 30 ≤ m.val → ∀ k, w m k = 0) :
    kpull (Sof G w) w = pull (fun m => G (top m)) (fun m => w (top m)) := by
  unfold kpull pull
  rw [kn_eq w h01 hpad]
  congr 1
  rw [sum_top _ (fun m hm => by rw [khas_pad w hpad m hm, zero_mul])]
  apply Finset.sum_congr rfl
  intro m _
  exact kpullp_top G w h01 m

end AELoss

end
-- ==== Proof.KernelInv.lean ====
/-
  The kernel's carried moments, tile by tile, and the block an image's last tile stores.

  After tile nt of image b the scratch entry (p, j) is the sum, over the joints of row p whose pixel index is below
  8192·(nt + 1), of the joint's weight times that row's tag (j < 8) or squared tag (j ≥ 8): the first tile starts from zero,
  every tile adds the joints whose index lies in it. After the last tile every index below 65536 has been met, so the
  moments are those of the gathered tags, and the stored block is the push and pull loss of the image.
-/
import proofs.«426285_j17789754540200_2_alg».proof.Proof.Gen.KernelIdeal.Frame
import proofs.«426285_j17789754540200_2_alg».proof.Proof.KernelPieces
import proofs.«426285_j17789754540200_2_alg».proof.Proof.KernelStep
import proofs.«426285_j17789754540200_2_alg».proof.Proof.KernelFinal
import proofs.«426285_j17789754540200_2_alg».proof.Proof.KernelHost
import proofs.«426285_j17789754540200_2_alg».proof.Proof.KernelArr
import proofs.«426285_j17789754540200_2_alg».proof.Proof.Algebra
import proofs.«426285_j17789754540200_2_alg».proof.Proof.Data

noncomputable section

namespace Cert.KernelIdeal.Inv

open Idealize.ShloMosaic Idealize.ShloMosaic.TcCoe Idealize.ShloMosaic.ValueIdx Idealize.SL.Sem
open Cert.KernelIdeal Cert.KernelIdeal.Gen Cert.KernelIdeal.Pay Cert.KernelIdeal.Pieces Cert.KernelIdeal.HostVal AELoss

variable (m : (ℓ : Loc nD τ sig) → Buf (Elt Ideal) ℓ)

/-- The grid point's tile coordinate. -/
theorem coord1 : ∀ t : Fin cfg0.N, ((grid0.coords t) 1).val = t.val % 8 :=
  (by decide +kernel : ∀ t : Fin grid0.N, ((grid0.coords t) 1).val = t.val % 8)

/-! ## Bands of rows add up -/

theorem bandTerm_add (X : Fin 65536 → Fin 8 → ℝ) (n a b : ℕ) (hab : a ≤ b) (t : Fin 8) :
    bandTerm X n 0 a t + bandTerm X n a b t = bandTerm X n 0 b t := by
  unfold bandTerm
  by_cases h : n < 65536
  · simp only [dif_pos h]
    by_cases h1 : n < a
    · have h2 : n < b := lt_of_lt_of_le h1 hab
      simp [h1, h2, Nat.not_le.mpr h1]
    · have h1' : a ≤ n := Nat.le_of_not_lt h1
      by_cases h2 : n < b
      · simp [h1, h2, h1']
      · simp [h1, h2]
  · simp only [dif_neg h, add_zero]

theorem bandTerm_all (X : Fin 65536 → Fin 8 → ℝ) (n : ℕ) (t : Fin 8) :
    bandTerm X n 0 65536 t = if h : n < 65536 then X ⟨n, h⟩ t else 0 := by
  unfold bandTerm
  by_cases h : n < 65536
  · simp [h]
  · simp [h]

/-! ## The moments after a tile -/

variable (tg : S64x65536x8.Idx → ℝ)

/-- The moments after tile `nt` of image `b`. -/
def Spart (kp : S64x30x17x2.Idx → BitVec 32) (b : Fin 64) (nt : ℕ) (p : Fin 32) (j : Fin 16) : ℝ :=
  if h : j.val < 8 then ∑ k, w32 kp b p k * bandTerm (rows tg b) (idx32 kp b p k) 0 (8192 * (nt + 1)) ⟨j.val, h⟩
  else ∑ k, w32 kp b p k * bandTerm (sqr (rows tg b)) (idx32 kp b p k) 0 (8192 * (nt + 1)) ⟨j.val - 8, by have := j.isLt; omega⟩

theorem Spart_lo (kp : S64x30x17x2.Idx → BitVec 32) (b : Fin 64) (nt : ℕ) (p : Fin 32) (t : Fin 8) :
    Spart tg kp b nt p (lo t) = ∑ k, w32 kp b p k * bandTerm (rows tg b) (idx32 kp b p k) 0 (8192 * (nt + 1)) t := by
  unfold Spart lo
  rw [dif_pos (show (⟨t.val, _⟩ : Fin 16).val < 8 from t.isLt)]

theorem Spart_hi (kp : S64x30x17x2.Idx → BitVec 32) (b : Fin 64) (nt : ℕ) (p : Fin 32) (t : Fin 8) :
    Spart tg kp b nt p (hi t) = ∑ k, w32 kp b p k * bandTerm (sqr (rows tg b)) (idx32 kp b p k) 0 (8192 * (nt + 1)) t := by
  unfold Spart hi
  rw [dif_neg (show ¬ (⟨t.val + 8, _⟩ : Fin 16).val < 8 from by simp)]
  refine Finset.sum_congr rfl fun k _ => ?_
  congr 2 <;> exact Fin.ext (by simp)

/-- A column of the moments is a first-moment column or a second-moment column. -/
theorem col_cases (j : Fin 16) : (∃ t : Fin 8, j = lo t) ∨ (∃ t : Fin 8, j = hi t) := by
  by_cases h : j.val < 8
  · exact Or.inl ⟨⟨j.val, h⟩, Fin.ext rfl⟩
  · exact Or.inr ⟨⟨j.val - 8, by have := j.isLt; omega⟩, Fin.ext (by simp [hi]; omega)⟩

/-- After the last tile the moments are those of the gathered tags. -/
theorem Spart_last (kp : S64x30x17x2.Idx → BitVec 32) (b : Fin 64) (p : Fin 32) (j : Fin 16) :
    Spart tg kp b 7 p j = Sof (g32 tg kp b) (w32 kp b) p j := by
  unfold Spart Sof
  by_cases h : j.val < 8
  · rw [dif_pos h, dif_pos h]
    refine Finset.sum_congr rfl fun k _ => ?_
    rw [show 8192 * (7 + 1) = 65536 from rfl, bandTerm_all]
    rfl
  · rw [dif_neg h, dif_neg h]
    refine Finset.sum_congr rfl fun k _ => ?_
    rw [show 8192 * (7 + 1) = 65536 from rfl, bandTerm_all]
    unfold g32 sqr rows
    by_cases h2 : idx32 kp b p k < 65536
    · simp only [dif_pos h2]
    · simp only [dif_neg h2, mul_zero]

/-- One tile's step on the sums. -/
theorem step_sum (X : Fin 65536 → Fin 8 → ℝ) (w : Fin 17 → ℝ) (n : Fin 17 → ℕ) (nt : ℕ) (t : Fin 8) :
    (∑ k, w k * bandTerm X (n k) 0 (8192 * (nt + 1)) t) + ∑ k, w k * bandTerm X (n k) (8192 * (nt + 1)) (8192 * (nt + 1 + 1)) t
      = ∑ k, w k * bandTerm X (n k) 0 (8192 * (nt + 1 + 1)) t := by
  rw [← Finset.sum_add_distrib]
  refine Finset.sum_congr rfl fun k _ => ?_
  rw [← mul_add, bandTerm_add X (n k) _ _ (by omega) t]

/-! ## The invariant -/

/-- The arguments as the region finds them. -/
abbrev kpOf (c : Dev nD) : S64x30x17x2.Idx → BitVec 32 := m ((c : Thread nD τ).loc main_arg1)

/-- The three windows' blocks and the carried moments, as arrays of their literal types. -/
abbrev blk0 (c : Dev nD) (t : Fin cfg0.N) : Vec Ideal S1x8192x8 .f32 := iblk m c 0 t
abbrev blk1 (c : Dev nD) (t : Fin cfg0.N) : Vec Ideal S1x32x17 .i32 := iblk m c 1 t
abbrev blk2 (c : Dev nD) (t : Fin cfg0.N) : Vec Ideal S1x32x17 .f32 := iblk m c 2 t

/-- The update at a point whose carried moments are the real array `A`. -/
theorem acc_at (c : Dev nD) (htg : ∀ j, m ((c : Thread nD τ).loc main_arg0) j = ((tg j : ℝ) : EReal))
    (t : Fin cfg0.N) (b : Fin 64) (nt : ℕ) (hnt : nt < 8) (ht : t.val = 8 * b.val + nt)
    (A : Fin 32 → Fin 16 → ℝ) (xs : Vec Ideal S32x16 .f32) (hxs : ∀ (p : Fin 32) (j : Fin 16), xs (ix2 p j) = ((A p j : ℝ) : EReal))
    (p : Fin 32) (q : Fin 8) :
    accpay (F := Ideal) (grid0.coords t) (blk0 m c t) (blk1 m c t) (blk2 m c t) xs (ix2 p (lo q))
        = ((A p (lo q) + ∑ k, w32 (kpOf m c) b p k * bandTerm (rows tg b) (idx32 (kpOf m c) b p k) (8192 * nt) (8192 * (nt + 1)) q : ℝ) : EReal)
    ∧ accpay (F := Ideal) (grid0.coords t) (blk0 m c t) (blk1 m c t) (blk2 m c t) xs (ix2 p (hi q))
        = ((A p (hi q) + ∑ k, w32 (kpOf m c) b p k * bandTerm (sqr (rows tg b)) (idx32 (kpOf m c) b p k) (8192 * nt) (8192 * (nt + 1)) q : ℝ) : EReal) :=
  accpay_apply (grid0.coords t) nt (by rw [coord1, ht]; omega) hnt (rows tg b) (idxBV (kpOf m c) b) (w32 (kpOf m c) b) A
    (blk0 m c t) (blk1 m c t) (blk2 m c t) xs
    (fun cc q' => iblk0_apply m c t b nt hnt ht tg htg cc q')
    (fun p' k => iblk1_apply m c t b nt hnt ht p' k)
    (fun p' k => iblk2_apply m c t b nt hnt ht p' k)
    hxs p q

/-- The first tile of an image: the moments start from zero. -/
theorem inv_A (c : Dev nD) (htg : ∀ j, m ((c : Thread nD τ).loc main_arg0) j = ((tg j : ℝ) : EReal))
    (t : Fin cfg0.N) (b : Fin 64) (ht : t.val = 8 * b.val + 0) (p : Fin 32) (j : Fin 16) :
    (outsAt0 m c t.val t.isLt).2 (ix2 p j) = ((Spart tg (kpOf m c) b 0 p j : ℝ) : EReal) := by
  have h0 : t.val % 8 = 0 := by omega
  have h1 : ¬ t.val % 8 = 7 := by omega
  rw [outsAt0_A m c t h0 h1]
  dsimp only
  refine (congrFun (sout_A (F := Ideal) c (grid0.coords t) (ms0_0 t) (hs0_0 t) (ms0_1 t) (hs0_1 t) (ms0_2 t) (hs0_2 t) (ms0_3 t) (hs0_3 t)
    scM0_0 (Memref.isWhole_whole _) ((hcond0_0 t).mpr h0) (fun h => h1 ((hcond0_1 t).mp h)) (iblk m c 0 t) (iblk m c 1 t) (iblk m c 2 t)) (ix2 p j)).trans ?_
  rcases col_cases j with ⟨q, rfl⟩ | ⟨q, rfl⟩
  · refine ((acc_at m tg c htg t b 0 (by norm_num) ht (fun _ _ => 0) (k0_pay14 (F := Ideal)) (fun p' j' => pay14_apply p' j') p q).1).trans ?_
    rw [Spart_lo]
    simp only [Nat.mul_zero, zero_add]
  · refine ((acc_at m tg c htg t b 0 (by norm_num) ht (fun _ _ => 0) (k0_pay14 (F := Ideal)) (fun p' j' => pay14_apply p' j') p q).2).trans ?_
    rw [Spart_hi]
    simp only [Nat.mul_zero, zero_add]

/-- The update of known moments at a later tile. -/
theorem acc_step (c : Dev nD) (htg : ∀ j, m ((c : Thread nD τ).loc main_arg0) j = ((tg j : ℝ) : EReal))
    (t : Fin cfg0.N) (b : Fin 64) (nt : ℕ) (hnt : nt + 1 < 8) (ht : t.val = 8 * b.val + (nt + 1))
    (xs : Vec Ideal S32x16 .f32)
    (hxs : ∀ (p : Fin 32) (j : Fin 16), xs (ix2 p j) = ((Spart tg (kpOf m c) b nt p j : ℝ) : EReal))
    (p : Fin 32) (j : Fin 16) :
    accpay (F := Ideal) (grid0.coords t) (blk0 m c t) (blk1 m c t) (blk2 m c t) xs (ix2 p j)
      = ((Spart tg (kpOf m c) b (nt + 1) p j : ℝ) : EReal) := by
  rcases col_cases j with ⟨q, rfl⟩ | ⟨q, rfl⟩
  · refine ((acc_at m tg c htg t b (nt + 1) hnt ht (Spart tg (kpOf m c) b nt) xs hxs p q).1).trans ?_
    rw [Spart_lo, Spart_lo, step_sum]
  · refine ((acc_at m tg c htg t b (nt + 1) hnt ht (Spart tg (kpOf m c) b nt) xs hxs p q).2).trans ?_
    rw [Spart_hi, Spart_hi, step_sum]

/-- A later tile of an image: the moments of the tile before are updated. -/
theorem inv_step (c : Dev nD) (htg : ∀ j, m ((c : Thread nD τ).loc main_arg0) j = ((tg j : ℝ) : EReal))
    (t : Fin cfg0.N) (b : Fin 64) (nt : ℕ) (hnt : nt + 1 < 8) (ht : t.val = 8 * b.val + (nt + 1))
    (hprev : ∀ (p : Fin 32) (j : Fin 16), (outsAt0 m c (t.val - 1) (Nat.lt_of_le_of_lt (Nat.sub_le _ _) t.isLt)).2 (ix2 p j)
      = ((Spart tg (kpOf m c) b nt p j : ℝ) : EReal))
    (p : Fin 32) (j : Fin 16) :
    (outsAt0 m c t.val t.isLt).2 (ix2 p j) = ((Spart tg (kpOf m c) b (nt + 1) p j : ℝ) : EReal) := by
  have h0 : ¬ t.val % 8 = 0 := by omega
  by_cases h1 : t.val % 8 = 7
  · rw [outsAt0_C m c t h0 h1]
    dsimp only
    refine (congrFun (sout_C (F := Ideal) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2) (ix2 p j)).trans ?_
    exact acc_step m tg c htg t b nt hnt ht _ hprev p j
  · rw [outsAt0_B m c t h0 h1]
    dsimp only
    refine (congrFun (sout_B (F := Ideal) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (fun h => h1 ((hcond0_1 t).mp h)) (iblk m c 0 t) (iblk m c 1 t) (iblk m c 2 t)
      (outsAt0 m c (t.val - 1) (Nat.lt_of_le_of_lt (Nat.sub_le _ _) t.isLt)).2) (ix2 p j)).trans ?_
    exact acc_step m tg c htg t b nt hnt ht _ hprev p j

/-- The carried moments after the point of image `b`, tile `nt`. -/
theorem scratch_inv (c : Dev nD) (htg : ∀ j, m ((c : Thread nD τ).loc main_arg0) j = ((tg j : ℝ) : EReal)) :
    ∀ (n : ℕ) (hn : n < cfg0.N) (b : Fin 64) (nt : ℕ), nt < 8 → n = 8 * b.val + nt → ∀ (p : Fin 32) (j : Fin 16),
      (outsAt0 m c n hn).2 (ix2 p j) = ((Spart tg (kpOf m c) b nt p j : ℝ) : EReal) := by
  intro n
  induction n with
  | zero =>
    intro hn b nt hnt h p j
    obtain rfl : nt = 0 := by omega
    exact inv_A m tg c htg ⟨0, hn⟩ b h p j
  | succ n ih =>
    intro hn b nt hnt h p j
    cases nt with
    | zero => exact inv_A m tg c htg ⟨n + 1, hn⟩ b h p j
    | succ nt' =>
      exact inv_step m tg c htg ⟨n + 1, hn⟩ b nt' hnt h
        (fun p' j' => ih (Nat.lt_of_succ_lt hn) b nt' (by omega) (by omega) p' j') p j

/-! ## The stored block -/

theorem w32_01 (kp : S64x30x17x2.Idx → BitVec 32) (b : Fin 64) (p : Fin 32) (k : Fin 17) : w32 kp b p k = 0 ∨ w32 kp b p k = 1 := by
  unfold w32
  split_ifs <;> simp

theorem w32_pad (kp : S64x30x17x2.Idx → BitVec 32) (b : Fin 64) (p : Fin 32) (hp : 30 ≤ p.val) (k : Fin 17) : w32 kp b p k = 0 := by
  unfold w32
  rw [dif_neg (by omega)]

/-- The block image `b`'s last tile stores: its push loss, then its pull loss. -/
theorem block_at (c : Dev nD) (htg : ∀ j, m ((c : Thread nD τ).loc main_arg0) j = ((tg j : ℝ) : EReal))
    (t : Fin cfg0.N) (b : Fin 64) (ht : t.val = 8 * b.val + 7) :
    (outsAt0 m c t.val t.isLt).1 (ix3 (0 : Fin 1) (0 : Fin 1) (0 : Fin 2)) = ((push (gR tg (kpOf m c) b) (vR (kpOf m c) b) : ℝ) : EReal)
    ∧ (outsAt0 m c t.val t.isLt).1 (ix3 (0 : Fin 1) (0 : Fin 1) (1 : Fin 2)) = ((pull (gR tg (kpOf m c) b) (vR (kpOf m c) b) : ℝ) : EReal) := by
  have h0 : ¬ t.val % 8 = 0 := by omega
  have h1 : t.val % 8 = 7 := by omega
  have hprev : ∀ (p : Fin 32) (j : Fin 16), (outsAt0 m c (t.val - 1) (Nat.lt_of_le_of_lt (Nat.sub_le _ _) t.isLt)).2 (ix2 p j)
      = ((Spart tg (kpOf m c) b 6 p j : ℝ) : EReal) :=
    fun p j => scratch_inv m tg c htg (t.val - 1) _ b 6 (by norm_num) (by omega) p j
  have hfin := finalpay_apply (Sof (g32 tg (kpOf m c) b) (w32 (kpOf m c) b)) (w32 (kpOf m c) b) (blk2 m c t)
    (accpay (F := Ideal) (grid0.coords t) (blk0 m c t) (blk1 m c t) (blk2 m c t) (outsAt0 m c (t.val - 1) (Nat.lt_of_le_of_lt (Nat.sub_le _ _) t.isLt)).2)
    (fun p k => iblk2_apply m c t b 7 (by norm_num) ht p k)
    (fun p j => (acc_step m tg c htg t b 6 (by norm_num) ht _ hprev p j).trans (by rw [Spart_last]))
  rw [kpush_eq_push _ _ (w32_01 _ b) (w32_pad _ b), kpull_eq_pull _ _ (w32_01 _ b) (w32_pad _ b)] at hfin
  rw [outsAt0_C m c t h0 h1]
  dsimp only
  rw [show out0_C_3 c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2
    = finalpay (F := Ideal) (blk2 m c t) (accpay (F := Ideal) (grid0.coords t) (blk0 m c t) (blk1 m c t) (blk2 m c t) (outsAt0 m c (t.val - 1) (Nat.lt_of_le_of_lt (Nat.sub_le _ _) t.isLt)).2)
    from out_C (F := Ideal) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2]
  exact hfin

/-! ## The program's result -/

/-- The kernel program ends with the loss array as its result and its arguments unchanged. -/
theorem run (ρ : Dev nD → PrngReg) (tgs : Dev nD → S64x65536x8.Idx → ℝ)
    (htg : ∀ (c : Dev nD) j, m ((c : Thread nD τ).loc main_arg0) j = ((tgs c j : ℝ) : EReal)) :
    θ_run defs (onTc (τ := τ) (main (F := Ideal))) ⟨m, fun _ => 0, ρ⟩ (fun r => ∀ c : Dev nD,
      r.2.mem ((c : Thread nD τ).loc main_v10) = lossArr (tgs c) (kpOf m c)
      ∧ r.2.mem ((c : Thread nD τ).loc main_arg0) = m ((c : Thread nD τ).loc main_arg0)
      ∧ r.2.mem ((c : Thread nD τ).loc main_arg1) = m ((c : Thread nD τ).loc main_arg1)) := by
  have hN : cfg0.N = 512 := N_0
  refine (θ_run defs _ _).mono (fun r h c => ⟨?_, (h c).2⟩)
    (Cert.KernelIdeal.Arr.run_of_blocks m ρ
      (fun c b => (outsAt0 m c (8 * b.val + 7) (by have := b.isLt; omega)).1) (fun c t b ht => ?_))
  · funext i
    obtain ⟨b, q, rfl⟩ : ∃ (b : Fin 64) (q : Fin 2), i = ix2 b q := ⟨i 0, i 1, eq_ix2 i⟩
    rw [(h c).1 b q]
    have hb := block_at m (tgs c) c (htg c) ⟨8 * b.val + 7, by have := b.isLt; omega⟩ b rfl
    match q with
    | ⟨0, _⟩ => exact hb.1.trans (if_pos rfl).symm
    | ⟨1, _⟩ => exact hb.2.trans (if_neg (show ¬ (1 : ℕ) = 0 from Nat.one_ne_zero)).symm
  · obtain ⟨n, hn⟩ := t
    dsimp only at ht
    subst ht
    rfl

end Cert.KernelIdeal.Inv

end
-- ==== Proof.Pre.lean ====
/-
  The precondition read: every tag is a real number, and every joint's pixel index lies in [0, 65536).
-/
import proofs.«426285_j17789754540200_2_alg».proof.Pre_finite_inputs
import Idealize.ShloMosaic.PureOps.Ideal
import Idealize.ShloMosaic.Lib.ValueIdx
import Idealize.ShloMosaic.Lib.ReduceAll
import Idealize.ShloMosaic.Lib.StableHlo.Predicate
import Idealize.ShloMosaic.Lib.Pipeline.Value

noncomputable section

namespace Cert.Pre_finite_inputs.Decode

open Idealize.ShloMosaic Idealize.ShloMosaic.ValueIdx Cert.Pre_finite_inputs

/-- The empty index type has one element. -/
instance : Subsingleton S_.Idx := ⟨fun a b => funext fun d => d.elim0⟩

/-- The word 0x7F800000 denotes +∞. -/
theorem top_word : Ideal.ofBits .f32 0x7F800000#32 = (⊤ : EReal) := by
  simp [Ideal.ofBits, Ideal.ieee]

/-- An extended real whose absolute value max x (-x) lies strictly below +∞ is a real number. -/
theorem real_of_abs_lt_top (x : EReal) (h : Ideal.cmp .olt (max x (-x)) (⊤ : EReal) = 1#1) :
    ∃ r : ℝ, x = ((r : ℝ) : EReal) := by
  induction x using EReal.rec with
  | bot => simp [Ideal.cmp] at h
  | coe r => exact ⟨r, rfl⟩
  | top => simp [Ideal.cmp] at h

/-- A 32-bit word that is at least 0 and below 65536 as a signed number is below 65536 as an unsigned one. -/
theorem toNat_lt_of_signed (w : BitVec 32) (h0 : IntOp.cmpi .sge w 0#32 = 1#1) (h1 : IntOp.cmpi .slt w 65536#32 = 1#1) :
    w.toNat < 65536 := by
  unfold IntOp.cmpi at h0 h1
  rw [StableHlo.Predicate.ofBool_eq_one_iff] at h0 h1
  simp only [BitVec.slt, BitVec.sle, decide_eq_true_eq] at h0 h1
  have h32 := w.isLt
  have z : (0#32 : BitVec 32).toInt = 0 := by decide
  have c : (65536#32 : BitVec 32).toInt = 65536 := by decide
  rw [z] at h0
  rw [c] at h1
  rw [BitVec.toInt_eq_toNat_cond] at h0 h1
  split at h1 <;> omega

/-- The first pixel coordinate, sliced out and reshaped, read at (b, p, k) is the index array at (b, p, k, 0). -/
theorem idx_read [Cert.Pre_finite_inputs.Facts] (x1 : IVec S64x30x17x2 32) (b : Fin 64) (p : Fin 30) (k : Fin 17) :
    shapeCast S64x30x17
        (extractStridedSlice S64x30x17x1 ![0, 0, 0, 0] x1 Facts.slices_S64x30x17x2_S64x30x17x1_0_0_0_0)
        Facts.shapeCasts_S64x30x17x1_S64x30x17 (ix3 b p k)
      = x1 (ix4 b p k (0 : Fin 2)) := by
  refine (shapeCast_apply _ _ (ix3 b p k) (ix4 b p k (0 : Fin 1)) ?_).trans ?_
  · rw [Shape.rowMajor_val_four, Shape.rowMajor_val_three]
    show ((b.val * 30 + p.val) * 17 + k.val) * 1 + 0 = (b.val * 30 + p.val) * 17 + k.val
    omega
  · refine extractStridedSlice_apply _ _ _ _ _ (fun a => ?_)
    match a with
    | ⟨0, _⟩ => show b.val = 0 + b.val; omega
    | ⟨1, _⟩ => show p.val = 0 + p.val; omega
    | ⟨2, _⟩ => show k.val = 0 + k.val; omega
    | ⟨3, _⟩ => show (0 : Nat) = 0 + 0; rfl

theorem of_pre [Cert.Pre_finite_inputs.Facts] (x0 : FVec Ideal S64x65536x8 .f32) (x1 : IVec S64x30x17x2 32)
    (h : Cert.Pre_finite_inputs.fn (F := Ideal) x0 x1 = fun _ => 1#1) :
    (∀ j, ∃ r : ℝ, x0 j = ((r : ℝ) : EReal))
    ∧ (∀ (b : Fin 64) (p : Fin 30) (k : Fin 17), (x1 (ix4 b p k (0 : Fin 2))).toNat < 65536) := by
  have e := congrFun h ValueIdx.ix0
  dsimp only [Cert.Pre_finite_inputs.fn] at e
  obtain ⟨e12, e3⟩ := IntOp.andi_eq_one.1 e
  obtain ⟨e1, e2⟩ := IntOp.andi_eq_one.1 e12
  refine ⟨fun j => ?_, fun b p k => ?_⟩
  · have hj := Host.reduce_andi_all _ _ _ _ _ e1 j
    refine real_of_abs_lt_top (x0 j) ?_
    rw [← top_word]
    exact hj
  · have h0 := Host.reduce_andi_all _ _ _ _ _ e2 (ix3 b p k)
    have h1 := Host.reduce_andi_all _ _ _ _ _ e3 (ix3 b p k)
    refine toNat_lt_of_signed _ ?_ ?_
    · rw [← idx_read x1 b p k]; exact h0
    · rw [← idx_read x1 b p k]; exact h1

end Cert.Pre_finite_inputs.Decode

end
-- ==== Proof.lean ====
/-
  The kernel computes, per image, the associative-embedding loss (push term, pull term) of 30 persons' 17 joints over a
  [65536, 8] tag map: it never gathers a tag row, but accumulates, tile by tile over the 65536 rows, the product of a one-hot
  weight matrix (row p, column n: the summed validity weights of person p's joints whose pixel index is n) with the tile's
  tags and squared tags, and closes with the moments' formula; the reference gathers the rows and computes the loss from the
  differences to the persons' mean tags. Over the extended reals, with every tag a real number and every pixel index in
  [0, 65536), the two are one function: the one-hot product picks the gathered rows, the pull term is the second moment
  minus count times the squared norm of the mean, and the squared distance of two means is the sum of their squared norms
  minus twice their inner product.
-/
import proofs.«426285_j17789754540200_2_alg».proof.Defs
import proofs.«426285_j17789754540200_2_alg».proof.Proof.Gen.Kernel
import proofs.«426285_j17789754540200_2_alg».proof.Proof.Gen.Kernel.Frame
import proofs.«426285_j17789754540200_2_alg».proof.Proof.Gen.KernelIdeal
import proofs.«426285_j17789754540200_2_alg».proof.Proof.Gen.KernelIdeal.Frame
import proofs.«426285_j17789754540200_2_alg».proof.Proof.Gen.ReferenceIdeal
import proofs.«426285_j17789754540200_2_alg».proof.Proof.Gen.Pre_finite_inputs
import proofs.«426285_j17789754540200_2_alg».proof.Proof.RefRunHand
import proofs.«426285_j17789754540200_2_alg».proof.Proof.RefRead
import proofs.«426285_j17789754540200_2_alg».proof.Proof.RefLoss
import proofs.«426285_j17789754540200_2_alg».proof.Proof.KernelInv
import proofs.«426285_j17789754540200_2_alg».proof.Proof.Pre
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's run with its result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.HandRun.run_val (F := Ideal) m ρ)

/-- Both programs end with the loss array of the arguments. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hdec := fun c => @Cert.Pre_finite_inputs.Decode.of_pre Cert.Pre_finite_inputs.Gen.facts _ _ (hpre c)
  choose tgs htg using fun c => (hdec c).1
  refine ⟨fun c => AELoss.lossArr (tgs c) (m ((c.tc : Thread Cert.KernelIdeal.nD Cert.KernelIdeal.τ).loc Cert.KernelIdeal.main_arg1)),
    Cert.KernelIdeal.Inv.run m ρ tgs htg, ?_⟩
  refine (θ_run Cert.ReferenceIdeal.defs _ _).mono (fun _ h c => ⟨(h c).1.trans ?_, (h c).2⟩)
    (Cert.ReferenceIdeal.HandRun.run_val (F := Ideal) m' ρ')
  rw [(hagree c).1, (hagree c).2]
  exact Cert.ReferenceIdeal.RefValue.v76_at _ _ (tgs c) (htg c) (hdec c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
